-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S500001x256 : Shape := ⟨2, ![500001, 256]⟩
abbrev S1001x256 : Shape := ⟨2, ![1001, 256]⟩
abbrev S_ : Shape := ⟨0, ![]⟩
abbrev S65536x1 : Shape := ⟨2, ![65536, 1]⟩

class Facts : Prop where
  bcast_S_S500001x256 : S_.BroadcastsInDim S500001x256 (![] : Fin 0 → Fin S500001x256.rank)
  reducesTo_S500001x256_S_d0_1 : S500001x256.ReducesTo [0, 1] S_
  h_S_ : 0 < S_.numel
  bcast_S_S1001x256 : S_.BroadcastsInDim S1001x256 (![] : Fin 0 → Fin S1001x256.rank)
  reducesTo_S1001x256_S_d0_1 : S1001x256.ReducesTo [0, 1] S_
  slices_S65536x3_S65536x1_0_0 : S65536x3.Slices ![0, 0] S65536x1
  bcast_S_S65536x1 : S_.BroadcastsInDim S65536x1 (![] : Fin 0 → Fin S65536x1.rank)
  reducesTo_S65536x1_S_d0_1 : S65536x1.ReducesTo [0, 1] S_
  slices_S65536x3_S65536x1_0_1 : S65536x3.Slices ![0, 1] S65536x1
  slices_S65536x3_S65536x1_0_2 : S65536x3.Slices ![0, 2] S65536x1

variable [Facts]

def fn_part2 {F : FTy → Type} [FloatOps F] (main_arg0 : IVec S65536x3 32) (main_v27 : IVec S_ 1) (main_v34 : IVec S65536x1 1) : IVec S_ 1 :=
  let main_c_11 : IVec S_ 1 := constantI S_ 1 1#1
  let main_v35 : IVec S_ 1 := (fun x v => Host.reduce IntOp.andi x v reducesTo_S65536x1_S_d0_1 h_S_) main_v34 main_c_11
  let main_v36 : IVec S_ 1 := andi main_v27 main_v35
  let main_v37 : IVec S65536x1 32 := (extractStridedSlice S65536x1 ![0, 2] · slices_S65536x3_S65536x1_0_2) main_arg0
  let main_c_12 : IVec S_ 32 := constantI S_ 32 0#32
  let main_v38 : IVec S65536x1 32 := broadcastInDim S65536x1 ![] bcast_S_S65536x1 main_c_12
  let main_v39 : IVec S65536x1 1 := cmpi .sge main_v37 main_v38
  let main_v40 : IVec S65536x1 32 := (extractStridedSlice S65536x1 ![0, 2] · slices_S65536x3_S65536x1_0_2) main_arg0
  let main_c_13 : IVec S_ 32 := constantI S_ 32 500001#32
  let main_v41 : IVec S65536x1 32 := broadcastInDim S65536x1 ![] bcast_S_S65536x1 main_c_13
  let main_v42 : IVec S65536x1 1 := cmpi .slt main_v40 main_v41
  let main_v43 : IVec S65536x1 1 := andi main_v39 main_v42
  let main_c_14 : IVec S_ 1 := constantI S_ 1 1#1
  let main_v44 : IVec S_ 1 := (fun x v => Host.reduce IntOp.andi x v reducesTo_S65536x1_S_d0_1 h_S_) main_v43 main_c_14
  let main_v45 : IVec S_ 1 := andi main_v36 main_v44
  main_v45

def fn_part1 {F : FTy → Type} [FloatOps F] (main_arg0 : IVec S65536x3 32) (main_v13 : IVec S_ 1) (main_v16 : IVec S1001x256 1) : IVec S_ 1 :=
  let main_c_5 : IVec S_ 1 := constantI S_ 1 1#1
  let main_v17 : IVec S_ 1 := (fun x v => Host.reduce IntOp.andi x v reducesTo_S1001x256_S_d0_1 h_S_) main_v16 main_c_5
  let main_v18 : IVec S_ 1 := andi main_v13 main_v17
  let main_v19 : IVec S65536x1 32 := (extractStridedSlice S65536x1 ![0, 0] · slices_S65536x3_S65536x1_0_0) main_arg0
  let main_c_6 : IVec S_ 32 := constantI S_ 32 0#32
  let main_v20 : IVec S65536x1 32 := broadcastInDim S65536x1 ![] bcast_S_S65536x1 main_c_6
  let main_v21 : IVec S65536x1 1 := cmpi .sge main_v19 main_v20
  let main_v22 : IVec S65536x1 32 := (extractStridedSlice S65536x1 ![0, 0] · slices_S65536x3_S65536x1_0_0) main_arg0
  let main_c_7 : IVec S_ 32 := constantI S_ 32 500001#32
  let main_v23 : IVec S65536x1 32 := broadcastInDim S65536x1 ![] bcast_S_S65536x1 main_c_7
  let main_v24 : IVec S65536x1 1 := cmpi .slt main_v22 main_v23
  let main_v25 : IVec S65536x1 1 := andi main_v21 main_v24
  let main_c_8 : IVec S_ 1 := constantI S_ 1 1#1
  let main_v26 : IVec S_ 1 := (fun x v => Host.reduce IntOp.andi x v reducesTo_S65536x1_S_d0_1 h_S_) main_v25 main_c_8
  let main_v27 : IVec S_ 1 := andi main_v18 main_v26
  let main_v28 : IVec S65536x1 32 := (extractStridedSlice S65536x1 ![0, 1] · slices_S65536x3_S65536x1_0_1) main_arg0
  let main_c_9 : IVec S_ 32 := constantI S_ 32 0#32
  let main_v29 : IVec S65536x1 32 := broadcastInDim S65536x1 ![] bcast_S_S65536x1 main_c_9
  let main_v30 : IVec S65536x1 1 := cmpi .sge main_v28 main_v29
  let main_v31 : IVec S65536x1 32 := (extractStridedSlice S65536x1 ![0, 1] · slices_S65536x3_S65536x1_0_1) main_arg0
  let main_c_10 : IVec S_ 32 := constantI S_ 32 1001#32
  let main_v32 : IVec S65536x1 32 := broadcastInDim S65536x1 ![] bcast_S_S65536x1 main_c_10
  let main_v33 : IVec S65536x1 1 := cmpi .slt main_v31 main_v32
  let main_v34 : IVec S65536x1 1 := andi main_v30 main_v33
  fn_part2 (F := F) main_arg0 main_v27 main_v34

def fn {F : FTy → Type} [FloatOps F] (main_arg0 : IVec S65536x3 32) (main_arg1 : FVec F S500001x256 .f32) (main_arg2 : FVec F S500001x256 .f32) (main_arg3 : FVec F S1001x256 .f32) (main_arg4 : FVec F S1001x256 .f32) : IVec S_ 1 :=
  let main_v0 : FVec F S500001x256 .f32 := Host.absf main_arg1
  let main_cst : FVec F S_ .f32 := constant S_ .f32 0x7F800000#32
  let main_v1 : FVec F S500001x256 .f32 := broadcastInDim S500001x256 ![] bcast_S_S500001x256 main_cst
  let main_v2 : IVec S500001x256 1 := cmpf .olt main_v0 main_v1
  let main_c : IVec S_ 1 := constantI S_ 1 1#1
  let main_v3 : IVec S_ 1 := (fun x v => Host.reduce IntOp.andi x v reducesTo_S500001x256_S_d0_1 h_S_) main_v2 main_c
  let main_v4 : FVec F S500001x256 .f32 := Host.absf main_arg2
  let main_cst_0 : FVec F S_ .f32 := constant S_ .f32 0x7F800000#32
  let main_v5 : FVec F S500001x256 .f32 := broadcastInDim S500001x256 ![] bcast_S_S500001x256 main_cst_0
  let main_v6 : IVec S500001x256 1 := cmpf .olt main_v4 main_v5
  let main_c_1 : IVec S_ 1 := constantI S_ 1 1#1
  let main_v7 : IVec S_ 1 := (fun x v => Host.reduce IntOp.andi x v reducesTo_S500001x256_S_d0_1 h_S_) main_v6 main_c_1
  let main_v8 : IVec S_ 1 := andi main_v3 main_v7
  let main_v9 : FVec F S1001x256 .f32 := Host.absf main_arg3
  let main_cst_2 : FVec F S_ .f32 := constant S_ .f32 0x7F800000#32
  let main_v10 : FVec F S1001x256 .f32 := broadcastInDim S1001x256 ![] bcast_S_S1001x256 main_cst_2
  let main_v11 : IVec S1001x256 1 := cmpf .olt main_v9 main_v10
  let main_c_3 : IVec S_ 1 := constantI S_ 1 1#1
  let main_v12 : IVec S_ 1 := (fun x v => Host.reduce IntOp.andi x v reducesTo_S1001x256_S_d0_1 h_S_) main_v11 main_c_3
  let main_v13 : IVec S_ 1 := andi main_v8 main_v12
  let main_v14 : FVec F S1001x256 .f32 := Host.absf main_arg4
  let main_cst_4 : FVec F S_ .f32 := constant S_ .f32 0x7F800000#32
  let main_v15 : FVec F S1001x256 .f32 := broadcastInDim S1001x256 ![] bcast_S_S1001x256 main_cst_4
  let main_v16 : IVec S1001x256 1 := cmpf .olt main_v14 main_v15
  fn_part1 (F := F) main_arg0 main_v13 main_v16
-- ==== Kernel.lean ====
abbrev S65536x3 : Shape := ⟨2, ![65536, 3]⟩
abbrev S500001x256 : Shape := ⟨2, ![500001, 256]⟩
abbrev S1001x256 : Shape := ⟨2, ![1001, 256]⟩
abbrev S65536x1 : Shape := ⟨2, ![65536, 1]⟩
abbrev S65536 : Shape := ⟨1, ![65536]⟩
abbrev S500001x1x256 : Shape := ⟨3, ![500001, 1, 256]⟩
abbrev S1001x1x256 : Shape := ⟨3, ![1001, 1, 256]⟩
abbrev S65536x1x256 : Shape := ⟨3, ![65536, 1, 256]⟩
abbrev S1x1x256 : Shape := ⟨3, ![1, 1, 256]⟩
abbrev S1 : Shape := ⟨1, ![1]⟩
abbrev S1x1 : Shape := ⟨2, ![1, 1]⟩
abbrev S1x1x1 : Shape := ⟨3, ![1, 1, 1]⟩
abbrev S65536x256 : Shape := ⟨2, ![65536, 256]⟩

abbrev nBuf : Space → Nat
  | .hbm => 18
  | .vmem => 18
  | .smem => 3
  | _ => 0

abbrev bufTy : (tb : Table) → Fin (tcTables nBuf tb) → BufTy
  | .hbm, ⟨0, _⟩ => ⟨S65536x3, .i32⟩
  | .hbm, ⟨1, _⟩ => ⟨S500001x256, .f32⟩
  | .hbm, ⟨2, _⟩ => ⟨S500001x256, .f32⟩
  | .hbm, ⟨3, _⟩ => ⟨S1001x256, .f32⟩
  | .hbm, ⟨4, _⟩ => ⟨S1001x256, .f32⟩
  | .hbm, ⟨5, _⟩ => ⟨S65536x1, .i32⟩
  | .hbm, ⟨6, _⟩ => ⟨S65536x1, .i32⟩
  | .hbm, ⟨7, _⟩ => ⟨S65536x1, .i32⟩
  | .hbm, ⟨8, _⟩ => ⟨S500001x1x256, .f32⟩
  | .hbm, ⟨9, _⟩ => ⟨S500001x1x256, .f32⟩
  | .hbm, ⟨10, _⟩ => ⟨S1001x1x256, .f32⟩
  | .hbm, ⟨11, _⟩ => ⟨S1001x1x256, .f32⟩
  | .hbm, ⟨12, _⟩ => ⟨S65536x1x256, .f32⟩
  | .hbm, ⟨13, _⟩ => ⟨S65536x1x256, .f32⟩
  | .hbm, ⟨14, _⟩ => ⟨S65536x1x256, .f32⟩
  | .hbm, ⟨15, _⟩ => ⟨S65536x256, .f32⟩
  | .hbm, ⟨16, _⟩ => ⟨S65536x256, .f32⟩
  | .hbm, ⟨17, _⟩ => ⟨S65536x256, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .smem, ⟨0, _⟩ => ⟨S65536, .i32⟩
  | .local _ .smem, ⟨1, _⟩ => ⟨S65536, .i32⟩
  | .local _ .smem, ⟨2, _⟩ => ⟨S65536, .i32⟩
  | _, _ => ⟨S65536x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v2 : Ref sig .tc := ⟨.hbm, 6, rfl⟩
abbrev main_v4 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v1 : Ref sig .tc := ⟨.smem, 0, rfl⟩
abbrev main_v3 : Ref sig .tc := ⟨.smem, 1, rfl⟩
abbrev main_v5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![65536], ![false]⟩

abbrev pre0 : Pipeline.Prefetch sig := ⟨3, ![main_v1.idx, main_v3.idx, main_v5.idx], fun | 0 => main_v1.names | 1 => main_v3.names | 2 => main_v5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S65536.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S65536) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S65536x3_S65536x1_0_0 : S65536x3.Slices ![0, 0] S65536x1
  shapeCasts_S65536x1_S65536 : S65536x1.ShapeCasts S65536
  slices_S65536x3_S65536x1_0_1 : S65536x3.Slices ![0, 1] S65536x1
  slices_S65536x3_S65536x1_0_2 : S65536x3.Slices ![0, 2] S65536x1
  shapeCasts_S500001x256_S500001x1x256 : S500001x256.ShapeCasts S500001x1x256
  shapeCasts_S1001x256_S1001x1x256 : S1001x256.ShapeCasts S1001x1x256
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  reduces_S1x1x256_S1x1 : S1x1x256.Reduces [2] S1x1
  shapeCasts_S1x1_S1x1x1 : S1x1.ShapeCasts S1x1x1
  broadcasts_S1x1x1_S1x1x256 : S1x1x1.Broadcasts S1x1x256
  shapeCasts_S65536x1x256_S65536x256 : S65536x1x256.ShapeCasts S65536x256
  hrank0 : 0 < grid0.rank
  k0_off1_inb : ∀ i : grid0.Coords, ∀ a, (k0_off1 i) a + S1.size a ≤ S65536.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S65536x1x256.size a
  hwx0_6 : ∀ i : grid0.Coords, EltTy.bits .f32 = 32 ∨ (Rect.block (s := S65536x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S65536x1x256.size a
  hwx0_7 : ∀ i : grid0.Coords, EltTy.bits .f32 = 32 ∨ (Rect.block (s := S65536x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S65536x1x256.size a
  hwx0_8 : ∀ i : grid0.Coords, EltTy.bits .f32 = 32 ∨ (Rect.block (s := S65536x1x256) S1x1x256.size (cc0_transform_8 i) (hinb0_8 i)).WholeWords (EltTy.packing .f32)

variable [Facts₀]

abbrev spec0_0 : Pipeline.WinSpec sig grid0.rank :=
  Pipeline.WinSpec.ofSpec (Memref.whole main_v6) S1x1x256.size reads0_0 false false 2 stage0_0 sem0_0 nbuf0_0 hstage0_0

abbrev spec0_1 : Pipeline.WinSpec sig grid0.rank :=
  Pipeline.WinSpec.ofSpec (Memref.whole main_v7) S1x1x256.size reads0_1 false false 2 stage0_1 sem0_1 nbuf0_1 hstage0_1

abbrev spec0_2 : Pipeline.WinSpec sig grid0.rank :=
  Pipeline.WinSpec.ofSpec (Memref.whole main_v6) S1x1x256.size reads0_2 false false 2 stage0_2 sem0_2 nbuf0_2 hstage0_2

abbrev spec0_3 : Pipeline.WinSpec sig grid0.rank :=
  Pipeline.WinSpec.ofSpec (Memref.whole main_v7) S1x1x256.size reads0_3 false false 2 stage0_3 sem0_3 nbuf0_3 hstage0_3

abbrev spec0_4 : Pipeline.WinSpec sig grid0.rank :=
  Pipeline.WinSpec.ofSpec (Memref.whole main_v8) S1x1x256.size reads0_4 false false 2 stage0_4 sem0_4 nbuf0_4 hstage0_4

abbrev spec0_5 : Pipeline.WinSpec sig grid0.rank :=
  Pipeline.WinSpec.ofSpec (Memref.whole main_v9) S1x1x256.size reads0_5 false false 2 stage0_5 sem0_5 nbuf0_5 hstage0_5

abbrev spec0_6 : Pipeline.WinSpec sig grid0.rank :=
  Pipeline.WinSpec.ofSpec (Memref.whole main_v10_0) S1x1x256.size reads0_6 true false 2 stage0_6 sem0_6 nbuf0_6 hstage0_6

abbrev spec0_7 : Pipeline.WinSpec sig grid0.rank :=
  Pipeline.WinSpec.ofSpec (Memref.whole main_v10_1) S1x1x256.size reads0_7 true false 2 stage0_7 sem0_7 nbuf0_7 hstage0_7

abbrev spec0_8 : Pipeline.WinSpec sig grid0.rank :=
  Pipeline.WinSpec.ofSpec (Memref.whole main_v10_2) S1x1x256.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 | 7 => hreads0_7 | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S500001x1x256.size a), EltTy.bits .f32 = 32 ∨ (Rect.block (s := S500001x1x256) S1x1x256.size (cc0_transform_0 k0_off1_inb numel1_S1 pf i) h).WholeWords (EltTy.packing .f32)) ∧
  (∀ i : grid0.Coords, ∃ h : (∀ a, (cc0_transform_1 k0_off1_inb numel1_S1 pf i a + 1) * S1x1x256.size a ≤ S500001x1x256.size a), EltTy.bits .f32 = 32 ∨ (Rect.block (s := S500001x1x256) S1x1x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S500001x1x256.size a), EltTy.bits .f32 = 32 ∨ (Rect.block (s := S500001x1x256) S1x1x256.size (cc0_transform_2 k0_off1_inb numel1_S1 pf i) h).WholeWords (EltTy.packing .f32)) ∧
  (∀ i : grid0.Coords, ∃ h : (∀ a, (cc0_transform_3 k0_off1_inb numel1_S1 pf i a + 1) * S1x1x256.size a ≤ S500001x1x256.size a), EltTy.bits .f32 = 32 ∨ (Rect.block (s := S500001x1x256) S1x1x256.size (cc0_transform_3 k0_off1_inb numel1_S1 pf i) h).WholeWords (EltTy.packing .f32)) ∧
  (∀ i : grid0.Coords, ∃ h : (∀ a, (cc0_transform_4 k0_off1_inb numel1_S1 pf i a + 1) * S1x1x256.size a ≤ S1001x1x256.size a), EltTy.bits .f32 = 32 ∨ (Rect.block (s := S1001x1x256) S1x1x256.size (cc0_transform_4 k0_off1_inb numel1_S1 pf i) h).WholeWords (EltTy.packing .f32)) ∧
  (∀ i : grid0.Coords, ∃ h : (∀ a, (cc0_transform_5 k0_off1_inb numel1_S1 pf i a + 1) * S1x1x256.size a ≤ S1001x1x256.size a), EltTy.bits .f32 = 32 ∨ (Rect.block (s := S1001x1x256) S1x1x256.size (cc0_transform_5 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2 i).elim fun h _ => h a | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2 i).elim fun _ h => h | 6 => hwx0_6 | 7 => hwx0_7 | 8 => hwx0_8 | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S65536x3 : Shape := ⟨2, ![65536, 3]⟩
abbrev S500001x256 : Shape := ⟨2, ![500001, 256]⟩
abbrev S1001x256 : Shape := ⟨2, ![1001, 256]⟩
abbrev S65536x1 : Shape := ⟨2, ![65536, 1]⟩
abbrev S65536 : Shape := ⟨1, ![65536]⟩
abbrev S_ : Shape := ⟨0, ![]⟩
abbrev S65536x256 : Shape := ⟨2, ![65536, 256]⟩

abbrev nBuf : Space → Nat
  | .hbm => 79
  | .vmem => 0
  | .smem => 0
  | _ => 0

abbrev bufTy : (tb : Table) → Fin (tcTables nBuf tb) → BufTy
  | .hbm, ⟨0, _⟩ => ⟨S65536x3, .i32⟩
  | .hbm, ⟨1, _⟩ => ⟨S500001x256, .f32⟩
  | .hbm, ⟨2, _⟩ => ⟨S500001x256, .f32⟩
  | .hbm, ⟨3, _⟩ => ⟨S1001x256, .f32⟩
  | .hbm, ⟨4, _⟩ => ⟨S1001x256, .f32⟩
  | .hbm, ⟨5, _⟩ => ⟨S65536x1, .i32⟩
  | .hbm, ⟨6, _⟩ => ⟨S65536, .i32⟩
  | .hbm, ⟨7, _⟩ => ⟨S65536x1, .i32⟩
  | .hbm, ⟨8, _⟩ => ⟨S65536, .i32⟩
  | .hbm, ⟨9, _⟩ => ⟨S65536x1, .i32⟩
  | .hbm, ⟨10, _⟩ => ⟨S65536, .i32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536x256, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x256, .f32⟩
  | .hbm, ⟨29, _⟩ => ⟨S_, .i32⟩
  | .hbm, ⟨30, _⟩ => ⟨S65536, .i32⟩
  | .hbm, ⟨31, _⟩ => ⟨S65536, .i1⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S65536, .i32⟩
  | .hbm, ⟨36, _⟩ => ⟨S65536x1, .i32⟩
  | .hbm, ⟨37, _⟩ => ⟨S65536x256, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536x256, .f32⟩
  | .hbm, ⟨47, _⟩ => ⟨S_, .i32⟩
  | .hbm, ⟨48, _⟩ => ⟨S65536, .i32⟩
  | .hbm, ⟨49, _⟩ => ⟨S65536, .i1⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S65536x1, .i32⟩
  | .hbm, ⟨55, _⟩ => ⟨S65536x256, .f32⟩
  | .hbm, ⟨56, _⟩ => ⟨S_, .i32⟩
  | .hbm, ⟨57, _⟩ => ⟨S65536, .i32⟩
  | .hbm, ⟨58, _⟩ => ⟨S65536, .i1⟩
  | .hbm, ⟨59, _⟩ => ⟨S_, .i32⟩
  | .hbm, ⟨60, _⟩ => ⟨S65536, .i32⟩
  | .hbm, ⟨61, _⟩ => ⟨S65536, .i32⟩
  | .hbm, ⟨62, _⟩ => ⟨S65536, .i32⟩
  | .hbm, ⟨63, _⟩ => ⟨S65536x1, .i32⟩
  | .hbm, ⟨64, _⟩ => ⟨S65536x256, .f32⟩
  | .hbm, ⟨65, _⟩ => ⟨S65536x256, .f32⟩
  | .hbm, ⟨66, _⟩ => ⟨S_, .f32⟩
  | .hbm, ⟨67, _⟩ => ⟨S65536, .f32⟩
  | .hbm, ⟨68, _⟩ => ⟨S65536x1, .f32⟩
  | .hbm, ⟨69, _⟩ => ⟨S65536x256, .f32⟩
  | .hbm, ⟨70, _⟩ => ⟨S65536x256, .f32⟩
  | .hbm, ⟨71, _⟩ => ⟨S65536x256, .f32⟩
  | .hbm, ⟨72, _⟩ => ⟨S65536x256, .f32⟩
  | .hbm, ⟨73, _⟩ => ⟨S_, .f32⟩
  | .hbm, ⟨74, _⟩ => ⟨S65536, .f32⟩
  | .hbm, ⟨75, _⟩ => ⟨S65536x1, .f32⟩
  | .hbm, ⟨76, _⟩ => ⟨S65536x256, .f32⟩
  | .hbm, ⟨77, _⟩ => ⟨S65536x256, .f32⟩
  | .hbm, ⟨78, _⟩ => ⟨S65536x256, .f32⟩
  | _, _ => ⟨S65536x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  slices_S65536x3_S65536x1_0_0 : S65536x3.Slices ![0, 0] S65536x1
  shapeCasts_S65536x1_S65536 : S65536x1.ShapeCasts S65536
  slices_S65536x3_S65536x1_0_1 : S65536x3.Slices ![0, 1] S65536x1
  slices_S65536x3_S65536x1_0_2 : S65536x3.Slices ![0, 2] S65536x1
  bcast_S_S65536 : S_.BroadcastsInDim S65536 (![] : Fin 0 → Fin S65536.rank)
  bcast_S65536_S65536x1_0 : S65536.BroadcastsInDim S65536x1 (![0] : Fin 1 → Fin S65536x1.rank)
  reducesTo_S65536x256_S65536_d1 : S65536x256.ReducesTo [1] S65536
  h_S_ : 0 < S_.numel
  bcast_S65536x1_S65536x256_0_1 : S65536x1.BroadcastsInDim S65536x256 (![0, 1] : Fin 2 → Fin S65536x256.rank)
  gather_S500001x256_S65536x1_S65536x256_1_0_n_n_0_1_1256_wf : GatherDims.WF S500001x256 S65536x1 S65536x256 [1] [0] [] [0] [] 1 ![1, 256]
  gather_S1001x256_S65536x1_S65536x256_1_0_n_n_0_1_1256_wf : GatherDims.WF S1001x256 S65536x1 S65536x256 [1] [0] [] [0] [] 1 ![1, 256]

variable [Facts₀]

def gather_S500001x256_S65536x1_S65536x256_1_0_n_n_0_1_1256 : GatherDims S500001x256 S65536x1 S65536x256 where
  offsetDims := [1]
  collapsedSliceDims := [0]
  operandBatchingDims := []
  startIndicesBatchingDims := []
  startIndexMap := [0]
  indexVectorDim := 1
  sliceSizes := ![1, 256]
  wf := gather_S500001x256_S65536x1_S65536x256_1_0_n_n_0_1_1256_wf
def gather_S1001x256_S65536x1_S65536x256_1_0_n_n_0_1_1256 : GatherDims S1001x256 S65536x1 S65536x256 where
  offsetDims := [1]
  collapsedSliceDims := [0]
  operandBatchingDims := []
  startIndicesBatchingDims := []
  startIndexMap := [0]
  indexVectorDim := 1
  sliceSizes := ![1, 256]
  wf := gather_S1001x256_S65536x1_S65536x256_1_0_n_n_0_1_1256_wf

class Facts : Prop extends Facts₀ where

variable [Facts]
-- ==== Proof.Spec.lean ====
/-
  What both programs compute, index by index, over the extended reals.

  A triplet row i holds three words h, r, t. With E, M the entity embeddings and maps and R, P the relation
  embeddings and maps, the three results at (i, d) are

      E[h, d] + P[r, d] · Σ_k M[h, k] · E[h, k],      R[r, d],      E[t, d] + P[r, d] · Σ_k M[t, k] · E[t, k].

  A word names a row by its unsigned value, kept inside the table (for a word in range this is the word itself).
-/
import Idealize.ShloMosaic.PureOps.Ideal
import Idealize.ShloMosaic.Lib.ValueIdx

noncomputable section

open scoped BigOperators

namespace Cert.Spec

open Idealize.ShloMosaic Idealize.ShloMosaic.ValueIdx

/-- The row of a 500001-row table a word names. -/
def entRow (w : BitVec 32) : Fin 500001 := ⟨min w.toNat 500000, by omega⟩
/-- The row of a 1001-row table a word names. -/
def relRow (w : BitVec 32) : Fin 1001 := ⟨min w.toNat 1000, by omega⟩

theorem entRow_val {w : BitVec 32} (h : w.toNat < 500001) : (entRow w).val = w.toNat := by
  show min w.toNat 500000 = w.toNat; omega
theorem relRow_val {w : BitVec 32} (h : w.toNat < 1001) : (relRow w).val = w.toNat := by
  show min w.toNat 1000 = w.toNat; omega

/-- ⟨M[h, ·], E[h, ·]⟩ over the 256 columns. -/
def dot (E M : (⟨2, ![500001, 256]⟩ : Shape).Idx → EReal) (h : Fin 500001) : EReal :=
  ∑ k : Fin 256, M (ix2 h k) * E (ix2 h k)

/-- The projected entity row: column col of the triplets (0 heads, 2 tails) names the entity, column 1 the relation. -/
def proj (trip : (⟨2, ![65536, 3]⟩ : Shape).Idx → BitVec 32) (E M : (⟨2, ![500001, 256]⟩ : Shape).Idx → EReal)
    (P : (⟨2, ![1001, 256]⟩ : Shape).Idx → EReal) (col : Fin 3) (i : Fin 65536) (d : Fin 256) : EReal :=
  E (ix2 (entRow (trip (ix2 i col))) d) + P (ix2 (relRow (trip (ix2 i 1))) d) * dot E M (entRow (trip (ix2 i col)))

/-- The relation's embedding row. -/
def rel (trip : (⟨2, ![65536, 3]⟩ : Shape).Idx → BitVec 32) (R : (⟨2, ![1001, 256]⟩ : Shape).Idx → EReal)
    (i : Fin 65536) (d : Fin 256) : EReal :=
  R (ix2 (relRow (trip (ix2 i 1))) d)

/-- Every triplet word names a row of the table it indexes. -/
def InRange (trip : (⟨2, ![65536, 3]⟩ : Shape).Idx → BitVec 32) : Prop :=
  ∀ i : Fin 65536, (0 ≤ (trip (ix2 i 0)).toInt ∧ (trip (ix2 i 0)).toInt < 500001)
    ∧ (0 ≤ (trip (ix2 i 1)).toInt ∧ (trip (ix2 i 1)).toInt < 1001)
    ∧ (0 ≤ (trip (ix2 i 2)).toInt ∧ (trip (ix2 i 2)).toInt < 500001)

/-- A word in [0, n) signed is below n unsigned, and its signed and unsigned readings agree. -/
theorem toNat_of_toInt {w : BitVec 32} {n : Nat} (hn : n < 2 ^ 31) (h0 : 0 ≤ w.toInt) (h1 : w.toInt < n) :
    w.toNat < n ∧ w.toInt.toNat = w.toNat := by
  have h32 := w.isLt
  unfold BitVec.toInt at h0 h1 ⊢
  split at h0 <;> constructor <;> omega

end Cert.Spec

end
-- ==== Proof.PreDecode.lean ====
/-
  The precondition, decoded: when the printed predicate evaluates to true, every word of the triplets names a row of the
  table it indexes.

  The predicate is a conjunction of seven one-bit scalars. The last three are, for the columns k = 0, 1, 2 of the
  triplets, the conjunction over all rows i of (0 ≤ trip[i, k]) ∧ (trip[i, k] < N_k), compared signed, with
  N_0 = N_2 = 500001 and N_1 = 1001. A conjunction that is true has every conjunct true, so each row's word lies in
  [0, N_k). The four leading conjuncts speak of the float inputs only and are not used here.
-/
import proofs.«411737_j76020921140302_2_alg».proof.Pre_finite_inputs
import proofs.«411737_j76020921140302_2_alg».proof.Proof.Spec
import Idealize.ShloMosaic.Lib.ReduceAll
import Idealize.ShloMosaic.Lib.Pipeline.Value

noncomputable section

namespace Cert.PreDecode

open Idealize.ShloMosaic Idealize.ShloMosaic.ValueIdx
open Cert.Pre_finite_inputs

/-- The scalar shape has one index. -/
instance subsingleton_scalar : Subsingleton S_.Idx := ⟨fun a b => funext fun d => d.elim0⟩

/-- A scalar conjunction is true exactly when both sides are. -/
theorem andi_scalar (x y : IVec S_ 1) : andi x y ix0 = 1#1 ↔ x ix0 = 1#1 ∧ y ix0 = 1#1 := IntOp.andi_eq_one

/-- A word that passes (0 ≤ w) ∧ (w < N), compared signed, lies in [0, N). -/
theorem word_in_range (w : BitVec 32) (N : Nat) (hN : N < 2 ^ 31)
    (h : IntOp.andi (IntOp.cmpi .sge w 0#32) (IntOp.cmpi .slt w (BitVec.ofNat 32 N)) = 1#1) :
    0 ≤ w.toInt ∧ w.toInt < N := by
  obtain ⟨h0, h1⟩ := IntOp.andi_eq_one.1 h
  rw [IntOp.cmpi_sge] at h0
  rw [IntOp.cmpi_slt] at h1
  have e0 : (0#32 : BitVec 32).toInt = 0 := by decide
  have eN : (BitVec.ofNat 32 N).toInt = (N : Int) := by
    rw [BitVec.toInt_ofNat']
    exact Int.bmod_eq_of_le (by omega) (by omega)
  rw [e0] at h0
  rw [eN] at h1
  exact ⟨h0, h1⟩

/-- One column's conjunct: if the conjunction over all rows of (0 ≤ trip[i, c]) ∧ (trip[i, c] < N) is true, then row
    i's word of column c lies in [0, N). -/
theorem column (a0 : IVec S65536x3 32) (c : Fin 3) (N : Nat) (hN : N < 2 ^ 31) (off : Fin 2 → Nat)
    (hoff0 : off 0 = 0) (hoff1 : off 1 = c.val) (hs : S65536x3.Slices off S65536x1)
    (hb : S_.BroadcastsInDim S65536x1 (![] : Fin 0 → Fin S65536x1.rank)) (hr : S65536x1.ReducesTo [0, 1] S_) (hu : 0 < S_.numel)
    (e : Host.reduce IntOp.andi
        (andi (cmpi .sge (extractStridedSlice S65536x1 off a0 hs) (broadcastInDim S65536x1 ![] hb (constantI S_ 32 0#32)))
          (cmpi .slt (extractStridedSlice S65536x1 off a0 hs) (broadcastInDim S65536x1 ![] hb (constantI S_ 32 (BitVec.ofNat 32 N)))))
        (constantI S_ 1 1#1) hr hu ix0 = 1#1) (i : Fin 65536) :
    0 ≤ (a0 (ix2 i c)).toInt ∧ (a0 (ix2 i c)).toInt < N := by
  have h := Host.reduce_andi_all _ _ hr hu ix0 e (ix2 i (0 : Fin 1))
  have hsl : extractStridedSlice S65536x1 off a0 hs (ix2 i (0 : Fin 1)) = a0 (ix2 i c) :=
    extractStridedSlice_apply off a0 hs (ix2 i (0 : Fin 1)) (ix2 i c) (fun a => match a with
      | ⟨0, _⟩ => by show i.val = off 0 + i.val; rw [hoff0]; omega
      | ⟨1, _⟩ => by show c.val = off 1 + 0; rw [hoff1]; omega)
  refine word_in_range _ N hN ?_
  rw [← hsl]
  exact h

/-- THE PRECONDITION DECODED: the predicate true means every triplet word is in range. -/
theorem inRange_of_fn {F : FTy → Type} [FloatOps F] [Cert.Pre_finite_inputs.Facts] (a0 : IVec Cert.Pre_finite_inputs.S65536x3 32)
    (a1 a2 : FVec F Cert.Pre_finite_inputs.S500001x256 .f32) (a3 a4 : FVec F Cert.Pre_finite_inputs.S1001x256 .f32)
    (h : Cert.Pre_finite_inputs.fn (F := F) a0 a1 a2 a3 a4 = fun _ => 1#1) : Cert.Spec.InRange a0 := by
  have e := congrFun h ix0
  unfold Cert.Pre_finite_inputs.fn Cert.Pre_finite_inputs.fn_part1 Cert.Pre_finite_inputs.fn_part2 at e
  dsimp only at e
  simp only [andi_scalar] at e
  obtain ⟨⟨⟨-, h0⟩, h1⟩, h2⟩ := e
  intro i
  exact ⟨column a0 0 500001 (by decide) _ rfl rfl _ _ _ _ h0 i, column a0 1 1001 (by decide) _ rfl rfl _ _ _ _ h1 i,
    column a0 2 500001 (by decide) _ rfl rfl _ _ _ _ h2 i⟩

end Cert.PreDecode

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.Ref.Value.lean ====
import proofs.«411737_j76020921140302_2_alg».proof.Proof.Gen.ReferenceIdeal.Read
import proofs.«411737_j76020921140302_2_alg».proof.Proof.Spec
import proofs.«411737_j76020921140302_2_alg».proof.Proof.LibIndexing

/-
  The reference's three results, index by index, over the extended reals.

  Each table row the reference fetches is named by a triplet word w through select(w <s 0, w + N, w) followed by a
  clamp of the signed reading into [0, N − 1]. For a word in [0, N) signed, the compare is false, the select is w,
  and the clamp leaves w's unsigned value: the fetched row is the one the specification names. The rest is the
  arithmetic read off element by element: a product of two fetched rows summed over the 256 columns from 0, that sum
  times the relation's map row, added to the embedding row.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-! ## A non-negative word passes the wrap unchanged -/

/-- select(w <s 0, a, w) is w when w is non-negative as a signed integer. -/
theorem select_of_nonneg (w a : BitVec 32) (h : 0 ≤ w.toInt) :
    Scalar.select (IntOp.cmpi .slt w 0#32) a w = w := by
  have hs : w.slt 0#32 = false := by
    unfold BitVec.slt
    simp only [BitVec.toInt_zero, decide_eq_false_iff_not, not_lt]
    exact h
  unfold Scalar.select IntOp.cmpi
  simp only [hs]
  rfl

variable (trip : (⟨S65536x3, .i32⟩ : BufTy).Contents (Elt Ideal))

/-! ## The three index columns -/

/-- Column 0 of the triplets, as a vector. -/
theorem col0 (i : Fin 65536) : val_main_v1 (F := Ideal) trip (ix1 i) = trip (ix2 i 0) := by
  rw [val_main_v1_apply, val_main_v0_apply]
  refine congrArg trip (funext fun a => ?_)
  match a with
  | ⟨0, _⟩ => exact Fin.ext (Nat.div_one _)
  | ⟨1, _⟩ => rfl

/-- Column 1 of the triplets, as a vector. -/
theorem col1 (i : Fin 65536) : val_main_v3 (F := Ideal) trip (ix1 i) = trip (ix2 i 1) := by
  rw [val_main_v3_apply, val_main_v2_apply]
  refine congrArg trip (funext fun a => ?_)
  match a with
  | ⟨0, _⟩ => exact Fin.ext (Nat.div_one _)
  | ⟨1, _⟩ => rfl

/-- Column 2 of the triplets, as a vector. -/
theorem col2 (i : Fin 65536) : val_main_v5 (F := Ideal) trip (ix1 i) = trip (ix2 i 2) := by
  rw [val_main_v5_apply, val_main_v4_apply]
  refine congrArg trip (funext fun a => ?_)
  match a with
  | ⟨0, _⟩ => exact Fin.ext (Nat.div_one _)
  | ⟨1, _⟩ => rfl

/-! The index a [65536, 1] column reads its [65536] vector at, one statement per column. -/

theorem bidx11 (i : Fin 65536) : idx_main_v11 (ix2 i (0 : Fin 1)) = ix1 i := by
  funext a
  match a with
  | ⟨0, _⟩ => rfl

theorem bidx18 (i : Fin 65536) : idx_main_v18 (ix2 i (0 : Fin 1)) = ix1 i := by
  funext a
  match a with
  | ⟨0, _⟩ => rfl

theorem bidx25 (i : Fin 65536) : idx_main_v25 (ix2 i (0 : Fin 1)) = ix1 i := by
  funext a
  match a with
  | ⟨0, _⟩ => rfl

theorem bidx32 (i : Fin 65536) : idx_main_v32 (ix2 i (0 : Fin 1)) = ix1 i := by
  funext a
  match a with
  | ⟨0, _⟩ => rfl

theorem bidx39 (i : Fin 65536) : idx_main_v39 (ix2 i (0 : Fin 1)) = ix1 i := by
  funext a
  match a with
  | ⟨0, _⟩ => rfl

theorem bidx46 (i : Fin 65536) : idx_main_v46 (ix2 i (0 : Fin 1)) = ix1 i := by
  funext a
  match a with
  | ⟨0, _⟩ => rfl

/-! ## The start-index columns: under the range hypothesis each is the triplet column itself -/

section Sel
variable (hr : Cert.Spec.InRange trip) (i : Fin 65536)
include hr

/-- The head's start index for the embedding fetch. -/
theorem sel_v11 : val_main_v11 (F := Ideal) trip (ix2 i 0) = trip (ix2 i 0) := by
  rw [val_main_v11_apply, bidx11, val_main_v10_apply, val_main_v7_apply, val_main_v6_apply, val_main_c_apply, col0]
  exact select_of_nonneg _ _ (hr i).1.1

/-- The tail's start index for the embedding fetch. -/
theorem sel_v18 : val_main_v18 (F := Ideal) trip (ix2 i 0) = trip (ix2 i 2) := by
  rw [val_main_v18_apply, bidx18, val_main_v17_apply, val_main_v14_apply, val_main_v13_apply, val_main_c_1_apply, col2]
  exact select_of_nonneg _ _ (hr i).2.2.1

/-- The relation's start index for the embedding fetch. -/
theorem sel_v25 : val_main_v25 (F := Ideal) trip (ix2 i 0) = trip (ix2 i 1) := by
  rw [val_main_v25_apply, bidx25, val_main_v24_apply, val_main_v21_apply, val_main_v20_apply, val_main_c_3_apply, col1]
  exact select_of_nonneg _ _ (hr i).2.1.1

/-- The head's start index for the map fetch. -/
theorem sel_v32 : val_main_v32 (F := Ideal) trip (ix2 i 0) = trip (ix2 i 0) := by
  rw [val_main_v32_apply, bidx32, val_main_v31_apply, val_main_v28_apply, val_main_v27_apply, val_main_c_5_apply, col0]
  exact select_of_nonneg _ _ (hr i).1.1

/-- The tail's start index for the map fetch. -/
theorem sel_v39 : val_main_v39 (F := Ideal) trip (ix2 i 0) = trip (ix2 i 2) := by
  rw [val_main_v39_apply, bidx39, val_main_v38_apply, val_main_v35_apply, val_main_v34_apply, val_main_c_7_apply, col2]
  exact select_of_nonneg _ _ (hr i).2.2.1

/-- The relation's start index for the map fetch. -/
theorem sel_v46 : val_main_v46 (F := Ideal) trip (ix2 i 0) = trip (ix2 i 1) := by
  rw [val_main_v46_apply, bidx46, val_main_v45_apply, val_main_v42_apply, val_main_v41_apply, val_main_c_9_apply, col1]
  exact select_of_nonneg _ _ (hr i).2.1.1

end Sel

/-! ## The six fetches: each reads the table at the row the specification names -/

/-- A word in [0, 500001) signed, clamped into [0, 500000] through its signed reading, is the row the word names. -/
theorem entClamp {w : BitVec 32} (h0 : 0 ≤ w.toInt) (h1 : w.toInt < 500001) :
    (⟨min w.toInt.toNat (500001 - 1), by omega⟩ : Fin 500001) = Cert.Spec.entRow w := by
  obtain ⟨_, he⟩ := Cert.Spec.toNat_of_toInt (n := 500001) (by decide) h0 h1
  refine Fin.ext ?_
  show min w.toInt.toNat (500001 - 1) = min w.toNat 500000
  rw [he]

/-- A word in [0, 1001) signed, clamped into [0, 1000] through its signed reading, is the row the word names. -/
theorem relClamp {w : BitVec 32} (h0 : 0 ≤ w.toInt) (h1 : w.toInt < 1001) :
    (⟨min w.toInt.toNat (1001 - 1), by omega⟩ : Fin 1001) = Cert.Spec.relRow w := by
  obtain ⟨_, he⟩ := Cert.Spec.toNat_of_toInt (n := 1001) (by decide) h0 h1
  refine Fin.ext ?_
  show min w.toInt.toNat (1001 - 1) = min w.toNat 1000
  rw [he]

section Fetch
variable (hr : Cert.Spec.InRange trip) (i : Fin 65536) (d : Fin 256)
variable (T : (⟨S500001x256, .f32⟩ : BufTy).Contents (Elt Ideal)) (Q : (⟨S1001x256, .f32⟩ : BufTy).Contents (Elt Ideal))
include hr

/-- The head's embedding row. -/
theorem fetch_v12 : val_main_v12 (F := Ideal) trip T (ix2 i d) = T (ix2 (Cert.Spec.entRow (trip (ix2 i 0))) d) := by
  show Host.gather (Cert.LibIndexing.rowGatherDims 500001 256 65536
      gather_S500001x256_S65536x1_S65536x256_1_0_n_n_0_1_1256_wf) T (val_main_v11 (F := Ideal) trip) (ix2 i d) = _
  rw [Cert.LibIndexing.gather_rows_apply (by decide)]
  simp only [sel_v11 trip hr i]
  rw [entClamp (hr i).1.1 (hr i).1.2]

/-- The tail's embedding row. -/
theorem fetch_v19 : val_main_v19 (F := Ideal) trip T (ix2 i d) = T (ix2 (Cert.Spec.entRow (trip (ix2 i 2))) d) := by
  show Host.gather (Cert.LibIndexing.rowGatherDims 500001 256 65536
      gather_S500001x256_S65536x1_S65536x256_1_0_n_n_0_1_1256_wf) T (val_main_v18 (F := Ideal) trip) (ix2 i d) = _
  rw [Cert.LibIndexing.gather_rows_apply (by decide)]
  simp only [sel_v18 trip hr i]
  rw [entClamp (hr i).2.2.1 (hr i).2.2.2]

/-- The relation's embedding row. -/
theorem fetch_v26 : val_main_v26 (F := Ideal) trip Q (ix2 i d) = Q (ix2 (Cert.Spec.relRow (trip (ix2 i 1))) d) := by
  show Host.gather (Cert.LibIndexing.rowGatherDims 1001 256 65536
      gather_S1001x256_S65536x1_S65536x256_1_0_n_n_0_1_1256_wf) Q (val_main_v25 (F := Ideal) trip) (ix2 i d) = _
  rw [Cert.LibIndexing.gather_rows_apply (by decide)]
  simp only [sel_v25 trip hr i]
  rw [relClamp (hr i).2.1.1 (hr i).2.1.2]

/-- The head's map row. -/
theorem fetch_v33 : val_main_v33 (F := Ideal) trip T (ix2 i d) = T (ix2 (Cert.Spec.entRow (trip (ix2 i 0))) d) := by
  show Host.gather (Cert.LibIndexing.rowGatherDims 500001 256 65536
      gather_S500001x256_S65536x1_S65536x256_1_0_n_n_0_1_1256_wf) T (val_main_v32 (F := Ideal) trip) (ix2 i d) = _
  rw [Cert.LibIndexing.gather_rows_apply (by decide)]
  simp only [sel_v32 trip hr i]
  rw [entClamp (hr i).1.1 (hr i).1.2]

/-- The tail's map row. -/
theorem fetch_v40 : val_main_v40 (F := Ideal) trip T (ix2 i d) = T (ix2 (Cert.Spec.entRow (trip (ix2 i 2))) d) := by
  show Host.gather (Cert.LibIndexing.rowGatherDims 500001 256 65536
      gather_S500001x256_S65536x1_S65536x256_1_0_n_n_0_1_1256_wf) T (val_main_v39 (F := Ideal) trip) (ix2 i d) = _
  rw [Cert.LibIndexing.gather_rows_apply (by decide)]
  simp only [sel_v39 trip hr i]
  rw [entClamp (hr i).2.2.1 (hr i).2.2.2]

/-- The relation's map row. -/
theorem fetch_v47 : val_main_v47 (F := Ideal) trip Q (ix2 i d) = Q (ix2 (Cert.Spec.relRow (trip (ix2 i 1))) d) := by
  show Host.gather (Cert.LibIndexing.rowGatherDims 1001 256 65536
      gather_S1001x256_S65536x1_S65536x256_1_0_n_n_0_1_1256_wf) Q (val_main_v46 (F := Ideal) trip) (ix2 i d) = _
  rw [Cert.LibIndexing.gather_rows_apply (by decide)]
  simp only [sel_v46 trip hr i]
  rw [relClamp (hr i).2.1.1 (hr i).2.1.2]

end Fetch

/-! ## The three results -/

/-! The index the row sum of row i reads its summand at, column k; and the index the doubly broadcast sum is read at. -/

theorem ridx49 (i : Fin 65536) (k : Fin 256) : idx_main_v49 (ix1 i) k = ix2 i k := by
  funext a
  match a with
  | ⟨0, _⟩ => rfl
  | ⟨1, _⟩ => rfl

theorem ridx55 (i : Fin 65536) (k : Fin 256) : idx_main_v55 (ix1 i) k = ix2 i k := by
  funext a
  match a with
  | ⟨0, _⟩ => rfl
  | ⟨1, _⟩ => rfl

theorem bidx51 (i : Fin 65536) (d : Fin 256) : idx_main_v50 (idx_main_v51 (ix2 i d)) = ix1 i := by
  funext a
  match a with
  | ⟨0, _⟩ => rfl

theorem bidx57 (i : Fin 65536) (d : Fin 256) : idx_main_v56 (idx_main_v57 (ix2 i d)) = ix1 i := by
  funext a
  match a with
  | ⟨0, _⟩ => rfl

section Results
variable (E M : (⟨S500001x256, .f32⟩ : BufTy).Contents (Elt Ideal)) (R P : (⟨S1001x256, .f32⟩ : BufTy).Contents (Elt Ideal))
variable (hr : Cert.Spec.InRange trip) (i : Fin 65536) (d : Fin 256)
include hr

/-- The head's sum Σ_k M[h, k] · E[h, k]. -/
theorem sum_v49 : val_main_v49 (F := Ideal) trip E M (ix1 i) = Cert.Spec.dot E M (Cert.Spec.entRow (trip (ix2 i 0))) := by
  rw [val_main_v49_apply, val_main_cst_apply, Ideal.ofBits_def, Ideal.ofBits_zero_f32, zero_add]
  refine Finset.sum_congr rfl fun k _ => ?_
  rw [ridx49, val_main_v48_apply, Ideal.mulf_def, fetch_v33 trip hr, fetch_v12 trip hr]

/-- The reference's first result is the projected head. -/
theorem head_eq : val_main_v53 (F := Ideal) trip E M P (ix2 i d) = Cert.Spec.proj trip E M P 0 i d := by
  rw [val_main_v53_apply, Ideal.addf_def, val_main_v52_apply, Ideal.mulf_def, val_main_v51_apply, val_main_v50_apply]
  rw [bidx51, sum_v49 trip E M hr, fetch_v12 trip hr, fetch_v47 trip hr]
  rfl

/-- The reference's second result is the relation's embedding row. -/
theorem rel_eq : val_main_v26 (F := Ideal) trip R (ix2 i d) = Cert.Spec.rel trip R i d :=
  fetch_v26 trip hr i d R

/-- The tail's sum Σ_k M[t, k] · E[t, k]. -/
theorem sum_v55 : val_main_v55 (F := Ideal) trip E M (ix1 i) = Cert.Spec.dot E M (Cert.Spec.entRow (trip (ix2 i 2))) := by
  rw [val_main_v55_apply, val_main_cst_11_apply, Ideal.ofBits_def, Ideal.ofBits_zero_f32, zero_add]
  refine Finset.sum_congr rfl fun k _ => ?_
  rw [ridx55, val_main_v54_apply, Ideal.mulf_def, fetch_v40 trip hr, fetch_v19 trip hr]

/-- The reference's third result is the projected tail. -/
theorem tail_eq : val_main_v59 (F := Ideal) trip E M P (ix2 i d) = Cert.Spec.proj trip E M P 2 i d := by
  rw [val_main_v59_apply, Ideal.addf_def, val_main_v58_apply, Ideal.mulf_def, val_main_v57_apply, val_main_v56_apply]
  rw [bidx57, sum_v55 trip E M hr, fetch_v19 trip hr, fetch_v47 trip hr]
  rfl

end Results

end Cert.ReferenceIdeal.RefValue

end
-- ==== Proof.KI.Data.lean ====
/-
  The one kernel region of the program, described for the pipeline rule.

  The program slices three index columns h, r, t out of the triplets, views each table as rows of 1×256
  blocks, and runs one region of 65536 points. At point i six input windows hold row h[i] of the entity
  embeddings and of the entity maps, row t[i] of both, and row r[i] of the relation embeddings and maps; three
  output windows receive, at block i, e_h + p_r · ⟨p_h, e_h⟩, the relation row, and e_t + p_r · ⟨p_t, e_t⟩.
  The two entity tables are each read through two windows: each such pair shares its array half and half.
-/
import proofs.«411737_j76020921140302_2_alg».proof.Proof.Gen.KernelIdeal.Launch
import proofs.«411737_j76020921140302_2_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Every buffer of core c after the ten host operations before the region. -/
abbrev V0 (c : Dev nD) : Valuation τ sig (Elt F) := StableHlo.after hostOps0 (fun b => m (c, b))

/-- The same, read at a TensorCore reference. -/
abbrev V (c : Dev nD) (b : Ref sig .tc) : Buf (Elt F) ((c : Thread nD τ).loc b) := V0 m c (Proc.devRef .tc b)

/-- The three index columns as the region finds them (the program runs on one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every index names a row of its table: the pipeline's condition on the columns. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- Window w's block at point t, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! ## What the body leaves in the three output buffers at a point -/

/-- e_h + p_r · ⟨p_h, e_h⟩ of the rows at point t. -/
def outH (hO : Ok m) (c : Dev nD) (t : Fin (cfgM m hO).N) : FVec F S1x1x256 .f32 :=
  k0_pay3 (iblk m hO c 0 t) (iblk m hO c 1 t) (iblk m hO c 5 t)
/-- the relation row at point t. -/
def outR (hO : Ok m) (c : Dev nD) (t : Fin (cfgM m hO).N) : FVec F S1x1x256 .f32 :=
  k0_pay1 (iblk m hO c 4 t)
/-- e_t + p_r · ⟨p_t, e_t⟩ of the rows at point t. -/
def outT (hO : Ok m) (c : Dev nD) (t : Fin (cfgM m hO).N) : FVec F S1x1x256 .f32 :=
  k0_pay4 (iblk m hO c 2 t) (iblk m hO c 3 t) (iblk m hO c 5 t)

/-! ## The proof data -/

/-- The arrays as the region finds them; each input buffer keeps its block; the outputs receive the three
    rows above; the invariant is the scoped rest, the generator register and the body's halves of the index
    columns; nothing is owed. The two windows on one entity table hold it half and half. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outH m hO c t
    | ⟨7, _⟩ => outR m hO c t
    | ⟨8, _⟩ => outT m hO c t
  Φ _ := iprop(Pipeline.ΦA spec0 c ∗ Pipeline.ΦT pre0 (tbl m) c)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (hO : Ok m) (c : Dev nD) (w : Fin (cfgM m hO).W) : (dats m hO 0 c).A w = V m c (Pipeline.arrRef spec0 w) := by
  dsimp only [dats]

end Cert.KernelIdeal.Region

end
-- ==== Proof.KI.Arrays.lean ====
/-
  The nine windows' arrays one by one, with the share each window holds its array at.
-/
import proofs.«411737_j76020921140302_2_alg».proof.Proof.KI.Data

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Which windows are written back: the last three (at any contents of the index columns). -/
theorem isOut_vals (a : (pcfg0 (F := F)).Adm) :
    ((cfg0 a).win (0 : Fin 9)).isOut = false ∧ ((cfg0 a).win (1 : Fin 9)).isOut = false
    ∧ ((cfg0 a).win (2 : Fin 9)).isOut = false ∧ ((cfg0 a).win (3 : Fin 9)).isOut = false
    ∧ ((cfg0 a).win (4 : Fin 9)).isOut = false ∧ ((cfg0 a).win (5 : Fin 9)).isOut = false
    ∧ ((cfg0 a).win (6 : Fin 9)).isOut = true ∧ ((cfg0 a).win (7 : Fin 9)).isOut = true
    ∧ ((cfg0 a).win (8 : Fin 9)).isOut = true :=
  ⟨rfl, rfl, rfl, rfl, rfl, rfl, rfl, rfl, rfl⟩

/-- The share each window holds its array at: the entity embeddings and the entity maps are each read through two
    windows (the head rows' and the tail rows'), which hold them half and half; every other array is held whole. -/
theorem share_vals (hO : Ok m) (c : Dev nD) :
    (dats m hO 0 c).share (0 : Fin 9) = fullShare.left ∧ (dats m hO 0 c).share (1 : Fin 9) = fullShare.left
    ∧ (dats m hO 0 c).share (2 : Fin 9) = fullShare.right ∧ (dats m hO 0 c).share (3 : Fin 9) = fullShare.right
    ∧ (dats m hO 0 c).share (4 : Fin 9) = fullShare ∧ (dats m hO 0 c).share (5 : Fin 9) = fullShare
    ∧ (dats m hO 0 c).share (6 : Fin 9) = fullShare ∧ (dats m hO 0 c).share (7 : Fin 9) = fullShare
    ∧ (dats m hO 0 c).share (8 : Fin 9) = fullShare := by
  obtain ⟨o0, o1, o2, o3, o4, o5, o6, o7, o8⟩ := isOut_vals (F := F) (adm m hO)
  unfold Dat.share
  refine ⟨?_, ?_, ?_, ?_, ?_, ?_, ?_, ?_, ?_⟩
  · rw [o0]; rfl
  · rw [o1]; rfl
  · rw [o2]; rfl
  · rw [o3]; rfl
  · rw [o4]; rfl
  · rw [o5]; rfl
  · rw [o6]; rfl
  · rw [o7]; rfl
  · rw [o8]; rfl

/-- The windows' arrays at contents G, window by window, each at the share the proof data holds it at. Stated at
    any admissible contents of the index columns and any proof data. -/
theorem arrays_chain_at (a : (pcfg0 (F := F)).Adm) (c : Dev nD) (dat : Dat τ (Elt F) Unit ℕ (UR sig nD τ) ℕ (cfg0 a) c)
    (G : (w : Fin (cfg0 a).W) → Buf (Elt F) (((cfg0 a).win w).arr.view.loc (c.tc : Thread nD τ))) :
    (dat.arrays G : sProp 𝕄)
      = iprop((((c.tc : Thread nD τ).loc (Pipeline.arrRef (cfg0 a).spec (0 : Fin 9))) ↦{dat.share (0 : Fin 9)} G (0 : Fin 9))
          ∗ (((c.tc : Thread nD τ).loc (Pipeline.arrRef (cfg0 a).spec (1 : Fin 9))) ↦{dat.share (1 : Fin 9)} G (1 : Fin 9))
          ∗ (((c.tc : Thread nD τ).loc (Pipeline.arrRef (cfg0 a).spec (2 : Fin 9))) ↦{dat.share (2 : Fin 9)} G (2 : Fin 9))
          ∗ (((c.tc : Thread nD τ).loc (Pipeline.arrRef (cfg0 a).spec (3 : Fin 9))) ↦{dat.share (3 : Fin 9)} G (3 : Fin 9))
          ∗ (((c.tc : Thread nD τ).loc (Pipeline.arrRef (cfg0 a).spec (4 : Fin 9))) ↦{dat.share (4 : Fin 9)} G (4 : Fin 9))
          ∗ (((c.tc : Thread nD τ).loc (Pipeline.arrRef (cfg0 a).spec (5 : Fin 9))) ↦{dat.share (5 : Fin 9)} G (5 : Fin 9))
          ∗ (((c.tc : Thread nD τ).loc (Pipeline.arrRef (cfg0 a).spec (6 : Fin 9))) ↦{dat.share (6 : Fin 9)} G (6 : Fin 9))
          ∗ (((c.tc : Thread nD τ).loc (Pipeline.arrRef (cfg0 a).spec (7 : Fin 9))) ↦{dat.share (7 : Fin 9)} G (7 : Fin 9))
          ∗ (((c.tc : Thread nD τ).loc (Pipeline.arrRef (cfg0 a).spec (8 : Fin 9))) ↦{dat.share (8 : Fin 9)} G (8 : Fin 9))) := by
  have harr : ∀ w, ((cfg0 a).win w).arr.IsWhole := arr_whole0
  have h1 : (dat.arrays G : sProp 𝕄) = bigSep Finset.univ fun w : Fin 9 =>
      (((c.tc : Thread nD τ).loc (Pipeline.arrRef (cfg0 a).spec w)) ↦{dat.share w} G w : sProp 𝕄) := by
    unfold Dat.arrays
    exact bigSep_congr fun w _ => by rw [(harr w).set_eq_univ]
  have h2 := bigSep_W0 (M := 𝕄) (fun w : Fin 9 =>
      (((c.tc : Thread nD τ).loc (Pipeline.arrRef (cfg0 a).spec w)) ↦{dat.share w} G w : sProp 𝕄))
  exact h1.trans h2

end Cert.KernelIdeal.Region

end
-- ==== Proof.KI.Exit.lean ====
/-
  The buffers when the region is left, and after the three reshapes that follow it.
-/
import proofs.«411737_j76020921140302_2_alg».proof.Proof.KI.Data
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The three result arrays after every write-back. -/
def resH (hO : Ok m) (c : Dev nD) : Buf (Elt F) ((c : Thread nD τ).loc main_v10_0) := (dats m hO 0 c).arrAt (6 : Fin 9) (cfgM m hO).N
def resR (hO : Ok m) (c : Dev nD) : Buf (Elt F) ((c : Thread nD τ).loc main_v10_1) := (dats m hO 0 c).arrAt (7 : Fin 9) (cfgM m hO).N
def resT (hO : Ok m) (c : Dev nD) : Buf (Elt F) ((c : Thread nD τ).loc main_v10_2) := (dats m hO 0 c).arrAt (8 : Fin 9) (cfgM m hO).N

/-- Every buffer of core c when the region is left: the three results as the write-backs made them, every other
    buffer as the region found it. -/
def Wx (hO : Ok m) (c : Dev nD) : Valuation τ sig (Elt F) :=
  Function.update (Function.update (Function.update (V0 m c)
    (Proc.devRef .tc main_v10_0) (resH m hO c)) (Proc.devRef .tc main_v10_1) (resR m hO c)) (Proc.devRef .tc main_v10_2) (resT m hO c)

/-- Every TensorCore buffer after the three reshapes that follow the region. -/
def Vfin (hO : Ok m) (c : Dev nD) (b : Ref sig .tc) : Buf (Elt F) ((c : Thread nD τ).loc b) :=
  StableHlo.after hostOps1 (Wx m hO c) (Proc.devRef .tc b)

end Cert.KernelIdeal.Region

end
-- ==== Proof.KI.Launch.lean ====
/-
  The run of the whole program: the ten host operations, the region, the three reshapes.

  From any memory with every semaphore at zero the program terminates without a fault; at the end every window's
  array holds what the write-backs made of it, the three index columns are as the region found them, and every
  other buffer holds what the three reshapes after the region leave.
-/
import proofs.«411737_j76020921140302_2_alg».proof.Proof.KI.Arrays
import proofs.«411737_j76020921140302_2_alg».proof.Proof.KI.Exit

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the ten host operations, the region, then the three reshapes: holding the unscoped buffers at
    the launch contents it reduces to the region followed by the reshapes, holding them at the entry contents. -/
theorem hmain : Pipeline.HMainPK (Ix := Unit) (Name := ℕ) (U := UR sig nD τ) (Lvl := ℕ) pcfgs 0 defs₀ Variants.none m
    (main (F := F)) (V m) (fun _ => Pipeline.chain [StableHlo.seq hostOps1]) :=
  Pipeline.hmainP_around pcfgs 0 defs₀ Variants.none m main [hostOps0] [hostOps1] hostOps0_sub
    ⟨rfl, rfl, rfl, rfl, rfl, rfl, rfl, rfl, rfl, rfl⟩ fun c => (main_chain c).trans rfl

/-- What the run ends with. -/
def RunPost (hO : Ok m) (r : PUnit × MemSt nD τ sig (Elt F)) : Prop :=
  ∀ c : Dev nD,
    (∀ w, r.2.mem (((cfgM m hO).spec w).arr.view.loc (c.tc : Thread nD τ)) = (dats m hO 0 c).arrAt w (cfgM m hO).N)
    ∧ (∀ k, r.2.mem ((c.tc : Thread nD τ).loc (pre0.ref k)) = tbl m k)
    ∧ ∀ b ∈ Pipeline.restRefsP sig pre0 spec0, r.2.mem ((c.tc : Thread nD τ).loc b) = Vfin m hO c b

set_option backward.isDefEq.respectTransparency.types false in
/-- THE RUN, from the three obligations that are the kernel's own: the body at every point, the arrays dealt among
    the windows at entry, and the reshapes after the region. -/
theorem run_of (hO : Ok m)
    (hbody : ∀ c, BodyObligation (dats (F := F) m hO 0 c) (defs₀ (F := F)) Variants.none () Set.univ)
    (hsplit : ∀ c, (Pipeline.arrBufs (cfgM m hO).spec c (V m c) : sProp 𝕄)
      ⊢ (dats m hO 0 c).arrays (fun w => (dats m hO 0 c).arrAt w 0))
    (htail : ∀ (c : Dev nD) (Q' : PUnit → sProp 𝕄),
      iprop((iprop((dats m hO 0 c).arrays (fun w => (dats m hO 0 c).arrAt w (cfgM m hO).N)
                ∗ Pipeline.unscopedRestP pre0 spec0 c (Vfin m hO c)) -∗ Q' ⟨⟩)
          ∗ boundary (c.tc : Thread nD τ)
          ∗ (dats m hO 0 c).arrays (fun w => (dats m hO 0 c).arrAt w (cfgM m hO).N)
          ∗ Pipeline.unscopedRestP pre0 spec0 c (V m c))
        ⊢ wp frame (wpE (defs (F := F)) (Variants.lift Variants.none) (c.tc : Thread nD τ) none) Set.univ
            (Pipeline.chain [StableHlo.seq hostOps1]) Q') :
    θ_run defs (onTc (τ := τ) (main (F := F))) (s₀ m ρ) (RunPost m hO) :=
  Pipeline.θ_run_region_pf_tail pcfgs (fun _ => adm m hO) (dats m hO) () (cellOf_inj fun _ => adm m hO) (0 : Fin 1)
    winFacts₀0 (Pipeline.OwnSemFacts.none spec0) preFacts0 emb₁ defs₀ Variants.none m ρ main
    (fun _ => Pipeline.chain [StableHlo.seq hostOps1]) (fun c => (hbody c).loose)
    block_pos0 arr_whole0 stage_whole0 (fun _ _ => rfl)
    (G := fun _ => iprop(emp))
    (u₀ := initOf (Pipeline.cells (Pipeline.pin pcfgs fun _ => adm m hO) (cellOf_inj fun _ => adm m hO))
      (Pipeline.launchToks (Pipeline.pin pcfgs fun _ => adm m hO) (cellOf_inj fun _ => adm m hO)))
    (hu₀ := by
      iintro Hu; imodintro
      isplitl [Hu]
      · iapply (show (ownU _ : sProp 𝕄) ⊢ BI.own (emb₁ (initOf (Pipeline.cells (Pipeline.pin pcfgs fun _ => adm m hO) (cellOf_inj fun _ => adm m hO))
          (Pipeline.launchToks (Pipeline.pin pcfgs fun _ => adm m hO) (cellOf_inj fun _ => adm m hO)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit) (hpf := V_pre m)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (V m c))
    (Z' := fun c => Pipeline.unscopedRestP (Ix := Unit) (Name := ℕ) (U := UR sig nD τ) (Lvl := ℕ) pre0 spec0 c (Vfin m hO c))
    (hX := fun c => by
      iintro ⟨HU, -, -, -, Hp, -⟩; imodintro
      isplitl [Hp]; · iexists _; iexact Hp
      iexact HU)
    (hin := fun c => by
      show _ ⊢ iprop(Pipeline.ΦA spec0 c ∗ Pipeline.ΦT pre0 (tbl m) c)
      unfold Pipeline.ΦA Pipeline.ΦT; iintro ⟨Hp, Ht, Hr⟩
      isplitr [Ht]
      · isplitl [Hr] <;> iassumption
      · iexact Ht)
    (hout := fun c => by
      show iprop(Pipeline.ΦA spec0 c ∗ Pipeline.ΦT pre0 (tbl m) c) ⊢ _
      rw [Pipeline.ownSems0_none]; unfold Pipeline.ΦA
      iintro ⟨⟨Hr, Hp⟩, -⟩
      isplitl [Hp]; · iexact Hp
      isplitr; · iempintro
      iexact Hr)
    (htail := htail)
    (QY := fun c s => ∀ b ∈ Pipeline.restRefsP sig pre0 spec0, s.mem ((c.tc : Thread nD τ).loc b) = Vfin m hO c b)
    (hY := fun c s' => by
      iintro ⟨-, HU, HSI⟩
      unfold Pipeline.unscopedRestP
      imodintro
      iapply (pointsTo_read_all (Pipeline.restRefsP sig pre0 spec0) (fun b => (c.tc : Thread nD τ).loc b) (Vfin m hO c) s')
      isplitl [HU] <;> iassumption)
    (hQ := fun s h => h)

end Cert.KernelIdeal.Region

end
-- ==== Proof.KI.Body.lean ====
/-
  The body obligation of the one kernel region.

  At a grid point the body reads six 1×256 rows — e_h, m_h, e_t, m_t, the relation's embedding row r and its
  map row p — and writes three: e_h + p · ⟨m_h, e_h⟩, r, and e_t + p · ⟨m_t, e_t⟩. Every buffer is loaded and stored
  whole, so a load reads the buffer's contents and the one store into an output leaves its payload whatever
  the buffer held before. Each input window keeps its block between points, so its buffer holds the block of
  the point whether or not it was fetched there; the invariant and the index columns pass through unread.
-/
import proofs.«411737_j76020921140302_2_alg».proof.Proof.KI.Data
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores -/

/-- The zero offsets of a whole 1×1×256 buffer. -/
theorem hz3 : (![0, 0, 0] : Fin S1x1x256.rank → Nat) = fun _ => 0 := funext fun a => by fin_cases a <;> rfl

/-- A load of a whole 1×1×256 buffer reads its contents. -/
theorem load_whole {sp : Space} (M : Memref sig .tc sp S1x1x256 .f32) (h : M.IsWhole) (x : Vec F S1x1x256 .f32) :
    M.view.readAt (Elt F) (Rect.unit (s := S1x1x256) ![0, 0, 0] S1x1x256.size inb_S1x1x256_S1x1x256_0_0_0).toLoadRect (h.unread x) = x := by
  rw [View.readAt_eq_ld, h.read_unread, View.ld_unit_zero (S := S1x1x256) hz3]

/-- One store over a whole 1×1×256 buffer leaves its payload, whatever the buffer held. -/
theorem read_store_whole {sp : Space} (M : Memref sig .tc sp S1x1x256 .f32) (f : M.view.ty.Contents (Elt F)) (w : Vec F S1x1x256 .f32) :
    M.view.read (Elt F) (M.view.writes (Elt F) f
      [⟨Rect.unit (s := S1x1x256) ![0, 0, 0] S1x1x256.size inb_S1x1x256_S1x1x256_0_0_0, w⟩]) = w := by
  have hcov : ∀ y : S1x1x256.Idx, ∃ p ∈ [(⟨Rect.unit (s := S1x1x256) ![0, 0, 0] S1x1x256.size inb_S1x1x256_S1x1x256_0_0_0, w⟩ : View.Piece (Elt F) S1x1x256 .f32)], y ∈ p.1.set :=
    fun y => ⟨⟨Rect.unit (s := S1x1x256) ![0, 0, 0] S1x1x256.size inb_S1x1x256_S1x1x256_0_0_0, w⟩, List.mem_singleton_self _,
      View.mem_set_unit_zero (S := S1x1x256) hz3 inb_S1x1x256_S1x1x256_0_0_0 y⟩
  rw [View.read_writes_eq_canon M.view f _ hcov, View.canon_unit_zero (S := S1x1x256) hz3]

/-! ## Each input buffer holds its block -/

theorem before_of0 (a : (pcfg0 (F := F)).Adm) {c : Dev nD} (dat : Dat τ (Elt F) Unit ℕ (UR sig nD τ) ℕ (cfg0 a) c)
    (hkeep : ∀ t, dat.after 0 t = dat.blockOf 0 t) (t : Fin (cfg0 a).N) (d) : dat.before 0 t d = dat.blockOf 0 t :=
  (dat.before_in_eq_fetched 0 rfl (fun _ => rfl) (fun _ _ _ => rfl) (fun t => by rw [hkeep]) t d).trans rfl

theorem before_of1 (a : (pcfg0 (F := F)).Adm) {c : Dev nD} (dat : Dat τ (Elt F) Unit ℕ (UR sig nD τ) ℕ (cfg0 a) c)
    (hkeep : ∀ t, dat.after 1 t = dat.blockOf 1 t) (t : Fin (cfg0 a).N) (d) : dat.before 1 t d = dat.blockOf 1 t :=
  (dat.before_in_eq_fetched 1 rfl (fun _ => rfl) (fun _ _ _ => rfl) (fun t => by rw [hkeep]) t d).trans rfl

theorem before_of2 (a : (pcfg0 (F := F)).Adm) {c : Dev nD} (dat : Dat τ (Elt F) Unit ℕ (UR sig nD τ) ℕ (cfg0 a) c)
    (hkeep : ∀ t, dat.after 2 t = dat.blockOf 2 t) (t : Fin (cfg0 a).N) (d) : dat.before 2 t d = dat.blockOf 2 t :=
  (dat.before_in_eq_fetched 2 rfl (fun _ => rfl) (fun _ _ _ => rfl) (fun t => by rw [hkeep]) t d).trans rfl

theorem before_of3 (a : (pcfg0 (F := F)).Adm) {c : Dev nD} (dat : Dat τ (Elt F) Unit ℕ (UR sig nD τ) ℕ (cfg0 a) c)
    (hkeep : ∀ t, dat.after 3 t = dat.blockOf 3 t) (t : Fin (cfg0 a).N) (d) : dat.before 3 t d = dat.blockOf 3 t :=
  (dat.before_in_eq_fetched 3 rfl (fun _ => rfl) (fun _ _ _ => rfl) (fun t => by rw [hkeep]) t d).trans rfl

theorem before_of4 (a : (pcfg0 (F := F)).Adm) {c : Dev nD} (dat : Dat τ (Elt F) Unit ℕ (UR sig nD τ) ℕ (cfg0 a) c)
    (hkeep : ∀ t, dat.after 4 t = dat.blockOf 4 t) (t : Fin (cfg0 a).N) (d) : dat.before 4 t d = dat.blockOf 4 t :=
  (dat.before_in_eq_fetched 4 rfl (fun _ => rfl) (fun _ _ _ => rfl) (fun t => by rw [hkeep]) t d).trans rfl

theorem before_of5 (a : (pcfg0 (F := F)).Adm) {c : Dev nD} (dat : Dat τ (Elt F) Unit ℕ (UR sig nD τ) ℕ (cfg0 a) c)
    (hkeep : ∀ t, dat.after 5 t = dat.blockOf 5 t) (t : Fin (cfg0 a).N) (d) : dat.before 5 t d = dat.blockOf 5 t :=
  (dat.before_in_eq_fetched 5 rfl (fun _ => rfl) (fun _ _ _ => rfl) (fun t => by rw [hkeep]) t d).trans rfl

/-- The block the proof data fetches is the block read off the array as the region finds it. -/
theorem blockOf_eq (hO : Ok m) (c : Dev nD) (w : Fin (cfgM m hO).W) (t : Fin (cfgM m hO).N) :
    (dats m hO 0 c).blockOf w t = iblk m hO c w t := by
  unfold Dat.blockOf iblk; rw [A_eq]

/-! ## What the body leaves -/

theorem after_in0 (hO : Ok m) (c : Dev nD) (t : Fin (cfgM m hO).N) : (dats m hO 0 c).after 0 t = iblk m hO c 0 t := by dsimp only [dats]; rfl
theorem after_in1 (hO : Ok m) (c : Dev nD) (t : Fin (cfgM m hO).N) : (dats m hO 0 c).after 1 t = iblk m hO c 1 t := by dsimp only [dats]; rfl
theorem after_in2 (hO : Ok m) (c : Dev nD) (t : Fin (cfgM m hO).N) : (dats m hO 0 c).after 2 t = iblk m hO c 2 t := by dsimp only [dats]; rfl
theorem after_in3 (hO : Ok m) (c : Dev nD) (t : Fin (cfgM m hO).N) : (dats m hO 0 c).after 3 t = iblk m hO c 3 t := by dsimp only [dats]; rfl
theorem after_in4 (hO : Ok m) (c : Dev nD) (t : Fin (cfgM m hO).N) : (dats m hO 0 c).after 4 t = iblk m hO c 4 t := by dsimp only [dats]; rfl
theorem after_in5 (hO : Ok m) (c : Dev nD) (t : Fin (cfgM m hO).N) : (dats m hO 0 c).after 5 t = iblk m hO c 5 t := by dsimp only [dats]; rfl
theorem after_out6 (hO : Ok m) (c : Dev nD) (t : Fin (cfgM m hO).N) : (dats m hO 0 c).after 6 t = outH m hO c t := by dsimp only [dats]; rfl
theorem after_out7 (hO : Ok m) (c : Dev nD) (t : Fin (cfgM m hO).N) : (dats m hO 0 c).after 7 t = outR m hO c t := by dsimp only [dats]; rfl
theorem after_out8 (hO : Ok m) (c : Dev nD) (t : Fin (cfgM m hO).N) : (dats m hO 0 c).after 8 t = outT m hO c t := by dsimp only [dats]; rfl

/-! ## What the body finds -/

theorem before_in0 (hO : Ok m) (c : Dev nD) (t : Fin (cfgM m hO).N) (d) : (dats m hO 0 c).before 0 t d = iblk m hO c 0 t :=
  (before_of0 (adm m hO) (dats m hO 0 c) (fun t => (after_in0 m hO c t).trans (blockOf_eq m hO c 0 t).symm) t d).trans (blockOf_eq m hO c 0 t)
theorem before_in1 (hO : Ok m) (c : Dev nD) (t : Fin (cfgM m hO).N) (d) : (dats m hO 0 c).before 1 t d = iblk m hO c 1 t :=
  (before_of1 (adm m hO) (dats m hO 0 c) (fun t => (after_in1 m hO c t).trans (blockOf_eq m hO c 1 t).symm) t d).trans (blockOf_eq m hO c 1 t)
theorem before_in2 (hO : Ok m) (c : Dev nD) (t : Fin (cfgM m hO).N) (d) : (dats m hO 0 c).before 2 t d = iblk m hO c 2 t :=
  (before_of2 (adm m hO) (dats m hO 0 c) (fun t => (after_in2 m hO c t).trans (blockOf_eq m hO c 2 t).symm) t d).trans (blockOf_eq m hO c 2 t)
theorem before_in3 (hO : Ok m) (c : Dev nD) (t : Fin (cfgM m hO).N) (d) : (dats m hO 0 c).before 3 t d = iblk m hO c 3 t :=
  (before_of3 (adm m hO) (dats m hO 0 c) (fun t => (after_in3 m hO c t).trans (blockOf_eq m hO c 3 t).symm) t d).trans (blockOf_eq m hO c 3 t)
theorem before_in4 (hO : Ok m) (c : Dev nD) (t : Fin (cfgM m hO).N) (d) : (dats m hO 0 c).before 4 t d = iblk m hO c 4 t :=
  (before_of4 (adm m hO) (dats m hO 0 c) (fun t => (after_in4 m hO c t).trans (blockOf_eq m hO c 4 t).symm) t d).trans (blockOf_eq m hO c 4 t)
theorem before_in5 (hO : Ok m) (c : Dev nD) (t : Fin (cfgM m hO).N) (d) : (dats m hO 0 c).before 5 t d = iblk m hO c 5 t :=
  (before_of5 (adm m hO) (dats m hO 0 c) (fun t => (after_in5 m hO c t).trans (blockOf_eq m hO c 5 t).symm) t d).trans (blockOf_eq m hO c 5 t)

/-! ## The body on any whole buffers -/

set_option maxHeartbeats 1000000 in
/-- The body on any whole staging buffers: the six inputs at contents x0 … x5 and the three outputs at anything;
    it leaves the inputs as they were and the outputs at x0 + x5 · ⟨x1, x0⟩, x4 and x2 + x5 · ⟨x3, x2⟩. -/
theorem kernel_run (c : Dev nD) (i : grid0.Coords) (arg1 : Memref sig .tc .smem S65536 .i32) (harg1 : arg1.IsWhole) (arg2 : Memref sig .tc .smem S65536 .i32) (harg2 : arg2.IsWhole) (arg3 : Memref sig .tc .smem S65536 .i32) (harg3 : arg3.IsWhole)
    (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole)
    (x0 x1 x2 x3 x4 x5 : Vec F S1x1x256 .f32) (E : Set ℕ) (K : PUnit → sProp 𝕄) :
    iprop(owns (c : Thread nD τ) arg4 fullShare x0 ∗ owns (c : Thread nD τ) arg5 fullShare x1
        ∗ owns (c : Thread nD τ) arg6 fullShare x2 ∗ owns (c : Thread nD τ) arg7 fullShare x3
        ∗ owns (c : Thread nD τ) arg8 fullShare x4 ∗ owns (c : Thread nD τ) arg9 fullShare x5
        ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare x4 ∗ owns (c : Thread nD τ) arg9 fullShare x5
            ∗ owns (c : Thread nD τ) arg10 fullShare (k0_pay3 x0 x1 x5)
            ∗ owns (c : Thread nD τ) arg11 fullShare (k0_pay1 x4)
            ∗ owns (c : Thread nD τ) arg12 fullShare (k0_pay4 x2 x3 x5)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg4.eq_unread hf0
  obtain rfl := harg5.eq_unread hf1
  obtain rfl := harg6.eq_unread hf2
  obtain rfl := harg7.eq_unread hf3
  obtain rfl := harg8.eq_unread hf4
  obtain rfl := harg9.eq_unread hf5
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro; rw [read_store_whole, load_whole, load_whole, load_whole]
  isplitl [H7]
  · iexists _; isplitr
    swap; · iexact H7
    ipureintro; rw [read_store_whole, load_whole]
  iexists _; isplitr
  swap; · iexact H8
  ipureintro; rw [read_store_whole, load_whole, load_whole, load_whole]

/-! ## The body at a point -/

/-- Each window's current staging buffer at point t, as the region passes it to the body, and that it is a whole buffer. -/
abbrev ms0 (hO : Ok m) (t : Fin (cfgM m hO).N) : Memref sig .tc .vmem S1x1x256 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x256 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x256 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x256 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x256 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1x256 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1x256 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x1x256 .f32 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S1x1x256 .f32 := spec0_8.stage ((cfgM m hO).slots t 8)
abbrev hs8 (hO : Ok m) (t : Fin (cfgM m hO).N) : (ms8 m hO t).IsWhole := hstage0_8 (((cfgM m hO).slots t 8).cast nbuf0_8)

/-- The body at point t, on what the region calls it with. -/
abbrev bodyAt (hO : Ok m) (t : Fin (cfgM m hO).N) : Prog (TpuEff nD τ sig (Elt F) Λ₀ .tc) PUnit :=
  cc0__kernel (grid0.coords t) (Memref.whole main_v1) (Memref.isWhole_whole _) (Memref.whole main_v3) (Memref.isWhole_whole _) (Memref.whole main_v5) (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)

/-- At every point the body, handed the invariant, what the core owes and the nine current buffers — the six inputs
    holding their blocks, the outputs anything —, returns them with the inputs unchanged and the outputs at the three rows
    of the point; the invariant and what is owed pass through untouched. -/
theorem sound_body (hO : Ok m) (c : Dev nD) (t : Fin (cfgM m hO).N) :
    iprop((dats m hO 0 c).Φ t.castSucc ∗ (dats m hO 0 c).owesAt () t.castSucc
      ∗ (∃ d, owns (c : Thread nD τ) (ms0 m hO t) fullShare ((dats m hO 0 c).before 0 t d))
      ∗ (∃ d, owns (c : Thread nD τ) (ms1 m hO t) fullShare ((dats m hO 0 c).before 1 t d))
      ∗ (∃ d, owns (c : Thread nD τ) (ms2 m hO t) fullShare ((dats m hO 0 c).before 2 t d))
      ∗ (∃ d, owns (c : Thread nD τ) (ms3 m hO t) fullShare ((dats m hO 0 c).before 3 t d))
      ∗ (∃ d, owns (c : Thread nD τ) (ms4 m hO t) fullShare ((dats m hO 0 c).before 4 t d))
      ∗ (∃ d, owns (c : Thread nD τ) (ms5 m hO t) fullShare ((dats m hO 0 c).before 5 t d))
      ∗ (∃ d, owns (c : Thread nD τ) (ms6 m hO t) fullShare ((dats m hO 0 c).before 6 t d))
      ∗ (∃ d, owns (c : Thread nD τ) (ms7 m hO t) fullShare ((dats m hO 0 c).before 7 t d))
      ∗ (∃ d, owns (c : Thread nD τ) (ms8 m hO t) fullShare ((dats m hO 0 c).before 8 t d)))
      ⊢ wp frame (wpE (defs₀ (F := F)) Variants.none c none) Set.univ (bodyAt m hO t) (fun _ =>
        iprop((dats m hO 0 c).Φ t.succ ∗ (dats m hO 0 c).owesAt () t.succ
          ∗ owns (c : Thread nD τ) (ms0 m hO t) fullShare ((dats m hO 0 c).after 0 t)
          ∗ owns (c : Thread nD τ) (ms1 m hO t) fullShare ((dats m hO 0 c).after 1 t)
          ∗ owns (c : Thread nD τ) (ms2 m hO t) fullShare ((dats m hO 0 c).after 2 t)
          ∗ owns (c : Thread nD τ) (ms3 m hO t) fullShare ((dats m hO 0 c).after 3 t)
          ∗ owns (c : Thread nD τ) (ms4 m hO t) fullShare ((dats m hO 0 c).after 4 t)
          ∗ owns (c : Thread nD τ) (ms5 m hO t) fullShare ((dats m hO 0 c).after 5 t)
          ∗ owns (c : Thread nD τ) (ms6 m hO t) fullShare ((dats m hO 0 c).after 6 t)
          ∗ owns (c : Thread nD τ) (ms7 m hO t) fullShare ((dats m hO 0 c).after 7 t)
          ∗ owns (c : Thread nD τ) (ms8 m hO t) fullShare ((dats m hO 0 c).after 8 t))) := by
  simp only [before_in0, before_in1, before_in2, before_in3, before_in4, before_in5]
  rw [show (dats m hO 0 c).Φ t.succ = (dats m hO 0 c).Φ t.castSucc from rfl,
    show (dats m hO 0 c).owesAt () t.succ = (dats m hO 0 c).owesAt () t.castSucc from rfl,
    after_in0, after_in1, after_in2, after_in3, after_in4, after_in5, after_out6, after_out7, after_out8]
  unfold outH outR outT
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel_run c (grid0.coords t) _ _ _ _ _ _ _ _ _ _ _ _ _ _ _ _ _ _ _ _ _ _ _ _
    (iblk m hO c 0 t) (iblk m hO c 1 t) (iblk m hO c 2 t) (iblk m hO c 3 t) (iblk m hO c 4 t) (iblk m hO c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The obligation -/

/-- The body obligation of the region, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.KernelIdeal.Region

end
-- ==== Proof.KI.Entry.lean ====
/-
  How the arrays the region is handed are dealt among its nine windows.

  Seven distinct arrays stand behind the nine windows: the entity embeddings are read through windows 0 and 2 and
  the entity maps through windows 1 and 3, so each of those two arrays is split into its left and right half, one
  half to each of its windows; the two relation tables and the three results go to their one window whole. Every
  window's array holds, when the region is entered, what the region finds there.
-/
import proofs.«411737_j76020921140302_2_alg».proof.Proof.KI.Arrays

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the nine windows: seven of them. -/
theorem arr_set (hO : Ok m) :
    Finset.univ.image (Pipeline.arrRef (cfgM m hO).spec)
      = [main_v6, main_v7, main_v8, main_v9, main_v10_0, main_v10_1, main_v10_2].toFinset := by
  show Finset.univ.image (Pipeline.arrRef spec0) = _
  decide

/-- The arrays behind the windows, each whole at contents Vc, one by one. -/
theorem arrBufs_chain (hO : Ok m) (c : Dev nD) (Vc : (b : Ref sig .tc) → Buf (Elt F) ((c.tc : Thread nD τ).loc b)) :
    (Pipeline.arrBufs (cfgM m hO).spec c Vc : sProp 𝕄)
      = iprop((((c.tc : Thread nD τ).loc main_v6) ↦{fullShare} Vc main_v6)
          ∗ (((c.tc : Thread nD τ).loc main_v7) ↦{fullShare} Vc main_v7)
          ∗ (((c.tc : Thread nD τ).loc main_v8) ↦{fullShare} Vc main_v8)
          ∗ (((c.tc : Thread nD τ).loc main_v9) ↦{fullShare} Vc main_v9)
          ∗ (((c.tc : Thread nD τ).loc main_v10_0) ↦{fullShare} Vc main_v10_0)
          ∗ (((c.tc : Thread nD τ).loc main_v10_1) ↦{fullShare} Vc main_v10_1)
          ∗ (((c.tc : Thread nD τ).loc main_v10_2) ↦{fullShare} Vc main_v10_2)) := by
  unfold Pipeline.arrBufs
  exact bigSep_eq_bigSepL_of_eq [main_v6, main_v7, main_v8, main_v9, main_v10_0, main_v10_1, main_v10_2] (arr_set m hO) (by decide) _

set_option maxHeartbeats 400000 in
/-- The seven arrays whole, as the region finds them, are the nine windows' arrays at their shares: the entity
    embeddings and the entity maps each halved between their two windows, the rest handed over as they are. -/
theorem entry_split (hO : Ok m) (c : Dev nD) :
    (Pipeline.arrBufs (cfgM m hO).spec c (V m c) : sProp 𝕄) ⊢ (dats m hO 0 c).arrays (fun w => (dats m hO 0 c).arrAt w 0) := by
  obtain ⟨s0, s1, s2, s3, s4, s5, s6, s7, s8⟩ := share_vals m hO c
  have h0 : (((c.tc : Thread nD τ).loc main_v6) ↦{fullShare.left} V m c main_v6 : sProp 𝕄)
      ⊢ (((c.tc : Thread nD τ).loc (Pipeline.arrRef (cfg0 (adm m hO)).spec (0 : Fin 9))) ↦{(dats m hO 0 c).share (0 : Fin 9)} (dats m hO 0 c).arrAt (0 : Fin 9) 0) := by
    rw [s0, show (dats m hO 0 c).arrAt (0 : Fin 9) 0 = V m c (Pipeline.arrRef spec0 (0 : Fin 9)) from A_eq m hO c 0]
  have h1 : (((c.tc : Thread nD τ).loc main_v7) ↦{fullShare.left} V m c main_v7 : sProp 𝕄)
      ⊢ (((c.tc : Thread nD τ).loc (Pipeline.arrRef (cfg0 (adm m hO)).spec (1 : Fin 9))) ↦{(dats m hO 0 c).share (1 : Fin 9)} (dats m hO 0 c).arrAt (1 : Fin 9) 0) := by
    rw [s1, show (dats m hO 0 c).arrAt (1 : Fin 9) 0 = V m c (Pipeline.arrRef spec0 (1 : Fin 9)) from A_eq m hO c 1]
  have h2 : (((c.tc : Thread nD τ).loc main_v6) ↦{fullShare.right} V m c main_v6 : sProp 𝕄)
      ⊢ (((c.tc : Thread nD τ).loc (Pipeline.arrRef (cfg0 (adm m hO)).spec (2 : Fin 9))) ↦{(dats m hO 0 c).share (2 : Fin 9)} (dats m hO 0 c).arrAt (2 : Fin 9) 0) := by
    rw [s2, show (dats m hO 0 c).arrAt (2 : Fin 9) 0 = V m c (Pipeline.arrRef spec0 (2 : Fin 9)) from A_eq m hO c 2]
  have h3 : (((c.tc : Thread nD τ).loc main_v7) ↦{fullShare.right} V m c main_v7 : sProp 𝕄)
      ⊢ (((c.tc : Thread nD τ).loc (Pipeline.arrRef (cfg0 (adm m hO)).spec (3 : Fin 9))) ↦{(dats m hO 0 c).share (3 : Fin 9)} (dats m hO 0 c).arrAt (3 : Fin 9) 0) := by
    rw [s3, show (dats m hO 0 c).arrAt (3 : Fin 9) 0 = V m c (Pipeline.arrRef spec0 (3 : Fin 9)) from A_eq m hO c 3]
  have h4 : (((c.tc : Thread nD τ).loc main_v8) ↦{fullShare} V m c main_v8 : sProp 𝕄)
      ⊢ (((c.tc : Thread nD τ).loc (Pipeline.arrRef (cfg0 (adm m hO)).spec (4 : Fin 9))) ↦{(dats m hO 0 c).share (4 : Fin 9)} (dats m hO 0 c).arrAt (4 : Fin 9) 0) := by
    rw [s4, show (dats m hO 0 c).arrAt (4 : Fin 9) 0 = V m c (Pipeline.arrRef spec0 (4 : Fin 9)) from A_eq m hO c 4]
  have h5 : (((c.tc : Thread nD τ).loc main_v9) ↦{fullShare} V m c main_v9 : sProp 𝕄)
      ⊢ (((c.tc : Thread nD τ).loc (Pipeline.arrRef (cfg0 (adm m hO)).spec (5 : Fin 9))) ↦{(dats m hO 0 c).share (5 : Fin 9)} (dats m hO 0 c).arrAt (5 : Fin 9) 0) := by
    rw [s5, show (dats m hO 0 c).arrAt (5 : Fin 9) 0 = V m c (Pipeline.arrRef spec0 (5 : Fin 9)) from A_eq m hO c 5]
  have h6 : (((c.tc : Thread nD τ).loc main_v10_0) ↦{fullShare} V m c main_v10_0 : sProp 𝕄)
      ⊢ (((c.tc : Thread nD τ).loc (Pipeline.arrRef (cfg0 (adm m hO)).spec (6 : Fin 9))) ↦{(dats m hO 0 c).share (6 : Fin 9)} (dats m hO 0 c).arrAt (6 : Fin 9) 0) := by
    rw [s6, show (dats m hO 0 c).arrAt (6 : Fin 9) 0 = V m c (Pipeline.arrRef spec0 (6 : Fin 9)) from A_eq m hO c 6]
  have h7 : (((c.tc : Thread nD τ).loc main_v10_1) ↦{fullShare} V m c main_v10_1 : sProp 𝕄)
      ⊢ (((c.tc : Thread nD τ).loc (Pipeline.arrRef (cfg0 (adm m hO)).spec (7 : Fin 9))) ↦{(dats m hO 0 c).share (7 : Fin 9)} (dats m hO 0 c).arrAt (7 : Fin 9) 0) := by
    rw [s7, show (dats m hO 0 c).arrAt (7 : Fin 9) 0 = V m c (Pipeline.arrRef spec0 (7 : Fin 9)) from A_eq m hO c 7]
  have h8 : (((c.tc : Thread nD τ).loc main_v10_2) ↦{fullShare} V m c main_v10_2 : sProp 𝕄)
      ⊢ (((c.tc : Thread nD τ).loc (Pipeline.arrRef (cfg0 (adm m hO)).spec (8 : Fin 9))) ↦{(dats m hO 0 c).share (8 : Fin 9)} (dats m hO 0 c).arrAt (8 : Fin 9) 0) := by
    rw [s8, show (dats m hO 0 c).arrAt (8 : Fin 9) 0 = V m c (Pipeline.arrRef spec0 (8 : Fin 9)) from A_eq m hO c 8]
  rw [arrays_chain_at (adm m hO) c (dats m hO 0 c) _, arrBufs_chain m hO c (V m c)]
  iintro ⟨H6, H7, H8, H9, Ha, Hb, Hc⟩
  ihave H6 := (pointsTo_share (PosShare.mem_left_op_right fullShare)).1 $$ H6
  icases H6 with ⟨H6l, H6r⟩
  ihave H7 := (pointsTo_share (PosShare.mem_left_op_right fullShare)).1 $$ H7
  icases H7 with ⟨H7l, H7r⟩
  isplitl [H6l]; · iapply h0; iexact H6l
  isplitl [H7l]; · iapply h1; iexact H7l
  isplitl [H6r]; · iapply h2; iexact H6r
  isplitl [H7r]; · iapply h3; iexact H7r
  isplitl [H8]; · iapply h4; iexact H8
  isplitl [H9]; · iapply h5; iexact H9
  isplitl [Ha]; · iapply h6; iexact Ha
  isplitl [Hb]; · iapply h7; iexact Hb
  iapply h8; iexact Hc

end Cert.KernelIdeal.Region

end
-- ==== Proof.KI.Tail.lean ====
/-
  The three reshapes after the region.

  When the region is left the three result arrays hold what the write-backs made them and every other buffer what
  the region found. The program then flattens each [65536, 1, 256] result to [65536, 256] into a buffer of its own.
  The three reshapes read the three results and write three fresh buffers; they touch nothing else. So they run
  holding exactly those six buffers, leave the three results as they were, and every buffer other than the three
  they write keeps the contents it had at the region's entry.
-/
import proofs.«411737_j76020921140302_2_alg».proof.Proof.KI.Arrays
import proofs.«411737_j76020921140302_2_alg».proof.Proof.KI.Exit

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is left -/

/-- The first result array holds what the write-backs made it. -/
theorem Wx_v10_0 (hO : Ok m) (c : Dev nD) : Wx m hO c (Proc.devRef .tc main_v10_0) = resH m hO c := by
  unfold Wx
  rw [Function.update_of_ne (StableHlo.devRef_ne_of_ne (by decide)), Function.update_of_ne (StableHlo.devRef_ne_of_ne (by decide)),
    Function.update_self]
/-- The second result array holds what the write-backs made it. -/
theorem Wx_v10_1 (hO : Ok m) (c : Dev nD) : Wx m hO c (Proc.devRef .tc main_v10_1) = resR m hO c := by
  unfold Wx
  rw [Function.update_of_ne (StableHlo.devRef_ne_of_ne (by decide)), Function.update_self]
/-- The third result array holds what the write-backs made it. -/
theorem Wx_v10_2 (hO : Ok m) (c : Dev nD) : Wx m hO c (Proc.devRef .tc main_v10_2) = resT m hO c := by
  unfold Wx
  rw [Function.update_self]
/-- Every other buffer holds what the region found. -/
theorem Wx_of_ne (hO : Ok m) (c : Dev nD) (b : Ref sig .tc) (h0 : b ≠ main_v10_0) (h1 : b ≠ main_v10_1) (h2 : b ≠ main_v10_2) :
    Wx m hO c (Proc.devRef .tc b) = V m c b := by
  unfold Wx
  rw [Function.update_of_ne (StableHlo.devRef_ne_of_ne h2), Function.update_of_ne (StableHlo.devRef_ne_of_ne h1),
    Function.update_of_ne (StableHlo.devRef_ne_of_ne h0)]

/-! ## The buffers after the three reshapes -/

/-- A buffer none of the three reshapes writes keeps what it held when the region was left. -/
theorem Vfin_of_ne (hO : Ok m) (c : Dev nD) (b : Ref sig .tc) (h11 : b ≠ main_v11) (h12 : b ≠ main_v12) (h13 : b ≠ main_v13) :
    Vfin m hO c b = Wx m hO c (Proc.devRef .tc b) := by
  unfold Vfin
  simp only [StableHlo.after_cons, StableHlo.after_nil]
  rw [StableHlo.reshape_result_ne _ _ _ _ _ _ _ h13, StableHlo.reshape_result_ne _ _ _ _ _ _ _ h12,
    StableHlo.reshape_result_ne _ _ _ _ _ _ _ h11]

/-- The buffers the reshapes leave alone, one by one: each holds after the reshapes what the region found. -/
theorem Vfin_keep_arg0 (hO : Ok m) (c : Dev nD) : Vfin m hO c main_arg0 = V m c main_arg0 :=
  (Vfin_of_ne m hO c _ (by decide) (by decide) (by decide)).trans (Wx_of_ne m hO c _ (by decide) (by decide) (by decide))
theorem Vfin_keep_arg1 (hO : Ok m) (c : Dev nD) : Vfin m hO c main_arg1 = V m c main_arg1 :=
  (Vfin_of_ne m hO c _ (by decide) (by decide) (by decide)).trans (Wx_of_ne m hO c _ (by decide) (by decide) (by decide))
theorem Vfin_keep_arg2 (hO : Ok m) (c : Dev nD) : Vfin m hO c main_arg2 = V m c main_arg2 :=
  (Vfin_of_ne m hO c _ (by decide) (by decide) (by decide)).trans (Wx_of_ne m hO c _ (by decide) (by decide) (by decide))
theorem Vfin_keep_arg3 (hO : Ok m) (c : Dev nD) : Vfin m hO c main_arg3 = V m c main_arg3 :=
  (Vfin_of_ne m hO c _ (by decide) (by decide) (by decide)).trans (Wx_of_ne m hO c _ (by decide) (by decide) (by decide))
theorem Vfin_keep_arg4 (hO : Ok m) (c : Dev nD) : Vfin m hO c main_arg4 = V m c main_arg4 :=
  (Vfin_of_ne m hO c _ (by decide) (by decide) (by decide)).trans (Wx_of_ne m hO c _ (by decide) (by decide) (by decide))
theorem Vfin_keep_v0 (hO : Ok m) (c : Dev nD) : Vfin m hO c main_v0 = V m c main_v0 :=
  (Vfin_of_ne m hO c _ (by decide) (by decide) (by decide)).trans (Wx_of_ne m hO c _ (by decide) (by decide) (by decide))
theorem Vfin_keep_v2 (hO : Ok m) (c : Dev nD) : Vfin m hO c main_v2 = V m c main_v2 :=
  (Vfin_of_ne m hO c _ (by decide) (by decide) (by decide)).trans (Wx_of_ne m hO c _ (by decide) (by decide) (by decide))
theorem Vfin_keep_v4 (hO : Ok m) (c : Dev nD) : Vfin m hO c main_v4 = V m c main_v4 :=
  (Vfin_of_ne m hO c _ (by decide) (by decide) (by decide)).trans (Wx_of_ne m hO c _ (by decide) (by decide) (by decide))

/-- The three result arrays after the reshapes are as the write-backs made them. -/
theorem after_v10_0 (hO : Ok m) (c : Dev nD) :
    StableHlo.after hostOps1 (Wx m hO c) (Proc.devRef .tc main_v10_0) = (dats m hO 0 c).arrAt (6 : Fin 9) (cfgM m hO).N :=
  (Vfin_of_ne m hO c main_v10_0 (by decide) (by decide) (by decide)).trans (Wx_v10_0 m hO c)
theorem after_v10_1 (hO : Ok m) (c : Dev nD) :
    StableHlo.after hostOps1 (Wx m hO c) (Proc.devRef .tc main_v10_1) = (dats m hO 0 c).arrAt (7 : Fin 9) (cfgM m hO).N :=
  (Vfin_of_ne m hO c main_v10_1 (by decide) (by decide) (by decide)).trans (Wx_v10_1 m hO c)
theorem after_v10_2 (hO : Ok m) (c : Dev nD) :
    StableHlo.after hostOps1 (Wx m hO c) (Proc.devRef .tc main_v10_2) = (dats m hO 0 c).arrAt (8 : Fin 9) (cfgM m hO).N :=
  (Vfin_of_ne m hO c main_v10_2 (by decide) (by decide) (by decide)).trans (Wx_v10_2 m hO c)

/-! ## The six buffers the reshapes run within -/

/-- The three results and the three buffers the reshapes write. -/
def tailRefs6 : List (Ref sig .tc) := [main_v10_0, main_v10_1, main_v10_2, main_v11, main_v12, main_v13]
def tailSet6 : Finset (DevRef τ sig) := (tailRefs6.map (Proc.devRef (τ := τ) .tc)).toFinset

/-- The six buffers held whole at contents W, one by one. -/
theorem held_six (c : Dev nD) (W : Valuation τ sig (Elt F)) :
    (StableHlo.held (c.tc : Thread nD τ) tailSet6 W : sProp 𝕄)
      = iprop((((c.tc : Thread nD τ).loc main_v10_0) ↦{fullShare} W (Proc.devRef .tc main_v10_0))
          ∗ (((c.tc : Thread nD τ).loc main_v10_1) ↦{fullShare} W (Proc.devRef .tc main_v10_1))
          ∗ (((c.tc : Thread nD τ).loc main_v10_2) ↦{fullShare} W (Proc.devRef .tc main_v10_2))
          ∗ (((c.tc : Thread nD τ).loc main_v11) ↦{fullShare} W (Proc.devRef .tc main_v11))
          ∗ (((c.tc : Thread nD τ).loc main_v12) ↦{fullShare} W (Proc.devRef .tc main_v12))
          ∗ (((c.tc : Thread nD τ).loc main_v13) ↦{fullShare} W (Proc.devRef .tc main_v13))) := by
  unfold StableHlo.held
  exact bigSep_eq_bigSepL_of_eq (tailRefs6.map (Proc.devRef (τ := τ) .tc)) rfl
    (List.Nodup.map (Proc.devRef_injective _) (by decide)) _

/-- Each reshape touches only those six. -/
theorem hostOps1_within : ∀ op ∈ (hostOps1 : List (HloOp τ sig (Elt F))), op.bufs ⊆ tailSet6 := by
  intro op hop
  simp only [hostOps1, List.mem_cons, List.not_mem_nil, or_false] at hop
  rcases hop with rfl | rfl | rfl <;> rw [StableHlo.reshape_bufs] <;> decide

theorem hostOps1_fresh : ∀ op ∈ (hostOps1 : List (HloOp τ sig (Elt F))), op.fresh = ∅ := by
  intro op hop
  simp only [hostOps1, List.mem_cons, List.not_mem_nil, or_false] at hop
  rcases hop with rfl | rfl | rfl <;> rfl

/-! ## One buffer's contents rewritten -/

/-- A whole buffer at contents v is the same buffer at any contents equal to v. -/
theorem pt_congr {ℓ : Loc nD τ sig} {q : PosShare TreeShare} {v v' : Buf (Elt F) ℓ} (h : v = v') :
    ((ℓ ↦{q} v : sProp 𝕄)) ⊢ (ℓ ↦{q} v' : sProp 𝕄) := Entails.of_eq (by rw [h])

/-- The first result array as the proof data holds it is that buffer whole at the region's exit contents. -/
theorem pt_in6 (hO : Ok m) (c : Dev nD) :
    ((((c.tc : Thread nD τ).loc (Pipeline.arrRef (cfg0 (adm m hO)).spec (6 : Fin 9))) ↦{(dats m hO 0 c).share (6 : Fin 9)}
        (dats m hO 0 c).arrAt (6 : Fin 9) (cfgM m hO).N) : sProp 𝕄)
      = (((c.tc : Thread nD τ).loc main_v10_0) ↦{fullShare} Wx m hO c (Proc.devRef .tc main_v10_0)) := by
  rw [(share_vals m hO c).2.2.2.2.2.2.1, Wx_v10_0]; rfl
theorem pt_in7 (hO : Ok m) (c : Dev nD) :
    ((((c.tc : Thread nD τ).loc (Pipeline.arrRef (cfg0 (adm m hO)).spec (7 : Fin 9))) ↦{(dats m hO 0 c).share (7 : Fin 9)}
        (dats m hO 0 c).arrAt (7 : Fin 9) (cfgM m hO).N) : sProp 𝕄)
      = (((c.tc : Thread nD τ).loc main_v10_1) ↦{fullShare} Wx m hO c (Proc.devRef .tc main_v10_1)) := by
  rw [(share_vals m hO c).2.2.2.2.2.2.2.1, Wx_v10_1]; rfl
theorem pt_in8 (hO : Ok m) (c : Dev nD) :
    ((((c.tc : Thread nD τ).loc (Pipeline.arrRef (cfg0 (adm m hO)).spec (8 : Fin 9))) ↦{(dats m hO 0 c).share (8 : Fin 9)}
        (dats m hO 0 c).arrAt (8 : Fin 9) (cfgM m hO).N) : sProp 𝕄)
      = (((c.tc : Thread nD τ).loc main_v10_2) ↦{fullShare} Wx m hO c (Proc.devRef .tc main_v10_2)) := by
  rw [(share_vals m hO c).2.2.2.2.2.2.2.2, Wx_v10_2]; rfl
/-- The same buffers after the reshapes, which leave them alone. -/
theorem pt_out6 (hO : Ok m) (c : Dev nD) :
    ((((c.tc : Thread nD τ).loc main_v10_0) ↦{fullShare} StableHlo.after hostOps1 (Wx m hO c) (Proc.devRef .tc main_v10_0)) : sProp 𝕄)
      = (((c.tc : Thread nD τ).loc (Pipeline.arrRef (cfg0 (adm m hO)).spec (6 : Fin 9))) ↦{(dats m hO 0 c).share (6 : Fin 9)}
        (dats m hO 0 c).arrAt (6 : Fin 9) (cfgM m hO).N) := by
  rw [(share_vals m hO c).2.2.2.2.2.2.1, after_v10_0]
theorem pt_out7 (hO : Ok m) (c : Dev nD) :
    ((((c.tc : Thread nD τ).loc main_v10_1) ↦{fullShare} StableHlo.after hostOps1 (Wx m hO c) (Proc.devRef .tc main_v10_1)) : sProp 𝕄)
      = (((c.tc : Thread nD τ).loc (Pipeline.arrRef (cfg0 (adm m hO)).spec (7 : Fin 9))) ↦{(dats m hO 0 c).share (7 : Fin 9)}
        (dats m hO 0 c).arrAt (7 : Fin 9) (cfgM m hO).N) := by
  rw [(share_vals m hO c).2.2.2.2.2.2.2.1, after_v10_1]
theorem pt_out8 (hO : Ok m) (c : Dev nD) :
    ((((c.tc : Thread nD τ).loc main_v10_2) ↦{fullShare} StableHlo.after hostOps1 (Wx m hO c) (Proc.devRef .tc main_v10_2)) : sProp 𝕄)
      = (((c.tc : Thread nD τ).loc (Pipeline.arrRef (cfg0 (adm m hO)).spec (8 : Fin 9))) ↦{(dats m hO 0 c).share (8 : Fin 9)}
        (dats m hO 0 c).arrAt (8 : Fin 9) (cfgM m hO).N) := by
  rw [(share_vals m hO c).2.2.2.2.2.2.2.2, after_v10_2]

/-! ## The run of the three reshapes -/

set_option backward.isDefEq.respectTransparency.types false in
/-- From the region's exit — the boundary, the nine windows' arrays after every write-back, the bypassing buffers as
    the region found them — the three reshapes run and hand back the arrays unchanged and the bypassing buffers at
    their contents after the reshapes. -/
theorem tail_run (hO : Ok m) (c : Dev nD) (Q' : PUnit → sProp 𝕄) :
    iprop((iprop((dats m hO 0 c).arrays (fun w => (dats m hO 0 c).arrAt w (cfgM m hO).N)
              ∗ Pipeline.unscopedRestP pre0 spec0 c (Vfin m hO c)) -∗ Q' ⟨⟩)
        ∗ boundary (c.tc : Thread nD τ)
        ∗ (dats m hO 0 c).arrays (fun w => (dats m hO 0 c).arrAt w (cfgM m hO).N)
        ∗ Pipeline.unscopedRestP pre0 spec0 c (V m c))
      ⊢ wp frame (wpE (defs (F := F)) (Variants.lift Variants.none) (c.tc : Thread nD τ) none) Set.univ
          (Pipeline.chain [StableHlo.seq hostOps1]) Q' := by
  rw [arrays_chain_at (adm m hO) c (dats m hO 0 c) _, unscopedRestP0_eq c (Vfin m hO c), unscopedRestP0_eq c (V m c)]
  simp only [Pipeline.chain_cons, Pipeline.chain_nil]
  iintro ⟨Hk, Hb, ⟨A0, A1, A2, A3, A4, A5, A6, A7, A8⟩, ⟨R0, R1, R2, R3, R4, R5, R6, R7, R8, R9, R10⟩⟩
  ihave A6 := (Entails.of_eq (pt_in6 m hO c)) $$ A6
  ihave A7 := (Entails.of_eq (pt_in7 m hO c)) $$ A7
  ihave A8 := (Entails.of_eq (pt_in8 m hO c)) $$ A8
  ihave R8 := (pt_congr (Wx_of_ne m hO c main_v11 (by decide) (by decide) (by decide)).symm) $$ R8
  ihave R9 := (pt_congr (Wx_of_ne m hO c main_v12 (by decide) (by decide) (by decide)).symm) $$ R9
  ihave R10 := (pt_congr (Wx_of_ne m hO c main_v13 (by decide) (by decide) (by decide)).symm) $$ R10
  iapply (StableHlo.wp_seq (Variants.lift Variants.none) none Set.univ c tailSet6 _ hostOps1 hostOps1_within hostOps1_fresh (Wx m hO c)) $$ [Hb A6 A7 A8 R8 R9 R10]
  · rw [held_six]
    isplitl [Hb]; · iexact Hb
    isplitl [A6]; · iexact A6
    isplitl [A7]; · iexact A7
    isplitl [A8]; · iexact A8
    isplitl [R8]; · iexact R8
    isplitl [R9]; · iexact R9
    iexact R10
  iintro Hb
  icases Hb with ⟨-, H⟩
  ihave H := (Entails.of_eq (held_six (F := F) c (StableHlo.after hostOps1 (Wx m hO c)))) $$ H
  icases H with ⟨A6, A7, A8, R8, R9, R10⟩
  rw [wp_pure]
  imodintro
  ihave A6 := (Entails.of_eq (pt_out6 m hO c)) $$ A6
  ihave A7 := (Entails.of_eq (pt_out7 m hO c)) $$ A7
  ihave A8 := (Entails.of_eq (pt_out8 m hO c)) $$ A8
  ihave R0 := (pt_congr (Vfin_keep_arg0 m hO c).symm) $$ R0
  ihave R1 := (pt_congr (Vfin_keep_arg1 m hO c).symm) $$ R1
  ihave R2 := (pt_congr (Vfin_keep_arg2 m hO c).symm) $$ R2
  ihave R3 := (pt_congr (Vfin_keep_arg3 m hO c).symm) $$ R3
  ihave R4 := (pt_congr (Vfin_keep_arg4 m hO c).symm) $$ R4
  ihave R5 := (pt_congr (Vfin_keep_v0 m hO c).symm) $$ R5
  ihave R6 := (pt_congr (Vfin_keep_v2 m hO c).symm) $$ R6
  ihave R7 := (pt_congr (Vfin_keep_v4 m hO c).symm) $$ R7
  ihave R8 := (pt_congr (show StableHlo.after hostOps1 (Wx m hO c) (Proc.devRef .tc main_v11) = Vfin m hO c main_v11 from rfl)) $$ R8
  ihave R9 := (pt_congr (show StableHlo.after hostOps1 (Wx m hO c) (Proc.devRef .tc main_v12) = Vfin m hO c main_v12 from rfl)) $$ R9
  ihave R10 := (pt_congr (show StableHlo.after hostOps1 (Wx m hO c) (Proc.devRef .tc main_v13) = Vfin m hO c main_v13 from rfl)) $$ R10
  iapply Hk
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10

end Cert.KernelIdeal.Region

end
-- ==== Proof.KI.Tables.lean ====
/-
  The three index columns the region reads, and its index maps, in closed form.

  Before the region the program cuts column k (k = 0, 1, 2) out of the [65536, 3] triplets and flattens it to a
  [65536] table; table 0 holds the heads h, table 1 the relations r, table 2 the tails t:  table_k[i] = trip[i, k].
  At point i the six input windows' index maps read the word w = table[i] of their table (windows 0, 1: heads;
  2, 3: tails; 4, 5: relations) and name the block (w, 0, 0), w read unsigned. A window's block (w, 0, 0) of
  sizes (1, 1, 256) lies inside its [N, 1, 256] array exactly when w + 1 ≤ N, which a word in [0, N) signed
  satisfies: the pipeline's side condition follows from the index ranges.
-/
import proofs.«411737_j76020921140302_2_alg».proof.Proof.KI.Data
import proofs.«411737_j76020921140302_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The tables read at an index -/

/-- Column c of a [65536, 3] array, cut out as a [65536, 1] slice and flattened, read at i, is the array at (i, c). -/
theorem col_apply {α : Type} (x : S65536x3.Idx → α) (c : Fin 3) (off : Fin 2 → Nat) (hoff0 : off 0 = 0) (hoff1 : off 1 = c.val)
    (hs : S65536x3.Slices off S65536x1) (hc : S65536x1.ShapeCasts S65536) (i : Fin 65536) :
    shapeCast S65536 (extractStridedSlice S65536x1 off x hs) hc (ix1 i) = x (ix2 i c) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply off x hs (ix2 i (0 : Fin 1)) (ix2 i c) (fun a => match a with
      | ⟨0, _⟩ => by show i.val = off 0 + i.val; rw [hoff0]; omega
      | ⟨1, _⟩ => by show c.val = off 1 + 0; rw [hoff1]; omega)

/-- Table 0 is column 0 of the triplets, flattened. -/
theorem tbl0_eq : (tbl m 0 : S65536.Idx → BitVec 32)
    = shapeCast S65536 (extractStridedSlice S65536x1 ![0, 0] (m (((0 : Dev nD) : Thread nD τ).loc main_arg0) : S65536x3.Idx → BitVec 32) slices_S65536x3_S65536x1_0_0) shapeCasts_S65536x1_S65536 := by
  show StableHlo.after hostOps0 (fun b => m (0, b)) (Proc.devRef .tc main_v1) = _
  after_results
  rfl

/-- Table 1 is column 1 of the triplets, flattened. -/
theorem tbl1_eq : (tbl m 1 : S65536.Idx → BitVec 32)
    = shapeCast S65536 (extractStridedSlice S65536x1 ![0, 1] (m (((0 : Dev nD) : Thread nD τ).loc main_arg0) : S65536x3.Idx → BitVec 32) slices_S65536x3_S65536x1_0_1) shapeCasts_S65536x1_S65536 := by
  show StableHlo.after hostOps0 (fun b => m (0, b)) (Proc.devRef .tc main_v3) = _
  after_results
  rfl

/-- Table 2 is column 2 of the triplets, flattened. -/
theorem tbl2_eq : (tbl m 2 : S65536.Idx → BitVec 32)
    = shapeCast S65536 (extractStridedSlice S65536x1 ![0, 2] (m (((0 : Dev nD) : Thread nD τ).loc main_arg0) : S65536x3.Idx → BitVec 32) slices_S65536x3_S65536x1_0_2) shapeCasts_S65536x1_S65536 := by
  show StableHlo.after hostOps0 (fun b => m (0, b)) (Proc.devRef .tc main_v5) = _
  after_results
  rfl

/-- table_0[i] = trip[i, 0]. -/
theorem tbl0_apply (i : Fin 65536) : (tbl m 0 : S65536.Idx → BitVec 32) (ix1 i)
    = (m (((0 : Dev nD) : Thread nD τ).loc main_arg0) : S65536x3.Idx → BitVec 32) (ix2 i 0) := by
  rw [tbl0_eq]
  exact col_apply _ 0 _ rfl rfl _ _ i

/-- table_1[i] = trip[i, 1]. -/
theorem tbl1_apply (i : Fin 65536) : (tbl m 1 : S65536.Idx → BitVec 32) (ix1 i)
    = (m (((0 : Dev nD) : Thread nD τ).loc main_arg0) : S65536x3.Idx → BitVec 32) (ix2 i 1) := by
  rw [tbl1_eq]
  exact col_apply _ 1 _ rfl rfl _ _ i

/-- table_2[i] = trip[i, 2]. -/
theorem tbl2_apply (i : Fin 65536) : (tbl m 2 : S65536.Idx → BitVec 32) (ix1 i)
    = (m (((0 : Dev nD) : Thread nD τ).loc main_arg0) : S65536x3.Idx → BitVec 32) (ix2 i 2) := by
  rw [tbl2_eq]
  exact col_apply _ 2 _ rfl rfl _ _ i

/-! ## The index maps in closed form -/

/-- The unit rectangle at offset n of a [65536] table has the one index n. -/
theorem unit_first (off : Fin 1 → Nat) (j : Fin 65536) (hoff : off 0 = j.val) (inb : ∀ a, off a + S1.size a ≤ S65536.size a)
    (h1 : 0 < (Rect.unit (s := S65536) off S1.size inb).shape.numel) :
    (Rect.unit (s := S65536) off S1.size inb).emb (Shape.Idx.first h1) = ix1 j := by
  funext a
  apply Fin.ext
  match a with
  | ⟨0, _⟩ =>
    show off 0 + 1 * 0 = j.val
    omega

/-- A grid coordinate, written as a 32-bit word and read back unsigned, is itself. -/
theorem coord_word (i : grid0.Coords) : (Scalar.indexCast (BitVec.ofNat 32 (i 0).val)).toNat = ((i 0 : Fin 65536)).val := by
  show (BitVec.ofNat 32 (i 0).val).toNat = _
  rw [BitVec.toNat_ofNat]
  have h : (i 0).val < 65536 := (i 0).isLt
  exact Nat.mod_eq_of_lt (by omega)

/-- Windows 0 and 1 fetch block (h[i], 0, 0). -/
theorem transform0_eq (pf : pre0.Contents (Elt F)) (i : grid0.Coords) :
    cc0_transform_0 Facts₀.k0_off1_inb Facts₀.numel1_S1 pf i = ![((pf 0 : S65536.Idx → BitVec 32) (ix1 (i 0 : Fin 65536))).toNat, 0, 0] :=
  congrArg (fun w : BitVec 32 => (![w.toNat, 0, 0] : Fin 3 → Nat))
    (congrArg (pf 0 : S65536.Idx → BitVec 32) (unit_first _ (i 0 : Fin 65536) (coord_word i) _ _))
theorem transform1_eq (pf : pre0.Contents (Elt F)) (i : grid0.Coords) :
    cc0_transform_1 Facts₀.k0_off1_inb Facts₀.numel1_S1 pf i = ![((pf 0 : S65536.Idx → BitVec 32) (ix1 (i 0 : Fin 65536))).toNat, 0, 0] :=
  congrArg (fun w : BitVec 32 => (![w.toNat, 0, 0] : Fin 3 → Nat))
    (congrArg (pf 0 : S65536.Idx → BitVec 32) (unit_first _ (i 0 : Fin 65536) (coord_word i) _ _))
/-- Windows 2 and 3 fetch block (t[i], 0, 0). -/
theorem transform2_eq (pf : pre0.Contents (Elt F)) (i : grid0.Coords) :
    cc0_transform_2 Facts₀.k0_off1_inb Facts₀.numel1_S1 pf i = ![((pf 2 : S65536.Idx → BitVec 32) (ix1 (i 0 : Fin 65536))).toNat, 0, 0] :=
  congrArg (fun w : BitVec 32 => (![w.toNat, 0, 0] : Fin 3 → Nat))
    (congrArg (pf 2 : S65536.Idx → BitVec 32) (unit_first _ (i 0 : Fin 65536) (coord_word i) _ _))
theorem transform3_eq (pf : pre0.Contents (Elt F)) (i : grid0.Coords) :
    cc0_transform_3 Facts₀.k0_off1_inb Facts₀.numel1_S1 pf i = ![((pf 2 : S65536.Idx → BitVec 32) (ix1 (i 0 : Fin 65536))).toNat, 0, 0] :=
  congrArg (fun w : BitVec 32 => (![w.toNat, 0, 0] : Fin 3 → Nat))
    (congrArg (pf 2 : S65536.Idx → BitVec 32) (unit_first _ (i 0 : Fin 65536) (coord_word i) _ _))
/-- Windows 4 and 5 fetch block (r[i], 0, 0). -/
theorem transform4_eq (pf : pre0.Contents (Elt F)) (i : grid0.Coords) :
    cc0_transform_4 Facts₀.k0_off1_inb Facts₀.numel1_S1 pf i = ![((pf 1 : S65536.Idx → BitVec 32) (ix1 (i 0 : Fin 65536))).toNat, 0, 0] :=
  congrArg (fun w : BitVec 32 => (![w.toNat, 0, 0] : Fin 3 → Nat))
    (congrArg (pf 1 : S65536.Idx → BitVec 32) (unit_first _ (i 0 : Fin 65536) (coord_word i) _ _))
theorem transform5_eq (pf : pre0.Contents (Elt F)) (i : grid0.Coords) :
    cc0_transform_5 Facts₀.k0_off1_inb Facts₀.numel1_S1 pf i = ![((pf 1 : S65536.Idx → BitVec 32) (ix1 (i 0 : Fin 65536))).toNat, 0, 0] :=
  congrArg (fun w : BitVec 32 => (![w.toNat, 0, 0] : Fin 3 → Nat))
    (congrArg (pf 1 : S65536.Idx → BitVec 32) (unit_first _ (i 0 : Fin 65536) (coord_word i) _ _))

/-! ## The pipeline's side condition from the index ranges -/

/-- Block (w, 0, 0) of sizes (1, 1, 256) lies inside an [N, 1, 256] array when w < N. -/
theorem block_inb {T : Fin 3 → Nat} {w : BitVec 32} {N : Nat} (e : T = ![w.toNat, 0, 0]) (hw : w.toNat < N) :
    ∀ a, (T a + 1) * S1x1x256.size a ≤ (⟨3, ![N, 1, 256]⟩ : Shape).size a := by
  subst e
  intro a
  match a with
  | ⟨0, _⟩ => show (w.toNat + 1) * 1 ≤ N; omega
  | ⟨1, _⟩ => show (0 + 1) * 1 ≤ 1; omega
  | ⟨2, _⟩ => show (0 + 1) * 256 ≤ 256; omega

/-- The side condition at any table contents whose words are below the tables' row counts. -/
theorem ok0_of_lt (pf : pre0.Contents (Elt F))
    (h0 : ∀ i : grid0.Coords, ((pf 0 : S65536.Idx → BitVec 32) (ix1 (i 0 : Fin 65536))).toNat < 500001)
    (h1 : ∀ i : grid0.Coords, ((pf 1 : S65536.Idx → BitVec 32) (ix1 (i 0 : Fin 65536))).toNat < 1001)
    (h2 : ∀ i : grid0.Coords, ((pf 2 : S65536.Idx → BitVec 32) (ix1 (i 0 : Fin 65536))).toNat < 500001) : ok0 pf := by
  unfold ok0
  exact ⟨fun i => ⟨block_inb (transform0_eq pf i) (h0 i), Or.inl rfl⟩,
    fun i => ⟨block_inb (transform1_eq pf i) (h0 i), Or.inl rfl⟩,
    fun i => ⟨block_inb (transform2_eq pf i) (h2 i), Or.inl rfl⟩,
    fun i => ⟨block_inb (transform3_eq pf i) (h2 i), Or.inl rfl⟩,
    fun i => ⟨block_inb (transform4_eq pf i) (h1 i), Or.inl rfl⟩,
    fun i => ⟨block_inb (transform5_eq pf i) (h1 i), Or.inl rfl⟩⟩

/-- Triplet words in range make every fetched block a block of its table. -/
theorem ok_of_inRange (h : Cert.Spec.InRange (m (((0 : Dev nD) : Thread nD τ).loc main_arg0))) : Ok m :=
  ok0_of_lt (tbl m)
    (fun i => (congrArg BitVec.toNat (tbl0_apply m (i 0 : Fin 65536))).trans_lt
      (Cert.Spec.toNat_of_toInt (by decide) (h (i 0 : Fin 65536)).1.1 (h (i 0 : Fin 65536)).1.2).1)
    (fun i => (congrArg BitVec.toNat (tbl1_apply m (i 0 : Fin 65536))).trans_lt
      (Cert.Spec.toNat_of_toInt (by decide) (h (i 0 : Fin 65536)).2.1.1 (h (i 0 : Fin 65536)).2.1.2).1)
    (fun i => (congrArg BitVec.toNat (tbl2_apply m (i 0 : Fin 65536))).trans_lt
      (Cert.Spec.toNat_of_toInt (by decide) (h (i 0 : Fin 65536)).2.2.1 (h (i 0 : Fin 65536)).2.2.2).1)

end Cert.KernelIdeal.Region

end
-- ==== Proof.KI.Value.lean ====
/-
  What the kernel leaves in its three results, index by index, over the extended reals.

  At point i the six input windows hold row h[i] of the entity embeddings E and maps M, row t[i] of both, and row r[i]
  of the relation embeddings R and maps P (each table viewed as rows of 1×256 blocks); the body forms, lane by lane,
  E[h] + P[r] · Σ_k M[h, k] · E[h, k], the row R[r], and E[t] + P[r] · Σ_k M[t, k] · E[t, k], and block i of each
  result receives one of them. The blocks of a result tile it and every point writes its block back, so each result
  array is one function of the arguments; the reshape after the region drops the unit axis.
-/
import proofs.«411737_j76020921140302_2_alg».proof.Proof.KI.Data
import proofs.«411737_j76020921140302_2_alg».proof.Proof.KI.Exit
import proofs.«411737_j76020921140302_2_alg».proof.Proof.KI.Tables
import proofs.«411737_j76020921140302_2_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.KernelIdeal.Region

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-! ## The body's arithmetic, lane by lane -/

/-- The lane sum of a [1, 1, 256] vector from 0, at its one index. -/
theorem laneSum (v : FVec Ideal S1x1x256 .f32) (h : S1x1x256.Reduces [2] S1x1) (hφ : FKind.Formats .f32)
    (hacc : (0x00000000#32 : BitVec 32) = 0x00000000#32) (j : S1x1.Idx) :
    multiReduction (F := Ideal) .add [2] S1x1 v 0x00000000#32 h hφ hacc j = ∑ k : Fin 256, v (ix3 0 0 k) := by
  refine (Ideal.multiReduction_add_single v 0x00000000#32 h hφ hacc j).trans ?_
  refine Finset.sum_congr rfl fun k _ => congrArg v (funext fun a => Fin.ext ?_)
  match a with
  | ⟨0, _⟩ => exact Nat.lt_one_iff.mp (h.lift j k 0).isLt
  | ⟨1, _⟩ => exact Nat.lt_one_iff.mp (h.lift j k 1).isLt
  | ⟨2, _⟩ => rfl

/-- The body's first result at lane d: x0 + x10 · Σ_k x2[k] · x0[k]. -/
theorem pay3_apply (x0 x2 x10 : Vec Ideal S1x1x256 .f32) (d : Fin 256) :
    (k0_pay3 (F := Ideal) x0 x2 x10 : S1x1x256.Idx → EReal) (ix3 0 0 d)
      = (x0 (ix3 0 0 d) : EReal) + (x10 (ix3 0 0 d) : EReal) * ∑ k : Fin 256, (x2 (ix3 0 0 k) : EReal) * (x0 (ix3 0 0 k) : EReal) := by
  unfold k0_pay3 k0_pay2
  dsimp only
  rw [shapeCast_self, shapeCast_self, shapeCast_self]
  show (x0 (ix3 0 0 d) : EReal) + (x10 (ix3 0 0 d) : EReal) * (broadcastTo S1x1x256 _ _ (ix3 0 0 d)) = _
  congr 2
  refine (broadcastTo_apply _ _ (ix3 0 0 d) (ix3 0 0 0) ?_).trans ?_
  · intro a
    match a with
    | ⟨0, _⟩ => rfl
    | ⟨1, _⟩ => rfl
    | ⟨2, _⟩ => rfl
  refine (shapeCast_apply _ _ (ix3 0 0 0) (ix2 0 0) ?_).trans ?_
  · rfl
  exact laneSum _ _ _ _ _

/-- The body's third result at lane d: x4 + x10 · Σ_k x6[k] · x4[k]. -/
theorem pay4_apply (x4 x6 x10 : Vec Ideal S1x1x256 .f32) (d : Fin 256) :
    (k0_pay4 (F := Ideal) x4 x6 x10 : S1x1x256.Idx → EReal) (ix3 0 0 d)
      = (x4 (ix3 0 0 d) : EReal) + (x10 (ix3 0 0 d) : EReal) * ∑ k : Fin 256, (x6 (ix3 0 0 k) : EReal) * (x4 (ix3 0 0 k) : EReal) := by
  unfold k0_pay4 k0_pay2
  dsimp only
  rw [shapeCast_self, shapeCast_self, shapeCast_self]
  show (x4 (ix3 0 0 d) : EReal) + (x10 (ix3 0 0 d) : EReal) * (broadcastTo S1x1x256 _ _ (ix3 0 0 d)) = _
  congr 2
  refine (broadcastTo_apply _ _ (ix3 0 0 d) (ix3 0 0 0) ?_).trans ?_
  · intro a
    match a with
    | ⟨0, _⟩ => rfl
    | ⟨1, _⟩ => rfl
    | ⟨2, _⟩ => rfl
  refine (shapeCast_apply _ _ (ix3 0 0 0) (ix2 0 0) ?_).trans ?_
  · rfl
  exact laneSum _ _ _ _ _

/-- The body's second result is the block it loaded (generic in the float instance). -/
theorem pay1_eq {F : FTy → Type} [FloatOps F] (x8 : Vec F S1x1x256 .f32) : k0_pay1 (F := F) x8 = x8 := by
  unfold k0_pay1
  dsimp only
  rw [shapeCast_self]

variable {F : FTy → Type} [FloatOps F]

/-! ## The grid and the input windows' blocks -/

/-- The grid's one coordinate at point t is t. -/
theorem coords_val (t : Fin grid0.N) : (grid0.coords t (0 : Fin 1)).val = t.val := by
  have hN : grid0.N = 65536 := N_0
  have hs : grid0.stride (0 : Fin 1) = 1 := by decide
  have ht := t.isLt
  show t.val / grid0.stride (0 : Fin 1) % 65536 = t.val
  rw [hs]
  omega

/-! An input window's block at a point whose index map names row r, read off an array, at lane k: the array at
    (r, 0, k). One statement per window, at any admissible contents of the index columns. -/

theorem blk0_read (a : (pcfg0 (F := F)).Adm) (t : Fin (cfg0 a).N) (A : S500001x1x256.Idx → Elt F .f32) (r : Fin 500001)
    (hr : cc0_transform_0 Facts₀.k0_off1_inb Facts₀.numel1_S1 a.1 (grid0.coords t) = ![r.val, 0, 0]) (k : Fin 256) :
    ((((cfg0 a).win 0).blk t).view.read (Elt F) A : S1x1x256.Idx → Elt F .f32) (ix3 0 0 k) = A (ix3 r 0 k) := by
  show A ((((cfg0 a).win 0).blk t).view.emb (ix3 0 0 k)) = A _
  congr 1
  funext b
  apply Fin.ext
  match b with
  | ⟨0, _⟩ =>
    show cc0_transform_0 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_0 Facts₀.k0_off1_inb Facts₀.numel1_S1 a.1 (grid0.coords t) (1 : Fin 3) * 1 + 1 * 0 = 0
    rw [hr]; rfl
  | ⟨2, _⟩ =>
    show cc0_transform_0 Facts₀.k0_off1_inb Facts₀.numel1_S1 a.1 (grid0.coords t) (2 : Fin 3) * 256 + 1 * k.val = k.val
    rw [hr]; show 0 * 256 + 1 * k.val = k.val; omega

theorem blk1_read (a : (pcfg0 (F := F)).Adm) (t : Fin (cfg0 a).N) (A : S500001x1x256.Idx → Elt F .f32) (r : Fin 500001)
    (hr : cc0_transform_1 Facts₀.k0_off1_inb Facts₀.numel1_S1 a.1 (grid0.coords t) = ![r.val, 0, 0]) (k : Fin 256) :
    ((((cfg0 a).win 1).blk t).view.read (Elt F) A : S1x1x256.Idx → Elt F .f32) (ix3 0 0 k) = A (ix3 r 0 k) := by
  show A ((((cfg0 a).win 1).blk t).view.emb (ix3 0 0 k)) = A _
  congr 1
  funext b
  apply Fin.ext
  match b with
  | ⟨0, _⟩ =>
    show cc0_transform_1 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_1 Facts₀.k0_off1_inb Facts₀.numel1_S1 a.1 (grid0.coords t) (1 : Fin 3) * 1 + 1 * 0 = 0
    rw [hr]; rfl
  | ⟨2, _⟩ =>
    show cc0_transform_1 Facts₀.k0_off1_inb Facts₀.numel1_S1 a.1 (grid0.coords t) (2 : Fin 3) * 256 + 1 * k.val = k.val
    rw [hr]; show 0 * 256 + 1 * k.val = k.val; omega

theorem blk2_read (a : (pcfg0 (F := F)).Adm) (t : Fin (cfg0 a).N) (A : S500001x1x256.Idx → Elt F .f32) (r : Fin 500001)
    (hr : cc0_transform_2 Facts₀.k0_off1_inb Facts₀.numel1_S1 a.1 (grid0.coords t) = ![r.val, 0, 0]) (k : Fin 256) :
    ((((cfg0 a).win 2).blk t).view.read (Elt F) A : S1x1x256.Idx → Elt F .f32) (ix3 0 0 k) = A (ix3 r 0 k) := by
  show A ((((cfg0 a).win 2).blk t).view.emb (ix3 0 0 k)) = A _
  congr 1
  funext b
  apply Fin.ext
  match b with
  | ⟨0, _⟩ =>
    show cc0_transform_2 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_2 Facts₀.k0_off1_inb Facts₀.numel1_S1 a.1 (grid0.coords t) (1 : Fin 3) * 1 + 1 * 0 = 0
    rw [hr]; rfl
  | ⟨2, _⟩ =>
    show cc0_transform_2 Facts₀.k0_off1_inb Facts₀.numel1_S1 a.1 (grid0.coords t) (2 : Fin 3) * 256 + 1 * k.val = k.val
    rw [hr]; show 0 * 256 + 1 * k.val = k.val; omega

theorem blk3_read (a : (pcfg0 (F := F)).Adm) (t : Fin (cfg0 a).N) (A : S500001x1x256.Idx → Elt F .f32) (r : Fin 500001)
    (hr : cc0_transform_3 Facts₀.k0_off1_inb Facts₀.numel1_S1 a.1 (grid0.coords t) = ![r.val, 0, 0]) (k : Fin 256) :
    ((((cfg0 a).win 3).blk t).view.read (Elt F) A : S1x1x256.Idx → Elt F .f32) (ix3 0 0 k) = A (ix3 r 0 k) := by
  show A ((((cfg0 a).win 3).blk t).view.emb (ix3 0 0 k)) = A _
  congr 1
  funext b
  apply Fin.ext
  match b with
  | ⟨0, _⟩ =>
    show cc0_transform_3 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_3 Facts₀.k0_off1_inb Facts₀.numel1_S1 a.1 (grid0.coords t) (1 : Fin 3) * 1 + 1 * 0 = 0
    rw [hr]; rfl
  | ⟨2, _⟩ =>
    show cc0_transform_3 Facts₀.k0_off1_inb Facts₀.numel1_S1 a.1 (grid0.coords t) (2 : Fin 3) * 256 + 1 * k.val = k.val
    rw [hr]; show 0 * 256 + 1 * k.val = k.val; omega

theorem blk4_read (a : (pcfg0 (F := F)).Adm) (t : Fin (cfg0 a).N) (A : S1001x1x256.Idx → Elt F .f32) (r : Fin 1001)
    (hr : cc0_transform_4 Facts₀.k0_off1_inb Facts₀.numel1_S1 a.1 (grid0.coords t) = ![r.val, 0, 0]) (k : Fin 256) :
    ((((cfg0 a).win 4).blk t).view.read (Elt F) A : S1x1x256.Idx → Elt F .f32) (ix3 0 0 k) = A (ix3 r 0 k) := by
  show A ((((cfg0 a).win 4).blk t).view.emb (ix3 0 0 k)) = A _
  congr 1
  funext b
  apply Fin.ext
  match b with
  | ⟨0, _⟩ =>
    show cc0_transform_4 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_4 Facts₀.k0_off1_inb Facts₀.numel1_S1 a.1 (grid0.coords t) (1 : Fin 3) * 1 + 1 * 0 = 0
    rw [hr]; rfl
  | ⟨2, _⟩ =>
    show cc0_transform_4 Facts₀.k0_off1_inb Facts₀.numel1_S1 a.1 (grid0.coords t) (2 : Fin 3) * 256 + 1 * k.val = k.val
    rw [hr]; show 0 * 256 + 1 * k.val = k.val; omega

theorem blk5_read (a : (pcfg0 (F := F)).Adm) (t : Fin (cfg0 a).N) (A : S1001x1x256.Idx → Elt F .f32) (r : Fin 1001)
    (hr : cc0_transform_5 Facts₀.k0_off1_inb Facts₀.numel1_S1 a.1 (grid0.coords t) = ![r.val, 0, 0]) (k : Fin 256) :
    ((((cfg0 a).win 5).blk t).view.read (Elt F) A : S1x1x256.Idx → Elt F .f32) (ix3 0 0 k) = A (ix3 r 0 k) := by
  show A ((((cfg0 a).win 5).blk t).view.emb (ix3 0 0 k)) = A _
  congr 1
  funext b
  apply Fin.ext
  match b with
  | ⟨0, _⟩ =>
    show cc0_transform_5 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_5 Facts₀.k0_off1_inb Facts₀.numel1_S1 a.1 (grid0.coords t) (1 : Fin 3) * 1 + 1 * 0 = 0
    rw [hr]; rfl
  | ⟨2, _⟩ =>
    show cc0_transform_5 Facts₀.k0_off1_inb Facts₀.numel1_S1 a.1 (grid0.coords t) (2 : Fin 3) * 256 + 1 * k.val = k.val
    rw [hr]; show 0 * 256 + 1 * k.val = k.val; omega

variable (m : (ℓ : Loc nD τ sig) → Buf (Elt F) ℓ)

/-! ## The four tables as the region finds them -/

/-- The entity embeddings as the region finds it: the argument with a unit axis inserted. -/
theorem V6_eq (c : Dev nD) : (V m c main_v6 : S500001x1x256.Idx → Elt F .f32)
    = shapeCast S500001x1x256 (m ((c : Thread nD τ).loc main_arg1) : S500001x256.Idx → Elt F .f32) shapeCasts_S500001x256_S500001x1x256 := by
  show StableHlo.after hostOps0 (fun b => m (c, b)) (Proc.devRef .tc main_v6) = _
  after_results
  rfl

theorem V6_apply (c : Dev nD) (r : Fin 500001) (k : Fin 256) : (V m c main_v6 : S500001x1x256.Idx → Elt F .f32) (ix3 r 0 k)
    = (m ((c : Thread nD τ).loc main_arg1) : S500001x256.Idx → Elt F .f32) (ix2 r k) := by
  refine (congrFun (V6_eq m c) (ix3 r 0 k)).trans ?_
  refine shapeCast_apply _ _ (ix3 r 0 k) (ix2 r k) ?_
  rw [Shape.rowMajor_val_three, Shape.rowMajor_val_two]
  show r.val * 256 + k.val = (r.val * 1 + 0) * 256 + k.val
  omega

/-- The entity maps as the region finds it: the argument with a unit axis inserted. -/
theorem V7_eq (c : Dev nD) : (V m c main_v7 : S500001x1x256.Idx → Elt F .f32)
    = shapeCast S500001x1x256 (m ((c : Thread nD τ).loc main_arg2) : S500001x256.Idx → Elt F .f32) shapeCasts_S500001x256_S500001x1x256 := by
  show StableHlo.after hostOps0 (fun b => m (c, b)) (Proc.devRef .tc main_v7) = _
  after_results
  rfl

theorem V7_apply (c : Dev nD) (r : Fin 500001) (k : Fin 256) : (V m c main_v7 : S500001x1x256.Idx → Elt F .f32) (ix3 r 0 k)
    = (m ((c : Thread nD τ).loc main_arg2) : S500001x256.Idx → Elt F .f32) (ix2 r k) := by
  refine (congrFun (V7_eq m c) (ix3 r 0 k)).trans ?_
  refine shapeCast_apply _ _ (ix3 r 0 k) (ix2 r k) ?_
  rw [Shape.rowMajor_val_three, Shape.rowMajor_val_two]
  show r.val * 256 + k.val = (r.val * 1 + 0) * 256 + k.val
  omega

/-- The relation embeddings as the region finds it: the argument with a unit axis inserted. -/
theorem V8_eq (c : Dev nD) : (V m c main_v8 : S1001x1x256.Idx → Elt F .f32)
    = shapeCast S1001x1x256 (m ((c : Thread nD τ).loc main_arg3) : S1001x256.Idx → Elt F .f32) shapeCasts_S1001x256_S1001x1x256 := by
  show StableHlo.after hostOps0 (fun b => m (c, b)) (Proc.devRef .tc main_v8) = _
  after_results
  rfl

theorem V8_apply (c : Dev nD) (r : Fin 1001) (k : Fin 256) : (V m c main_v8 : S1001x1x256.Idx → Elt F .f32) (ix3 r 0 k)
    = (m ((c : Thread nD τ).loc main_arg3) : S1001x256.Idx → Elt F .f32) (ix2 r k) := by
  refine (congrFun (V8_eq m c) (ix3 r 0 k)).trans ?_
  refine shapeCast_apply _ _ (ix3 r 0 k) (ix2 r k) ?_
  rw [Shape.rowMajor_val_three, Shape.rowMajor_val_two]
  show r.val * 256 + k.val = (r.val * 1 + 0) * 256 + k.val
  omega

/-- The relation maps as the region finds it: the argument with a unit axis inserted. -/
theorem V9_eq (c : Dev nD) : (V m c main_v9 : S1001x1x256.Idx → Elt F .f32)
    = shapeCast S1001x1x256 (m ((c : Thread nD τ).loc main_arg4) : S1001x256.Idx → Elt F .f32) shapeCasts_S1001x256_S1001x1x256 := by
  show StableHlo.after hostOps0 (fun b => m (c, b)) (Proc.devRef .tc main_v9) = _
  after_results
  rfl

theorem V9_apply (c : Dev nD) (r : Fin 1001) (k : Fin 256) : (V m c main_v9 : S1001x1x256.Idx → Elt F .f32) (ix3 r 0 k)
    = (m ((c : Thread nD τ).loc main_arg4) : S1001x256.Idx → Elt F .f32) (ix2 r k) := by
  refine (congrFun (V9_eq m c) (ix3 r 0 k)).trans ?_
  refine shapeCast_apply _ _ (ix3 r 0 k) (ix2 r k) ?_
  rw [Shape.rowMajor_val_three, Shape.rowMajor_val_two]
  show r.val * 256 + k.val = (r.val * 1 + 0) * 256 + k.val
  omega

/-! ## The input blocks as rows of the argument tables -/

/-- Window 0's block at point t, lane k: the entity embeddings at row h[t]. -/
theorem iblk0_apply (hO : Ok m) (c : Dev nD) (t : Fin (cfgM m hO).N) (r : Fin 500001)
    (hr : ((tbl m 0 : S65536.Idx → BitVec 32) (ix1 (grid0.coords t 0 : Fin 65536))).toNat = r.val) (k : Fin 256) :
    (iblk m hO c 0 t : S1x1x256.Idx → Elt F .f32) (ix3 0 0 k)
      = (m ((c : Thread nD τ).loc main_arg1) : S500001x256.Idx → Elt F .f32) (ix2 r k) := by
  unfold iblk
  refine (blk0_read (adm m hO) t (V m c main_v6) r ?_ k).trans (V6_apply m c r k)
  exact (transform0_eq (tbl m) (grid0.coords t)).trans (congrArg (fun n : Nat => (![n, 0, 0] : Fin 3 → Nat)) hr)

/-- Window 1's block at point t, lane k: the entity maps at row h[t]. -/
theorem iblk1_apply (hO : Ok m) (c : Dev nD) (t : Fin (cfgM m hO).N) (r : Fin 500001)
    (hr : ((tbl m 0 : S65536.Idx → BitVec 32) (ix1 (grid0.coords t 0 : Fin 65536))).toNat = r.val) (k : Fin 256) :
    (iblk m hO c 1 t : S1x1x256.Idx → Elt F .f32) (ix3 0 0 k)
      = (m ((c : Thread nD τ).loc main_arg2) : S500001x256.Idx → Elt F .f32) (ix2 r k) := by
  unfold iblk
  refine (blk1_read (adm m hO) t (V m c main_v7) r ?_ k).trans (V7_apply m c r k)
  exact (transform1_eq (tbl m) (grid0.coords t)).trans (congrArg (fun n : Nat => (![n, 0, 0] : Fin 3 → Nat)) hr)

/-- Window 2's block at point t, lane k: the entity embeddings at row t[t]. -/
theorem iblk2_apply (hO : Ok m) (c : Dev nD) (t : Fin (cfgM m hO).N) (r : Fin 500001)
    (hr : ((tbl m 2 : S65536.Idx → BitVec 32) (ix1 (grid0.coords t 0 : Fin 65536))).toNat = r.val) (k : Fin 256) :
    (iblk m hO c 2 t : S1x1x256.Idx → Elt F .f32) (ix3 0 0 k)
      = (m ((c : Thread nD τ).loc main_arg1) : S500001x256.Idx → Elt F .f32) (ix2 r k) := by
  unfold iblk
  refine (blk2_read (adm m hO) t (V m c main_v6) r ?_ k).trans (V6_apply m c r k)
  exact (transform2_eq (tbl m) (grid0.coords t)).trans (congrArg (fun n : Nat => (![n, 0, 0] : Fin 3 → Nat)) hr)

/-- Window 3's block at point t, lane k: the entity maps at row t[t]. -/
theorem iblk3_apply (hO : Ok m) (c : Dev nD) (t : Fin (cfgM m hO).N) (r : Fin 500001)
    (hr : ((tbl m 2 : S65536.Idx → BitVec 32) (ix1 (grid0.coords t 0 : Fin 65536))).toNat = r.val) (k : Fin 256) :
    (iblk m hO c 3 t : S1x1x256.Idx → Elt F .f32) (ix3 0 0 k)
      = (m ((c : Thread nD τ).loc main_arg2) : S500001x256.Idx → Elt F .f32) (ix2 r k) := by
  unfold iblk
  refine (blk3_read (adm m hO) t (V m c main_v7) r ?_ k).trans (V7_apply m c r k)
  exact (transform3_eq (tbl m) (grid0.coords t)).trans (congrArg (fun n : Nat => (![n, 0, 0] : Fin 3 → Nat)) hr)

/-- Window 4's block at point t, lane k: the relation embeddings at row r[t]. -/
theorem iblk4_apply (hO : Ok m) (c : Dev nD) (t : Fin (cfgM m hO).N) (r : Fin 1001)
    (hr : ((tbl m 1 : S65536.Idx → BitVec 32) (ix1 (grid0.coords t 0 : Fin 65536))).toNat = r.val) (k : Fin 256) :
    (iblk m hO c 4 t : S1x1x256.Idx → Elt F .f32) (ix3 0 0 k)
      = (m ((c : Thread nD τ).loc main_arg3) : S1001x256.Idx → Elt F .f32) (ix2 r k) := by
  unfold iblk
  refine (blk4_read (adm m hO) t (V m c main_v8) r ?_ k).trans (V8_apply m c r k)
  exact (transform4_eq (tbl m) (grid0.coords t)).trans (congrArg (fun n : Nat => (![n, 0, 0] : Fin 3 → Nat)) hr)

/-- Window 5's block at point t, lane k: the relation maps at row r[t]. -/
theorem iblk5_apply (hO : Ok m) (c : Dev nD) (t : Fin (cfgM m hO).N) (r : Fin 1001)
    (hr : ((tbl m 1 : S65536.Idx → BitVec 32) (ix1 (grid0.coords t 0 : Fin 65536))).toNat = r.val) (k : Fin 256) :
    (iblk m hO c 5 t : S1x1x256.Idx → Elt F .f32) (ix3 0 0 k)
      = (m ((c : Thread nD τ).loc main_arg4) : S1001x256.Idx → Elt F .f32) (ix2 r k) := by
  unfold iblk
  refine (blk5_read (adm m hO) t (V m c main_v9) r ?_ k).trans (V9_apply m c r k)
  exact (transform5_eq (tbl m) (grid0.coords t)).trans (congrArg (fun n : Nat => (![n, 0, 0] : Fin 3 → Nat)) hr)

/-! ## The rows the windows fetch are the rows the specification names -/

/-- Under the side condition the head word at point i is below its tables' row count. -/
theorem head_lt (hO : Ok m) (i : grid0.Coords) :
    ((tbl m 0 : S65536.Idx → BitVec 32) (ix1 (i 0 : Fin 65536))).toNat < 500001 := by
  have hO' : ok0 (tbl m) := hO
  unfold ok0 at hO'
  obtain ⟨h, -⟩ := hO'.1 i
  have h0 : (cc0_transform_0 Facts₀.k0_off1_inb Facts₀.numel1_S1 (tbl m) i (0 : Fin 3) + 1) * 1 ≤ 500001 := h 0
  rw [transform0_eq] at h0
  have h1 : (((tbl m 0 : S65536.Idx → BitVec 32) (ix1 (i 0 : Fin 65536))).toNat + 1) * 1 ≤ 500001 := h0
  omega

/-- Under the side condition the tail word at point i is below its tables' row count. -/
theorem tail_lt (hO : Ok m) (i : grid0.Coords) :
    ((tbl m 2 : S65536.Idx → BitVec 32) (ix1 (i 0 : Fin 65536))).toNat < 500001 := by
  have hO' : ok0 (tbl m) := hO
  unfold ok0 at hO'
  obtain ⟨h, -⟩ := hO'.2.2.1 i
  have h0 : (cc0_transform_2 Facts₀.k0_off1_inb Facts₀.numel1_S1 (tbl m) i (0 : Fin 3) + 1) * 1 ≤ 500001 := h 0
  rw [transform2_eq] at h0
  have h1 : (((tbl m 2 : S65536.Idx → BitVec 32) (ix1 (i 0 : Fin 65536))).toNat + 1) * 1 ≤ 500001 := h0
  omega

/-- Under the side condition the relation word at point i is below its tables' row count. -/
theorem rel_lt (hO : Ok m) (i : grid0.Coords) :
    ((tbl m 1 : S65536.Idx → BitVec 32) (ix1 (i 0 : Fin 65536))).toNat < 1001 := by
  have hO' : ok0 (tbl m) := hO
  unfold ok0 at hO'
  obtain ⟨h, -⟩ := hO'.2.2.2.2.1 i
  have h0 : (cc0_transform_4 Facts₀.k0_off1_inb Facts₀.numel1_S1 (tbl m) i (0 : Fin 3) + 1) * 1 ≤ 1001 := h 0
  rw [transform4_eq] at h0
  have h1 : (((tbl m 1 : S65536.Idx → BitVec 32) (ix1 (i 0 : Fin 65536))).toNat + 1) * 1 ≤ 1001 := h0
  omega

/-- The head word at point i, read unsigned, is the entity row the specification names. -/
theorem head_row (hO : Ok m) (i : grid0.Coords) :
    ((tbl m 0 : S65536.Idx → BitVec 32) (ix1 (i 0 : Fin 65536))).toNat
      = (Cert.Spec.entRow ((m (((0 : Dev nD) : Thread nD τ).loc main_arg0) : S65536x3.Idx → BitVec 32) (ix2 (i 0 : Fin 65536) 0))).val := by
  have e := congrArg BitVec.toNat (tbl0_apply m (i 0 : Fin 65536))
  exact e.trans (Cert.Spec.entRow_val (lt_of_eq_of_lt e.symm (head_lt m hO i))).symm

/-- The tail word at point i, read unsigned, is the entity row the specification names. -/
theorem tail_row (hO : Ok m) (i : grid0.Coords) :
    ((tbl m 2 : S65536.Idx → BitVec 32) (ix1 (i 0 : Fin 65536))).toNat
      = (Cert.Spec.entRow ((m (((0 : Dev nD) : Thread nD τ).loc main_arg0) : S65536x3.Idx → BitVec 32) (ix2 (i 0 : Fin 65536) 2))).val := by
  have e := congrArg BitVec.toNat (tbl2_apply m (i 0 : Fin 65536))
  exact e.trans (Cert.Spec.entRow_val (lt_of_eq_of_lt e.symm (tail_lt m hO i))).symm

/-- The relation word at point i, read unsigned, is the relation row the specification names. -/
theorem rel_row (hO : Ok m) (i : grid0.Coords) :
    ((tbl m 1 : S65536.Idx → BitVec 32) (ix1 (i 0 : Fin 65536))).toNat
      = (Cert.Spec.relRow ((m (((0 : Dev nD) : Thread nD τ).loc main_arg0) : S65536x3.Idx → BitVec 32) (ix2 (i 0 : Fin 65536) 1))).val := by
  have e := congrArg BitVec.toNat (tbl1_apply m (i 0 : Fin 65536))
  exact e.trans (Cert.Spec.relRow_val (lt_of_eq_of_lt e.symm (rel_lt m hO i))).symm

/-! ## What a point leaves in the three output blocks -/

section Point
variable (mI : (ℓ : Loc nD τ sig) → Buf (Elt Ideal) ℓ)

/-- The five arguments as the run finds them. -/
abbrev aT (c : Dev nD) : (⟨2, ![65536, 3]⟩ : Shape).Idx → BitVec 32 := mI ((c : Thread nD τ).loc main_arg0)
abbrev aE (c : Dev nD) : (⟨2, ![500001, 256]⟩ : Shape).Idx → EReal := mI ((c : Thread nD τ).loc main_arg1)
abbrev aM (c : Dev nD) : (⟨2, ![500001, 256]⟩ : Shape).Idx → EReal := mI ((c : Thread nD τ).loc main_arg2)
abbrev aR (c : Dev nD) : (⟨2, ![1001, 256]⟩ : Shape).Idx → EReal := mI ((c : Thread nD τ).loc main_arg3)
abbrev aP (c : Dev nD) : (⟨2, ![1001, 256]⟩ : Shape).Idx → EReal := mI ((c : Thread nD τ).loc main_arg4)

/-- The first output block at point t, lane d: the projected head of triplet t. -/
theorem outH_apply (hO : Ok mI) (c : Dev nD) (t : Fin (cfgM mI hO).N) (d : Fin 256) :
    (outH mI hO c t : S1x1x256.Idx → EReal) (ix3 0 0 d)
      = Cert.Spec.proj (aT mI c) (aE mI c) (aM mI c) (aP mI c) 0 (grid0.coords t 0 : Fin 65536) d := by
  obtain rfl : c = 0 := Subsingleton.elim _ _
  unfold outH
  refine (pay3_apply (iblk mI hO 0 0 t) (iblk mI hO 0 1 t) (iblk mI hO 0 5 t) d).trans ?_
  show _ = aE mI 0 (ix2 (Cert.Spec.entRow (aT mI 0 (ix2 (grid0.coords t 0 : Fin 65536) 0))) d)
      + aP mI 0 (ix2 (Cert.Spec.relRow (aT mI 0 (ix2 (grid0.coords t 0 : Fin 65536) 1))) d)
        * ∑ k : Fin 256, aM mI 0 (ix2 (Cert.Spec.entRow (aT mI 0 (ix2 (grid0.coords t 0 : Fin 65536) 0))) k)
            * aE mI 0 (ix2 (Cert.Spec.entRow (aT mI 0 (ix2 (grid0.coords t 0 : Fin 65536) 0))) k)
  exact congrArg₂ (· + ·) (iblk0_apply mI hO 0 t _ (head_row mI hO (grid0.coords t)) d)
    (congrArg₂ (· * ·) (iblk5_apply mI hO 0 t _ (rel_row mI hO (grid0.coords t)) d)
      (Finset.sum_congr rfl fun k _ => congrArg₂ (· * ·) (iblk1_apply mI hO 0 t _ (head_row mI hO (grid0.coords t)) k)
        (iblk0_apply mI hO 0 t _ (head_row mI hO (grid0.coords t)) k)))

/-- The second output block at point t, lane d: the relation's embedding row of triplet t. -/
theorem outR_apply (hO : Ok mI) (c : Dev nD) (t : Fin (cfgM mI hO).N) (d : Fin 256) :
    (outR mI hO c t : S1x1x256.Idx → EReal) (ix3 0 0 d)
      = Cert.Spec.rel (aT mI c) (aR mI c) (grid0.coords t 0 : Fin 65536) d := by
  obtain rfl : c = 0 := Subsingleton.elim _ _
  unfold outR
  refine (congrFun (pay1_eq (F := Ideal) (iblk mI hO 0 4 t)) (ix3 0 0 d)).trans ?_
  exact iblk4_apply mI hO 0 t _ (rel_row mI hO (grid0.coords t)) d

/-- The third output block at point t, lane d: the projected tail of triplet t. -/
theorem outT_apply (hO : Ok mI) (c : Dev nD) (t : Fin (cfgM mI hO).N) (d : Fin 256) :
    (outT mI hO c t : S1x1x256.Idx → EReal) (ix3 0 0 d)
      = Cert.Spec.proj (aT mI c) (aE mI c) (aM mI c) (aP mI c) 2 (grid0.coords t 0 : Fin 65536) d := by
  obtain rfl : c = 0 := Subsingleton.elim _ _
  unfold outT
  refine (pay4_apply (iblk mI hO 0 2 t) (iblk mI hO 0 3 t) (iblk mI hO 0 5 t) d).trans ?_
  show _ = aE mI 0 (ix2 (Cert.Spec.entRow (aT mI 0 (ix2 (grid0.coords t 0 : Fin 65536) 2))) d)
      + aP mI 0 (ix2 (Cert.Spec.relRow (aT mI 0 (ix2 (grid0.coords t 0 : Fin 65536) 1))) d)
        * ∑ k : Fin 256, aM mI 0 (ix2 (Cert.Spec.entRow (aT mI 0 (ix2 (grid0.coords t 0 : Fin 65536) 2))) k)
            * aE mI 0 (ix2 (Cert.Spec.entRow (aT mI 0 (ix2 (grid0.coords t 0 : Fin 65536) 2))) k)
  exact congrArg₂ (· + ·) (iblk2_apply mI hO 0 t _ (tail_row mI hO (grid0.coords t)) d)
    (congrArg₂ (· * ·) (iblk5_apply mI hO 0 t _ (rel_row mI hO (grid0.coords t)) d)
      (Finset.sum_congr rfl fun k _ => congrArg₂ (· * ·) (iblk3_apply mI hO 0 t _ (tail_row mI hO (grid0.coords t)) k)
        (iblk2_apply mI hO 0 t _ (tail_row mI hO (grid0.coords t)) k)))

end Point

/-! ## The output windows: block t is row t, and every point writes back -/

section OutGeom
variable {F : FTy → Type} [FloatOps F]

/-- Output window 6's index map names block (t, 0, 0) at point t. -/
theorem transform6_val (t : Fin grid0.N) : cc0_transform_6 (grid0.coords t) (0 : Fin 3) = t.val := by
  show (BitVec.ofNat 32 (grid0.coords t 0).val).toNat = t.val
  rw [BitVec.toNat_ofNat, coords_val]
  have hN : grid0.N = 65536 := N_0
  have ht := t.isLt
  exact Nat.mod_eq_of_lt (by omega)

/-- Its block at point t, read off an array, at (0, 0, d): the array at (t, 0, d). -/
theorem blk6_read (a : (pcfg0 (F := F)).Adm) (t : Fin (cfg0 a).N) (G : S65536x1x256.Idx → Elt F .f32) (j : S1x1x256.Idx) :
    ((((cfg0 a).win 6).blk t).view.read (Elt F) G : S1x1x256.Idx → Elt F .f32) j
      = G (ix3 (grid0.coords t 0 : Fin 65536) 0 (j 2 : Fin 256)) := by
  show G ((((cfg0 a).win 6).blk t).view.emb j) = G _
  congr 1
  funext b
  apply Fin.ext
  have h0 : (j 0).val < 1 := (j 0).isLt
  have h1 : (j 1).val < 1 := (j 1).isLt
  match b with
  | ⟨0, _⟩ =>
    show cc0_transform_6 (grid0.coords t) (0 : Fin 3) * 1 + 1 * (j 0).val = (grid0.coords t 0).val
    rw [transform6_val, coords_val]; omega
  | ⟨1, _⟩ =>
    show 0 * 1 + 1 * (j 1).val = 0
    omega
  | ⟨2, _⟩ =>
    show 0 * 256 + 1 * (j 2).val = (j 2).val
    omega

/-- Every point writes its block back: the next point's block is another. -/
theorem flush6 (a : (pcfg0 (F := F)).Adm) (t : Fin (cfg0 a).N) : ((cfg0 a).win 6).flush t = true := by
  unfold Window.flush
  rw [Bool.and_eq_true]
  refine ⟨rfl, ?_⟩
  rw [Bool.or_eq_true, decide_eq_true_eq, decide_eq_true_eq]
  by_cases h : t.val + 1 = (cfg0 a).grid.N
  · exact Or.inl h
  · refine Or.inr ⟨lt_of_le_of_ne t.isLt h, fun e => ?_⟩
    have e0 : cc0_transform_6 (grid0.coords ⟨t.val + 1, lt_of_le_of_ne t.isLt h⟩) (0 : Fin 3)
        = cc0_transform_6 (grid0.coords t) (0 : Fin 3) := congrFun e (0 : Fin 3)
    rw [transform6_val, transform6_val] at e0
    exact absurd e0 (Nat.succ_ne_self _)

/-- The blocks tile the result: index (i, 0, d) is in point i's block. -/
theorem cover6 (a : (pcfg0 (F := F)).Adm) (i : S65536x1x256.Idx) :
    ∃ t : Fin (cfg0 a).N, ((cfg0 a).win 6).flush t = true ∧ i ∈ (((cfg0 a).win 6).blk t).view.set := by
  have hN : grid0.N = 65536 := N_0
  have hi0 : (i 0).val < 65536 := (i 0).isLt
  have hi1 : (i 1).val < 1 := (i 1).isLt
  have hi2 : (i 2).val < 256 := (i 2).isLt
  have ht : (i 0).val < (cfg0 a).N := by show (i 0).val < grid0.N; omega
  refine ⟨⟨(i 0).val, ht⟩, flush6 a _, ?_⟩
  refine (congrArg (fun s : Finset main_v10_0.ty.shape.Idx => i ∈ s)
    (View.set_slice_whole main_v10_0 (((cfg0 a).win 6).rect ⟨(i 0).val, ht⟩))).mpr (Rect.mem_set_unit.mpr fun b => ?_)
  match b with
  | ⟨0, _⟩ =>
    show cc0_transform_6 (grid0.coords ⟨(i 0).val, ht⟩) (0 : Fin 3) * 1 ≤ (i 0).val
      ∧ (i 0).val < cc0_transform_6 (grid0.coords ⟨(i 0).val, ht⟩) (0 : Fin 3) * 1 + 1
    rw [transform6_val]
    show (i 0).val * 1 ≤ (i 0).val ∧ (i 0).val < (i 0).val * 1 + 1
    omega
  | ⟨1, _⟩ =>
    show 0 * 1 ≤ (i 1).val ∧ (i 1).val < 0 * 1 + 1
    omega
  | ⟨2, _⟩ =>
    show 0 * 256 ≤ (i 2).val ∧ (i 2).val < 0 * 256 + 256
    omega

/-- Output window 7's index map names block (t, 0, 0) at point t. -/
theorem transform7_val (t : Fin grid0.N) : cc0_transform_7 (grid0.coords t) (0 : Fin 3) = t.val := by
  show (BitVec.ofNat 32 (grid0.coords t 0).val).toNat = t.val
  rw [BitVec.toNat_ofNat, coords_val]
  have hN : grid0.N = 65536 := N_0
  have ht := t.isLt
  exact Nat.mod_eq_of_lt (by omega)

/-- Its block at point t, read off an array, at (0, 0, d): the array at (t, 0, d). -/
theorem blk7_read (a : (pcfg0 (F := F)).Adm) (t : Fin (cfg0 a).N) (G : S65536x1x256.Idx → Elt F .f32) (j : S1x1x256.Idx) :
    ((((cfg0 a).win 7).blk t).view.read (Elt F) G : S1x1x256.Idx → Elt F .f32) j
      = G (ix3 (grid0.coords t 0 : Fin 65536) 0 (j 2 : Fin 256)) := by
  show G ((((cfg0 a).win 7).blk t).view.emb j) = G _
  congr 1
  funext b
  apply Fin.ext
  have h0 : (j 0).val < 1 := (j 0).isLt
  have h1 : (j 1).val < 1 := (j 1).isLt
  match b with
  | ⟨0, _⟩ =>
    show cc0_transform_7 (grid0.coords t) (0 : Fin 3) * 1 + 1 * (j 0).val = (grid0.coords t 0).val
    rw [transform7_val, coords_val]; omega
  | ⟨1, _⟩ =>
    show 0 * 1 + 1 * (j 1).val = 0
    omega
  | ⟨2, _⟩ =>
    show 0 * 256 + 1 * (j 2).val = (j 2).val
    omega

/-- Every point writes its block back: the next point's block is another. -/
theorem flush7 (a : (pcfg0 (F := F)).Adm) (t : Fin (cfg0 a).N) : ((cfg0 a).win 7).flush t = true := by
  unfold Window.flush
  rw [Bool.and_eq_true]
  refine ⟨rfl, ?_⟩
  rw [Bool.or_eq_true, decide_eq_true_eq, decide_eq_true_eq]
  by_cases h : t.val + 1 = (cfg0 a).grid.N
  · exact Or.inl h
  · refine Or.inr ⟨lt_of_le_of_ne t.isLt h, fun e => ?_⟩
    have e0 : cc0_transform_7 (grid0.coords ⟨t.val + 1, lt_of_le_of_ne t.isLt h⟩) (0 : Fin 3)
        = cc0_transform_7 (grid0.coords t) (0 : Fin 3) := congrFun e (0 : Fin 3)
    rw [transform7_val, transform7_val] at e0
    exact absurd e0 (Nat.succ_ne_self _)

/-- The blocks tile the result: index (i, 0, d) is in point i's block. -/
theorem cover7 (a : (pcfg0 (F := F)).Adm) (i : S65536x1x256.Idx) :
    ∃ t : Fin (cfg0 a).N, ((cfg0 a).win 7).flush t = true ∧ i ∈ (((cfg0 a).win 7).blk t).view.set := by
  have hN : grid0.N = 65536 := N_0
  have hi0 : (i 0).val < 65536 := (i 0).isLt
  have hi1 : (i 1).val < 1 := (i 1).isLt
  have hi2 : (i 2).val < 256 := (i 2).isLt
  have ht : (i 0).val < (cfg0 a).N := by show (i 0).val < grid0.N; omega
  refine ⟨⟨(i 0).val, ht⟩, flush7 a _, ?_⟩
  refine (congrArg (fun s : Finset main_v10_1.ty.shape.Idx => i ∈ s)
    (View.set_slice_whole main_v10_1 (((cfg0 a).win 7).rect ⟨(i 0).val, ht⟩))).mpr (Rect.mem_set_unit.mpr fun b => ?_)
  match b with
  | ⟨0, _⟩ =>
    show cc0_transform_7 (grid0.coords ⟨(i 0).val, ht⟩) (0 : Fin 3) * 1 ≤ (i 0).val
      ∧ (i 0).val < cc0_transform_7 (grid0.coords ⟨(i 0).val, ht⟩) (0 : Fin 3) * 1 + 1
    rw [transform7_val]
    show (i 0).val * 1 ≤ (i 0).val ∧ (i 0).val < (i 0).val * 1 + 1
    omega
  | ⟨1, _⟩ =>
    show 0 * 1 ≤ (i 1).val ∧ (i 1).val < 0 * 1 + 1
    omega
  | ⟨2, _⟩ =>
    show 0 * 256 ≤ (i 2).val ∧ (i 2).val < 0 * 256 + 256
    omega

/-- Output window 8's index map names block (t, 0, 0) at point t. -/
theorem transform8_val (t : Fin grid0.N) : cc0_transform_8 (grid0.coords t) (0 : Fin 3) = t.val := by
  show (BitVec.ofNat 32 (grid0.coords t 0).val).toNat = t.val
  rw [BitVec.toNat_ofNat, coords_val]
  have hN : grid0.N = 65536 := N_0
  have ht := t.isLt
  exact Nat.mod_eq_of_lt (by omega)

/-- Its block at point t, read off an array, at (0, 0, d): the array at (t, 0, d). -/
theorem blk8_read (a : (pcfg0 (F := F)).Adm) (t : Fin (cfg0 a).N) (G : S65536x1x256.Idx → Elt F .f32) (j : S1x1x256.Idx) :
    ((((cfg0 a).win 8).blk t).view.read (Elt F) G : S1x1x256.Idx → Elt F .f32) j
      = G (ix3 (grid0.coords t 0 : Fin 65536) 0 (j 2 : Fin 256)) := by
  show G ((((cfg0 a).win 8).blk t).view.emb j) = G _
  congr 1
  funext b
  apply Fin.ext
  have h0 : (j 0).val < 1 := (j 0).isLt
  have h1 : (j 1).val < 1 := (j 1).isLt
  match b with
  | ⟨0, _⟩ =>
    show cc0_transform_8 (grid0.coords t) (0 : Fin 3) * 1 + 1 * (j 0).val = (grid0.coords t 0).val
    rw [transform8_val, coords_val]; omega
  | ⟨1, _⟩ =>
    show 0 * 1 + 1 * (j 1).val = 0
    omega
  | ⟨2, _⟩ =>
    show 0 * 256 + 1 * (j 2).val = (j 2).val
    omega

/-- Every point writes its block back: the next point's block is another. -/
theorem flush8 (a : (pcfg0 (F := F)).Adm) (t : Fin (cfg0 a).N) : ((cfg0 a).win 8).flush t = true := by
  unfold Window.flush
  rw [Bool.and_eq_true]
  refine ⟨rfl, ?_⟩
  rw [Bool.or_eq_true, decide_eq_true_eq, decide_eq_true_eq]
  by_cases h : t.val + 1 = (cfg0 a).grid.N
  · exact Or.inl h
  · refine Or.inr ⟨lt_of_le_of_ne t.isLt h, fun e => ?_⟩
    have e0 : cc0_transform_8 (grid0.coords ⟨t.val + 1, lt_of_le_of_ne t.isLt h⟩) (0 : Fin 3)
        = cc0_transform_8 (grid0.coords t) (0 : Fin 3) := congrFun e (0 : Fin 3)
    rw [transform8_val, transform8_val] at e0
    exact absurd e0 (Nat.succ_ne_self _)

/-- The blocks tile the result: index (i, 0, d) is in point i's block. -/
theorem cover8 (a : (pcfg0 (F := F)).Adm) (i : S65536x1x256.Idx) :
    ∃ t : Fin (cfg0 a).N, ((cfg0 a).win 8).flush t = true ∧ i ∈ (((cfg0 a).win 8).blk t).view.set := by
  have hN : grid0.N = 65536 := N_0
  have hi0 : (i 0).val < 65536 := (i 0).isLt
  have hi1 : (i 1).val < 1 := (i 1).isLt
  have hi2 : (i 2).val < 256 := (i 2).isLt
  have ht : (i 0).val < (cfg0 a).N := by show (i 0).val < grid0.N; omega
  refine ⟨⟨(i 0).val, ht⟩, flush8 a _, ?_⟩
  refine (congrArg (fun s : Finset main_v10_2.ty.shape.Idx => i ∈ s)
    (View.set_slice_whole main_v10_2 (((cfg0 a).win 8).rect ⟨(i 0).val, ht⟩))).mpr (Rect.mem_set_unit.mpr fun b => ?_)
  match b with
  | ⟨0, _⟩ =>
    show cc0_transform_8 (grid0.coords ⟨(i 0).val, ht⟩) (0 : Fin 3) * 1 ≤ (i 0).val
      ∧ (i 0).val < cc0_transform_8 (grid0.coords ⟨(i 0).val, ht⟩) (0 : Fin 3) * 1 + 1
    rw [transform8_val]
    show (i 0).val * 1 ≤ (i 0).val ∧ (i 0).val < (i 0).val * 1 + 1
    omega
  | ⟨1, _⟩ =>
    show 0 * 1 ≤ (i 1).val ∧ (i 1).val < 0 * 1 + 1
    omega
  | ⟨2, _⟩ =>
    show 0 * 256 ≤ (i 2).val ∧ (i 2).val < 0 * 256 + 256
    omega

end OutGeom

/-! ## The three result arrays after the region -/

section Arrays
variable (mI : (ℓ : Loc nD τ sig) → Buf (Elt Ideal) ℓ)

/-- The first result as one function of the arguments: at (i, 0, d) the projected head of triplet i. -/
def GH (c : Dev nD) : S65536x1x256.Idx → EReal := fun j => Cert.Spec.proj (aT mI c) (aE mI c) (aM mI c) (aP mI c) 0 (j 0 : Fin 65536) (j 2 : Fin 256)

theorem outH_at (hO : Ok mI) (c : Dev nD) (t : Fin (cfgM mI hO).N) (j : S1x1x256.Idx) :
    (outH mI hO c t : S1x1x256.Idx → EReal) j = GH mI c (ix3 (grid0.coords t 0 : Fin 65536) 0 (j 2 : Fin 256)) := by
  obtain ⟨j0, j1, j2, rfl⟩ : ∃ (a : Fin 1) (b : Fin 1) (d : Fin 256), j = ix3 a b d := ⟨j 0, j 1, j 2, eq_ix3 j⟩
  obtain rfl : j0 = 0 := Subsingleton.elim _ _
  obtain rfl : j1 = 0 := Subsingleton.elim _ _
  exact outH_apply mI hO c t j2

/-- What point t writes back is block t of that function. -/
theorem flushedH_eq (hO : Ok mI) (c : Dev nD) (t : Fin (cfgM mI hO).N) :
    (dats mI hO 0 c).flushed (6 : Fin 9) t = (((cfgM mI hO).win (6 : Fin 9)).blk t).view.read (Elt Ideal) (GH mI c) := by
  show ((cfgM mI hO).win (6 : Fin 9)).cut ((cfgM mI hO).grid.coords t) ((dats mI hO 0 c).after (6 : Fin 9) t) = _
  have ha : (dats mI hO 0 c).after (6 : Fin 9) t = outH mI hO c t := by dsimp only [dats]
  rw [ha]
  funext j
  exact (outH_at mI hO c t j).trans (blk6_read (adm mI hO) t (GH mI c) j).symm

/-- So the result array ends holding it. -/
theorem resH_eq (hO : Ok mI) (c : Dev nD) : resH mI hO c = GH mI c := by
  unfold resH
  exact (dats mI hO 0 c).arrAt_eq_of_cover (6 : Fin 9) (GH mI c) (fun t _ => flushedH_eq mI hO c t) (cover6 (adm mI hO))

/-- The second result as one function of the arguments: at (i, 0, d) the relation's embedding row of triplet i. -/
def GR (c : Dev nD) : S65536x1x256.Idx → EReal := fun j => Cert.Spec.rel (aT mI c) (aR mI c) (j 0 : Fin 65536) (j 2 : Fin 256)

theorem outR_at (hO : Ok mI) (c : Dev nD) (t : Fin (cfgM mI hO).N) (j : S1x1x256.Idx) :
    (outR mI hO c t : S1x1x256.Idx → EReal) j = GR mI c (ix3 (grid0.coords t 0 : Fin 65536) 0 (j 2 : Fin 256)) := by
  obtain ⟨j0, j1, j2, rfl⟩ : ∃ (a : Fin 1) (b : Fin 1) (d : Fin 256), j = ix3 a b d := ⟨j 0, j 1, j 2, eq_ix3 j⟩
  obtain rfl : j0 = 0 := Subsingleton.elim _ _
  obtain rfl : j1 = 0 := Subsingleton.elim _ _
  exact outR_apply mI hO c t j2

/-- What point t writes back is block t of that function. -/
theorem flushedR_eq (hO : Ok mI) (c : Dev nD) (t : Fin (cfgM mI hO).N) :
    (dats mI hO 0 c).flushed (7 : Fin 9) t = (((cfgM mI hO).win (7 : Fin 9)).blk t).view.read (Elt Ideal) (GR mI c) := by
  show ((cfgM mI hO).win (7 : Fin 9)).cut ((cfgM mI hO).grid.coords t) ((dats mI hO 0 c).after (7 : Fin 9) t) = _
  have ha : (dats mI hO 0 c).after (7 : Fin 9) t = outR mI hO c t := by dsimp only [dats]
  rw [ha]
  funext j
  exact (outR_at mI hO c t j).trans (blk7_read (adm mI hO) t (GR mI c) j).symm

/-- So the result array ends holding it. -/
theorem resR_eq (hO : Ok mI) (c : Dev nD) : resR mI hO c = GR mI c := by
  unfold resR
  exact (dats mI hO 0 c).arrAt_eq_of_cover (7 : Fin 9) (GR mI c) (fun t _ => flushedR_eq mI hO c t) (cover7 (adm mI hO))

/-- The third result as one function of the arguments: at (i, 0, d) the projected tail of triplet i. -/
def GT (c : Dev nD) : S65536x1x256.Idx → EReal := fun j => Cert.Spec.proj (aT mI c) (aE mI c) (aM mI c) (aP mI c) 2 (j 0 : Fin 65536) (j 2 : Fin 256)

theorem outT_at (hO : Ok mI) (c : Dev nD) (t : Fin (cfgM mI hO).N) (j : S1x1x256.Idx) :
    (outT mI hO c t : S1x1x256.Idx → EReal) j = GT mI c (ix3 (grid0.coords t 0 : Fin 65536) 0 (j 2 : Fin 256)) := by
  obtain ⟨j0, j1, j2, rfl⟩ : ∃ (a : Fin 1) (b : Fin 1) (d : Fin 256), j = ix3 a b d := ⟨j 0, j 1, j 2, eq_ix3 j⟩
  obtain rfl : j0 = 0 := Subsingleton.elim _ _
  obtain rfl : j1 = 0 := Subsingleton.elim _ _
  exact outT_apply mI hO c t j2

/-- What point t writes back is block t of that function. -/
theorem flushedT_eq (hO : Ok mI) (c : Dev nD) (t : Fin (cfgM mI hO).N) :
    (dats mI hO 0 c).flushed (8 : Fin 9) t = (((cfgM mI hO).win (8 : Fin 9)).blk t).view.read (Elt Ideal) (GT mI c) := by
  show ((cfgM mI hO).win (8 : Fin 9)).cut ((cfgM mI hO).grid.coords t) ((dats mI hO 0 c).after (8 : Fin 9) t) = _
  have ha : (dats mI hO 0 c).after (8 : Fin 9) t = outT mI hO c t := by dsimp only [dats]
  rw [ha]
  funext j
  exact (outT_at mI hO c t j).trans (blk8_read (adm mI hO) t (GT mI c) j).symm

/-- So the result array ends holding it. -/
theorem resT_eq (hO : Ok mI) (c : Dev nD) : resT mI hO c = GT mI c := by
  unfold resT
  exact (dats mI hO 0 c).arrAt_eq_of_cover (8 : Fin 9) (GT mI c) (fun t _ => flushedT_eq mI hO c t) (cover8 (adm mI hO))

end Arrays

/-! ## After the three reshapes -/

section Tail
variable {F : FTy → Type} [FloatOps F] (m : (ℓ : Loc nD τ sig) → Buf (Elt F) ℓ)

/-- After the reshapes, result 11 is the region's array with its unit axis dropped. -/
theorem Vfin_v11 (hO : Ok m) (c : Dev nD) : (Vfin m hO c main_v11 : S65536x256.Idx → Elt F .f32)
    = shapeCast S65536x256 (resH m hO c : S65536x1x256.Idx → Elt F .f32) shapeCasts_S65536x1x256_S65536x256 := by
  unfold Vfin
  after_results
  unfold Wx
  rw [Function.update_of_ne (StableHlo.devRef_ne_of_ne (show main_v10_0 ≠ main_v10_2 by decide)), Function.update_of_ne (StableHlo.devRef_ne_of_ne (show main_v10_0 ≠ main_v10_1 by decide)), Function.update_self]
  rfl

/-- After the reshapes, result 12 is the region's array with its unit axis dropped. -/
theorem Vfin_v12 (hO : Ok m) (c : Dev nD) : (Vfin m hO c main_v12 : S65536x256.Idx → Elt F .f32)
    = shapeCast S65536x256 (resR m hO c : S65536x1x256.Idx → Elt F .f32) shapeCasts_S65536x1x256_S65536x256 := by
  unfold Vfin
  after_results
  unfold Wx
  rw [Function.update_of_ne (StableHlo.devRef_ne_of_ne (show main_v10_1 ≠ main_v10_2 by decide)), Function.update_self]
  rfl

/-- After the reshapes, result 13 is the region's array with its unit axis dropped. -/
theorem Vfin_v13 (hO : Ok m) (c : Dev nD) : (Vfin m hO c main_v13 : S65536x256.Idx → Elt F .f32)
    = shapeCast S65536x256 (resT m hO c : S65536x1x256.Idx → Elt F .f32) shapeCasts_S65536x1x256_S65536x256 := by
  unfold Vfin
  after_results
  unfold Wx
  rw [Function.update_self]
  rfl

/-! The five arguments end as they started: no operation before the region, no write-back and no reshape after it
    writes an argument. -/

theorem Vfin_arg0 (hO : Ok m) (c : Dev nD) : Vfin m hO c main_arg0 = m ((c : Thread nD τ).loc main_arg0) := by
  unfold Vfin
  after_results
  unfold Wx
  rw [Function.update_of_ne (StableHlo.devRef_ne_of_ne (show main_arg0 ≠ main_v10_2 by decide)), Function.update_of_ne (StableHlo.devRef_ne_of_ne (show main_arg0 ≠ main_v10_1 by decide)), Function.update_of_ne (StableHlo.devRef_ne_of_ne (show main_arg0 ≠ main_v10_0 by decide))]
  show StableHlo.after hostOps0 (fun b => m (c, b)) (Proc.devRef .tc main_arg0) = _
  after_results

theorem Vfin_arg1 (hO : Ok m) (c : Dev nD) : Vfin m hO c main_arg1 = m ((c : Thread nD τ).loc main_arg1) := by
  unfold Vfin
  after_results
  unfold Wx
  rw [Function.update_of_ne (StableHlo.devRef_ne_of_ne (show main_arg1 ≠ main_v10_2 by decide)), Function.update_of_ne (StableHlo.devRef_ne_of_ne (show main_arg1 ≠ main_v10_1 by decide)), Function.update_of_ne (StableHlo.devRef_ne_of_ne (show main_arg1 ≠ main_v10_0 by decide))]
  show StableHlo.after hostOps0 (fun b => m (c, b)) (Proc.devRef .tc main_arg1) = _
  after_results

theorem Vfin_arg2 (hO : Ok m) (c : Dev nD) : Vfin m hO c main_arg2 = m ((c : Thread nD τ).loc main_arg2) := by
  unfold Vfin
  after_results
  unfold Wx
  rw [Function.update_of_ne (StableHlo.devRef_ne_of_ne (show main_arg2 ≠ main_v10_2 by decide)), Function.update_of_ne (StableHlo.devRef_ne_of_ne (show main_arg2 ≠ main_v10_1 by decide)), Function.update_of_ne (StableHlo.devRef_ne_of_ne (show main_arg2 ≠ main_v10_0 by decide))]
  show StableHlo.after hostOps0 (fun b => m (c, b)) (Proc.devRef .tc main_arg2) = _
  after_results

theorem Vfin_arg3 (hO : Ok m) (c : Dev nD) : Vfin m hO c main_arg3 = m ((c : Thread nD τ).loc main_arg3) := by
  unfold Vfin
  after_results
  unfold Wx
  rw [Function.update_of_ne (StableHlo.devRef_ne_of_ne (show main_arg3 ≠ main_v10_2 by decide)), Function.update_of_ne (StableHlo.devRef_ne_of_ne (show main_arg3 ≠ main_v10_1 by decide)), Function.update_of_ne (StableHlo.devRef_ne_of_ne (show main_arg3 ≠ main_v10_0 by decide))]
  show StableHlo.after hostOps0 (fun b => m (c, b)) (Proc.devRef .tc main_arg3) = _
  after_results

theorem Vfin_arg4 (hO : Ok m) (c : Dev nD) : Vfin m hO c main_arg4 = m ((c : Thread nD τ).loc main_arg4) := by
  unfold Vfin
  after_results
  unfold Wx
  rw [Function.update_of_ne (StableHlo.devRef_ne_of_ne (show main_arg4 ≠ main_v10_2 by decide)), Function.update_of_ne (StableHlo.devRef_ne_of_ne (show main_arg4 ≠ main_v10_1 by decide)), Function.update_of_ne (StableHlo.devRef_ne_of_ne (show main_arg4 ≠ main_v10_0 by decide))]
  show StableHlo.after hostOps0 (fun b => m (c, b)) (Proc.devRef .tc main_arg4) = _
  after_results

end Tail

/-! ## The kernel's three results, index by index -/

section Final
variable (mI : (ℓ : Loc nD τ sig) → Buf (Elt Ideal) ℓ)

/-- The kernel's first result is the projected head. -/
theorem final_h (hO : Ok mI) (c : Dev nD) (i : Fin 65536) (d : Fin 256) :
    (Vfin mI hO c main_v11 : S65536x256.Idx → EReal) (ix2 i d) = Cert.Spec.proj (aT mI c) (aE mI c) (aM mI c) (aP mI c) 0 i d := by
  refine (congrFun (Vfin_v11 mI hO c) (ix2 i d)).trans ?_
  refine (shapeCast_apply _ _ (ix2 i d) (ix3 i 0 d) ?_).trans (congrFun (resH_eq mI hO c) (ix3 i 0 d))
  rw [Shape.rowMajor_val_three, Shape.rowMajor_val_two]
  show (i.val * 1 + 0) * 256 + d.val = i.val * 256 + d.val
  omega

/-- The kernel's second result is the relation's embedding row. -/
theorem final_r (hO : Ok mI) (c : Dev nD) (i : Fin 65536) (d : Fin 256) :
    (Vfin mI hO c main_v12 : S65536x256.Idx → EReal) (ix2 i d) = Cert.Spec.rel (aT mI c) (aR mI c) i d := by
  refine (congrFun (Vfin_v12 mI hO c) (ix2 i d)).trans ?_
  refine (shapeCast_apply _ _ (ix2 i d) (ix3 i 0 d) ?_).trans (congrFun (resR_eq mI hO c) (ix3 i 0 d))
  rw [Shape.rowMajor_val_three, Shape.rowMajor_val_two]
  show (i.val * 1 + 0) * 256 + d.val = i.val * 256 + d.val
  omega

/-- The kernel's third result is the projected tail. -/
theorem final_t (hO : Ok mI) (c : Dev nD) (i : Fin 65536) (d : Fin 256) :
    (Vfin mI hO c main_v13 : S65536x256.Idx → EReal) (ix2 i d) = Cert.Spec.proj (aT mI c) (aE mI c) (aM mI c) (aP mI c) 2 i d := by
  refine (congrFun (Vfin_v13 mI hO c) (ix2 i d)).trans ?_
  refine (shapeCast_apply _ _ (ix2 i d) (ix3 i 0 d) ?_).trans (congrFun (resT_eq mI hO c) (ix3 i 0 d))
  rw [Shape.rowMajor_val_three, Shape.rowMajor_val_two]
  show (i.val * 1 + 0) * 256 + d.val = i.val * 256 + d.val
  omega

end Final

end Cert.KernelIdeal.Region

end
-- ==== Proof.KI.Run.lean ====
/-
  The run of the program with its three obligations discharged, and what the frame claim reads off it: the five
  argument arrays end as they started.
-/
import proofs.«411737_j76020921140302_2_alg».proof.Proof.KI.Launch
import proofs.«411737_j76020921140302_2_alg».proof.Proof.KI.Body
import proofs.«411737_j76020921140302_2_alg».proof.Proof.KI.Entry
import proofs.«411737_j76020921140302_2_alg».proof.Proof.KI.Tail
import proofs.«411737_j76020921140302_2_alg».proof.Proof.KI.Value

set_option maxRecDepth 16384

noncomputable section

namespace Cert.KernelIdeal.Region

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Every weakly fair execution of the program terminates without a fault, with the arrays, the index columns and
    the other buffers as RunPost says. -/
theorem run_main (hO : Ok m) : θ_run defs (onTc (τ := τ) (main (F := F))) (s₀ m ρ) (RunPost m hO) :=
  run_of m ρ hO (body_obligation m hO) (entry_split m hO) (tail_run m hO)

/-- The five arguments are among the buffers that bypass the region and that no reshape after it writes. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2.2 main_arg0 (by decide)).trans (Vfin_arg0 m hO c),
     ((h c).2.2 main_arg1 (by decide)).trans (Vfin_arg1 m hO c),
     ((h c).2.2 main_arg2 (by decide)).trans (Vfin_arg2 m hO c),
     ((h c).2.2 main_arg3 (by decide)).trans (Vfin_arg3 m hO c),
     ((h c).2.2 main_arg4 (by decide)).trans (Vfin_arg4 m hO c)⟩) (run_main m ρ hO)

end Cert.KernelIdeal.Region

end
-- ==== Proof.K.Data.lean ====
/-
  The one kernel region of the program, described for the pipeline rule.

  The program slices three index columns h, r, t out of the triplets, views each table as rows of 1×256
  blocks, and runs one region of 65536 points. At point i six input windows hold row h[i] of the entity
  embeddings and of the entity maps, row t[i] of both, and row r[i] of the relation embeddings and maps; three
  output windows receive, at block i, e_h + p_r · ⟨p_h, e_h⟩, the relation row, and e_t + p_r · ⟨p_t, e_t⟩.
  The two entity tables are each read through two windows: each such pair shares its array half and half.
-/
import proofs.«411737_j76020921140302_2_alg».proof.Proof.Gen.Kernel.Launch
import proofs.«411737_j76020921140302_2_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Every buffer of core c after the ten host operations before the region. -/
abbrev V0 (c : Dev nD) : Valuation τ sig (Elt F) := StableHlo.after hostOps0 (fun b => m (c, b))

/-- The same, read at a TensorCore reference. -/
abbrev V (c : Dev nD) (b : Ref sig .tc) : Buf (Elt F) ((c : Thread nD τ).loc b) := V0 m c (Proc.devRef .tc b)

/-- The three index columns as the region finds them (the program runs on one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every index names a row of its table: the pipeline's condition on the columns. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- Window w's block at point t, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! ## What the body leaves in the three output buffers at a point -/

/-- e_h + p_r · ⟨p_h, e_h⟩ of the rows at point t. -/
def outH (hO : Ok m) (c : Dev nD) (t : Fin (cfgM m hO).N) : FVec F S1x1x256 .f32 :=
  k0_pay3 (iblk m hO c 0 t) (iblk m hO c 1 t) (iblk m hO c 5 t)
/-- the relation row at point t. -/
def outR (hO : Ok m) (c : Dev nD) (t : Fin (cfgM m hO).N) : FVec F S1x1x256 .f32 :=
  k0_pay1 (iblk m hO c 4 t)
/-- e_t + p_r · ⟨p_t, e_t⟩ of the rows at point t. -/
def outT (hO : Ok m) (c : Dev nD) (t : Fin (cfgM m hO).N) : FVec F S1x1x256 .f32 :=
  k0_pay4 (iblk m hO c 2 t) (iblk m hO c 3 t) (iblk m hO c 5 t)

/-! ## The proof data -/

/-- The arrays as the region finds them; each input buffer keeps its block; the outputs receive the three
    rows above; the invariant is the scoped rest, the generator register and the body's halves of the index
    columns; nothing is owed. The two windows on one entity table hold it half and half. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outH m hO c t
    | ⟨7, _⟩ => outR m hO c t
    | ⟨8, _⟩ => outT m hO c t
  Φ _ := iprop(Pipeline.ΦA spec0 c ∗ Pipeline.ΦT pre0 (tbl m) c)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (hO : Ok m) (c : Dev nD) (w : Fin (cfgM m hO).W) : (dats m hO 0 c).A w = V m c (Pipeline.arrRef spec0 w) := by
  dsimp only [dats]

end Cert.Kernel.Region

end
-- ==== Proof.K.Arrays.lean ====
/-
  The nine windows' arrays one by one, with the share each window holds its array at.
-/
import proofs.«411737_j76020921140302_2_alg».proof.Proof.K.Data

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Which windows are written back: the last three (at any contents of the index columns). -/
theorem isOut_vals (a : (pcfg0 (F := F)).Adm) :
    ((cfg0 a).win (0 : Fin 9)).isOut = false ∧ ((cfg0 a).win (1 : Fin 9)).isOut = false
    ∧ ((cfg0 a).win (2 : Fin 9)).isOut = false ∧ ((cfg0 a).win (3 : Fin 9)).isOut = false
    ∧ ((cfg0 a).win (4 : Fin 9)).isOut = false ∧ ((cfg0 a).win (5 : Fin 9)).isOut = false
    ∧ ((cfg0 a).win (6 : Fin 9)).isOut = true ∧ ((cfg0 a).win (7 : Fin 9)).isOut = true
    ∧ ((cfg0 a).win (8 : Fin 9)).isOut = true :=
  ⟨rfl, rfl, rfl, rfl, rfl, rfl, rfl, rfl, rfl⟩

/-- The share each window holds its array at: the entity embeddings and the entity maps are each read through two
    windows (the head rows' and the tail rows'), which hold them half and half; every other array is held whole. -/
theorem share_vals (hO : Ok m) (c : Dev nD) :
    (dats m hO 0 c).share (0 : Fin 9) = fullShare.left ∧ (dats m hO 0 c).share (1 : Fin 9) = fullShare.left
    ∧ (dats m hO 0 c).share (2 : Fin 9) = fullShare.right ∧ (dats m hO 0 c).share (3 : Fin 9) = fullShare.right
    ∧ (dats m hO 0 c).share (4 : Fin 9) = fullShare ∧ (dats m hO 0 c).share (5 : Fin 9) = fullShare
    ∧ (dats m hO 0 c).share (6 : Fin 9) = fullShare ∧ (dats m hO 0 c).share (7 : Fin 9) = fullShare
    ∧ (dats m hO 0 c).share (8 : Fin 9) = fullShare := by
  obtain ⟨o0, o1, o2, o3, o4, o5, o6, o7, o8⟩ := isOut_vals (F := F) (adm m hO)
  unfold Dat.share
  refine ⟨?_, ?_, ?_, ?_, ?_, ?_, ?_, ?_, ?_⟩
  · rw [o0]; rfl
  · rw [o1]; rfl
  · rw [o2]; rfl
  · rw [o3]; rfl
  · rw [o4]; rfl
  · rw [o5]; rfl
  · rw [o6]; rfl
  · rw [o7]; rfl
  · rw [o8]; rfl

/-- The windows' arrays at contents G, window by window, each at the share the proof data holds it at. Stated at
    any admissible contents of the index columns and any proof data. -/
theorem arrays_chain_at (a : (pcfg0 (F := F)).Adm) (c : Dev nD) (dat : Dat τ (Elt F) Unit ℕ (UR sig nD τ) ℕ (cfg0 a) c)
    (G : (w : Fin (cfg0 a).W) → Buf (Elt F) (((cfg0 a).win w).arr.view.loc (c.tc : Thread nD τ))) :
    (dat.arrays G : sProp 𝕄)
      = iprop((((c.tc : Thread nD τ).loc (Pipeline.arrRef (cfg0 a).spec (0 : Fin 9))) ↦{dat.share (0 : Fin 9)} G (0 : Fin 9))
          ∗ (((c.tc : Thread nD τ).loc (Pipeline.arrRef (cfg0 a).spec (1 : Fin 9))) ↦{dat.share (1 : Fin 9)} G (1 : Fin 9))
          ∗ (((c.tc : Thread nD τ).loc (Pipeline.arrRef (cfg0 a).spec (2 : Fin 9))) ↦{dat.share (2 : Fin 9)} G (2 : Fin 9))
          ∗ (((c.tc : Thread nD τ).loc (Pipeline.arrRef (cfg0 a).spec (3 : Fin 9))) ↦{dat.share (3 : Fin 9)} G (3 : Fin 9))
          ∗ (((c.tc : Thread nD τ).loc (Pipeline.arrRef (cfg0 a).spec (4 : Fin 9))) ↦{dat.share (4 : Fin 9)} G (4 : Fin 9))
          ∗ (((c.tc : Thread nD τ).loc (Pipeline.arrRef (cfg0 a).spec (5 : Fin 9))) ↦{dat.share (5 : Fin 9)} G (5 : Fin 9))
          ∗ (((c.tc : Thread nD τ).loc (Pipeline.arrRef (cfg0 a).spec (6 : Fin 9))) ↦{dat.share (6 : Fin 9)} G (6 : Fin 9))
          ∗ (((c.tc : Thread nD τ).loc (Pipeline.arrRef (cfg0 a).spec (7 : Fin 9))) ↦{dat.share (7 : Fin 9)} G (7 : Fin 9))
          ∗ (((c.tc : Thread nD τ).loc (Pipeline.arrRef (cfg0 a).spec (8 : Fin 9))) ↦{dat.share (8 : Fin 9)} G (8 : Fin 9))) := by
  have harr : ∀ w, ((cfg0 a).win w).arr.IsWhole := arr_whole0
  have h1 : (dat.arrays G : sProp 𝕄) = bigSep Finset.univ fun w : Fin 9 =>
      (((c.tc : Thread nD τ).loc (Pipeline.arrRef (cfg0 a).spec w)) ↦{dat.share w} G w : sProp 𝕄) := by
    unfold Dat.arrays
    exact bigSep_congr fun w _ => by rw [(harr w).set_eq_univ]
  have h2 := bigSep_W0 (M := 𝕄) (fun w : Fin 9 =>
      (((c.tc : Thread nD τ).loc (Pipeline.arrRef (cfg0 a).spec w)) ↦{dat.share w} G w : sProp 𝕄))
  exact h1.trans h2

end Cert.Kernel.Region

end
-- ==== Proof.K.Exit.lean ====
/-
  The buffers when the region is left, and after the three reshapes that follow it.
-/
import proofs.«411737_j76020921140302_2_alg».proof.Proof.K.Data
import Idealize.ShloMosaic.Lib.StableHlo.Run

set_option maxRecDepth 16384

noncomputable section

namespace Cert.Kernel.Region

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The three result arrays after every write-back. -/
def resH (hO : Ok m) (c : Dev nD) : Buf (Elt F) ((c : Thread nD τ).loc main_v10_0) := (dats m hO 0 c).arrAt (6 : Fin 9) (cfgM m hO).N
def resR (hO : Ok m) (c : Dev nD) : Buf (Elt F) ((c : Thread nD τ).loc main_v10_1) := (dats m hO 0 c).arrAt (7 : Fin 9) (cfgM m hO).N
def resT (hO : Ok m) (c : Dev nD) : Buf (Elt F) ((c : Thread nD τ).loc main_v10_2) := (dats m hO 0 c).arrAt (8 : Fin 9) (cfgM m hO).N

/-- Every buffer of core c when the region is left: the three results as the write-backs made them, every other
    buffer as the region found it. -/
def Wx (hO : Ok m) (c : Dev nD) : Valuation τ sig (Elt F) :=
  Function.update (Function.update (Function.update (V0 m c)
    (Proc.devRef .tc main_v10_0) (resH m hO c)) (Proc.devRef .tc main_v10_1) (resR m hO c)) (Proc.devRef .tc main_v10_2) (resT m hO c)

/-- Every TensorCore buffer after the three reshapes that follow the region. -/
def Vfin (hO : Ok m) (c : Dev nD) (b : Ref sig .tc) : Buf (Elt F) ((c : Thread nD τ).loc b) :=
  StableHlo.after hostOps1 (Wx m hO c) (Proc.devRef .tc b)

end Cert.Kernel.Region

end
-- ==== Proof.K.Launch.lean ====
/-
  The run of the whole program: the ten host operations, the region, the three reshapes.

  From any memory with every semaphore at zero the program terminates without a fault; at the end every window's
  array holds what the write-backs made of it, the three index columns are as the region found them, and every
  other buffer holds what the three reshapes after the region leave.
-/
import proofs.«411737_j76020921140302_2_alg».proof.Proof.K.Arrays
import proofs.«411737_j76020921140302_2_alg».proof.Proof.K.Exit

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the ten host operations, the region, then the three reshapes: holding the unscoped buffers at
    the launch contents it reduces to the region followed by the reshapes, holding them at the entry contents. -/
theorem hmain : Pipeline.HMainPK (Ix := Unit) (Name := ℕ) (U := UR sig nD τ) (Lvl := ℕ) pcfgs 0 defs₀ Variants.none m
    (main (F := F)) (V m) (fun _ => Pipeline.chain [StableHlo.seq hostOps1]) :=
  Pipeline.hmainP_around pcfgs 0 defs₀ Variants.none m main [hostOps0] [hostOps1] hostOps0_sub
    ⟨rfl, rfl, rfl, rfl, rfl, rfl, rfl, rfl, rfl, rfl⟩ fun c => (main_chain c).trans rfl

/-- What the run ends with. -/
def RunPost (hO : Ok m) (r : PUnit × MemSt nD τ sig (Elt F)) : Prop :=
  ∀ c : Dev nD,
    (∀ w, r.2.mem (((cfgM m hO).spec w).arr.view.loc (c.tc : Thread nD τ)) = (dats m hO 0 c).arrAt w (cfgM m hO).N)
    ∧ (∀ k, r.2.mem ((c.tc : Thread nD τ).loc (pre0.ref k)) = tbl m k)
    ∧ ∀ b ∈ Pipeline.restRefsP sig pre0 spec0, r.2.mem ((c.tc : Thread nD τ).loc b) = Vfin m hO c b

set_option backward.isDefEq.respectTransparency.types false in
/-- THE RUN, from the three obligations that are the kernel's own: the body at every point, the arrays dealt among
    the windows at entry, and the reshapes after the region. -/
theorem run_of (hO : Ok m)
    (hbody : ∀ c, BodyObligation (dats (F := F) m hO 0 c) (defs₀ (F := F)) Variants.none () Set.univ)
    (hsplit : ∀ c, (Pipeline.arrBufs (cfgM m hO).spec c (V m c) : sProp 𝕄)
      ⊢ (dats m hO 0 c).arrays (fun w => (dats m hO 0 c).arrAt w 0))
    (htail : ∀ (c : Dev nD) (Q' : PUnit → sProp 𝕄),
      iprop((iprop((dats m hO 0 c).arrays (fun w => (dats m hO 0 c).arrAt w (cfgM m hO).N)
                ∗ Pipeline.unscopedRestP pre0 spec0 c (Vfin m hO c)) -∗ Q' ⟨⟩)
          ∗ boundary (c.tc : Thread nD τ)
          ∗ (dats m hO 0 c).arrays (fun w => (dats m hO 0 c).arrAt w (cfgM m hO).N)
          ∗ Pipeline.unscopedRestP pre0 spec0 c (V m c))
        ⊢ wp frame (wpE (defs (F := F)) (Variants.lift Variants.none) (c.tc : Thread nD τ) none) Set.univ
            (Pipeline.chain [StableHlo.seq hostOps1]) Q') :
    θ_run defs (onTc (τ := τ) (main (F := F))) (s₀ m ρ) (RunPost m hO) :=
  Pipeline.θ_run_region_pf_tail pcfgs (fun _ => adm m hO) (dats m hO) () (cellOf_inj fun _ => adm m hO) (0 : Fin 1)
    winFacts₀0 (Pipeline.OwnSemFacts.none spec0) preFacts0 emb₁ defs₀ Variants.none m ρ main
    (fun _ => Pipeline.chain [StableHlo.seq hostOps1]) (fun c => (hbody c).loose)
    block_pos0 arr_whole0 stage_whole0 (fun _ _ => rfl)
    (G := fun _ => iprop(emp))
    (u₀ := initOf (Pipeline.cells (Pipeline.pin pcfgs fun _ => adm m hO) (cellOf_inj fun _ => adm m hO))
      (Pipeline.launchToks (Pipeline.pin pcfgs fun _ => adm m hO) (cellOf_inj fun _ => adm m hO)))
    (hu₀ := by
      iintro Hu; imodintro
      isplitl [Hu]
      · iapply (show (ownU _ : sProp 𝕄) ⊢ BI.own (emb₁ (initOf (Pipeline.cells (Pipeline.pin pcfgs fun _ => adm m hO) (cellOf_inj fun _ => adm m hO))
          (Pipeline.launchToks (Pipeline.pin pcfgs fun _ => adm m hO) (cellOf_inj fun _ => adm m hO)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit) (hpf := V_pre m)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (V m c))
    (Z' := fun c => Pipeline.unscopedRestP (Ix := Unit) (Name := ℕ) (U := UR sig nD τ) (Lvl := ℕ) pre0 spec0 c (Vfin m hO c))
    (hX := fun c => by
      iintro ⟨HU, -, -, -, Hp, -⟩; imodintro
      isplitl [Hp]; · iexists _; iexact Hp
      iexact HU)
    (hin := fun c => by
      show _ ⊢ iprop(Pipeline.ΦA spec0 c ∗ Pipeline.ΦT pre0 (tbl m) c)
      unfold Pipeline.ΦA Pipeline.ΦT; iintro ⟨Hp, Ht, Hr⟩
      isplitr [Ht]
      · isplitl [Hr] <;> iassumption
      · iexact Ht)
    (hout := fun c => by
      show iprop(Pipeline.ΦA spec0 c ∗ Pipeline.ΦT pre0 (tbl m) c) ⊢ _
      rw [Pipeline.ownSems0_none]; unfold Pipeline.ΦA
      iintro ⟨⟨Hr, Hp⟩, -⟩
      isplitl [Hp]; · iexact Hp
      isplitr; · iempintro
      iexact Hr)
    (htail := htail)
    (QY := fun c s => ∀ b ∈ Pipeline.restRefsP sig pre0 spec0, s.mem ((c.tc : Thread nD τ).loc b) = Vfin m hO c b)
    (hY := fun c s' => by
      iintro ⟨-, HU, HSI⟩
      unfold Pipeline.unscopedRestP
      imodintro
      iapply (pointsTo_read_all (Pipeline.restRefsP sig pre0 spec0) (fun b => (c.tc : Thread nD τ).loc b) (Vfin m hO c) s')
      isplitl [HU] <;> iassumption)
    (hQ := fun s h => h)

end Cert.Kernel.Region

end
-- ==== Proof.K.Body.lean ====
/-
  The body obligation of the one kernel region.

  At a grid point the body reads six 1×256 rows — e_h, m_h, e_t, m_t, the relation's embedding row r and its
  map row p — and writes three: e_h + p · ⟨m_h, e_h⟩, r, and e_t + p · ⟨m_t, e_t⟩. Every buffer is loaded and stored
  whole, so a load reads the buffer's contents and the one store into an output leaves its payload whatever
  the buffer held before. Each input window keeps its block between points, so its buffer holds the block of
  the point whether or not it was fetched there; the invariant and the index columns pass through unread.
-/
import proofs.«411737_j76020921140302_2_alg».proof.Proof.K.Data
import Idealize.ShloMosaic.Lib.Pipeline.Value

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores -/

/-- The zero offsets of a whole 1×1×256 buffer. -/
theorem hz3 : (![0, 0, 0] : Fin S1x1x256.rank → Nat) = fun _ => 0 := funext fun a => by fin_cases a <;> rfl

/-- A load of a whole 1×1×256 buffer reads its contents. -/
theorem load_whole {sp : Space} (M : Memref sig .tc sp S1x1x256 .f32) (h : M.IsWhole) (x : Vec F S1x1x256 .f32) :
    M.view.readAt (Elt F) (Rect.unit (s := S1x1x256) ![0, 0, 0] S1x1x256.size inb_S1x1x256_S1x1x256_0_0_0).toLoadRect (h.unread x) = x := by
  rw [View.readAt_eq_ld, h.read_unread, View.ld_unit_zero (S := S1x1x256) hz3]

/-- One store over a whole 1×1×256 buffer leaves its payload, whatever the buffer held. -/
theorem read_store_whole {sp : Space} (M : Memref sig .tc sp S1x1x256 .f32) (f : M.view.ty.Contents (Elt F)) (w : Vec F S1x1x256 .f32) :
    M.view.read (Elt F) (M.view.writes (Elt F) f
      [⟨Rect.unit (s := S1x1x256) ![0, 0, 0] S1x1x256.size inb_S1x1x256_S1x1x256_0_0_0, w⟩]) = w := by
  have hcov : ∀ y : S1x1x256.Idx, ∃ p ∈ [(⟨Rect.unit (s := S1x1x256) ![0, 0, 0] S1x1x256.size inb_S1x1x256_S1x1x256_0_0_0, w⟩ : View.Piece (Elt F) S1x1x256 .f32)], y ∈ p.1.set :=
    fun y => ⟨⟨Rect.unit (s := S1x1x256) ![0, 0, 0] S1x1x256.size inb_S1x1x256_S1x1x256_0_0_0, w⟩, List.mem_singleton_self _,
      View.mem_set_unit_zero (S := S1x1x256) hz3 inb_S1x1x256_S1x1x256_0_0_0 y⟩
  rw [View.read_writes_eq_canon M.view f _ hcov, View.canon_unit_zero (S := S1x1x256) hz3]

/-! ## Each input buffer holds its block -/

theorem before_of0 (a : (pcfg0 (F := F)).Adm) {c : Dev nD} (dat : Dat τ (Elt F) Unit ℕ (UR sig nD τ) ℕ (cfg0 a) c)
    (hkeep : ∀ t, dat.after 0 t = dat.blockOf 0 t) (t : Fin (cfg0 a).N) (d) : dat.before 0 t d = dat.blockOf 0 t :=
  (dat.before_in_eq_fetched 0 rfl (fun _ => rfl) (fun _ _ _ => rfl) (fun t => by rw [hkeep]) t d).trans rfl

theorem before_of1 (a : (pcfg0 (F := F)).Adm) {c : Dev nD} (dat : Dat τ (Elt F) Unit ℕ (UR sig nD τ) ℕ (cfg0 a) c)
    (hkeep : ∀ t, dat.after 1 t = dat.blockOf 1 t) (t : Fin (cfg0 a).N) (d) : dat.before 1 t d = dat.blockOf 1 t :=
  (dat.before_in_eq_fetched 1 rfl (fun _ => rfl) (fun _ _ _ => rfl) (fun t => by rw [hkeep]) t d).trans rfl

theorem before_of2 (a : (pcfg0 (F := F)).Adm) {c : Dev nD} (dat : Dat τ (Elt F) Unit ℕ (UR sig nD τ) ℕ (cfg0 a) c)
    (hkeep : ∀ t, dat.after 2 t = dat.blockOf 2 t) (t : Fin (cfg0 a).N) (d) : dat.before 2 t d = dat.blockOf 2 t :=
  (dat.before_in_eq_fetched 2 rfl (fun _ => rfl) (fun _ _ _ => rfl) (fun t => by rw [hkeep]) t d).trans rfl

theorem before_of3 (a : (pcfg0 (F := F)).Adm) {c : Dev nD} (dat : Dat τ (Elt F) Unit ℕ (UR sig nD τ) ℕ (cfg0 a) c)
    (hkeep : ∀ t, dat.after 3 t = dat.blockOf 3 t) (t : Fin (cfg0 a).N) (d) : dat.before 3 t d = dat.blockOf 3 t :=
  (dat.before_in_eq_fetched 3 rfl (fun _ => rfl) (fun _ _ _ => rfl) (fun t => by rw [hkeep]) t d).trans rfl

theorem before_of4 (a : (pcfg0 (F := F)).Adm) {c : Dev nD} (dat : Dat τ (Elt F) Unit ℕ (UR sig nD τ) ℕ (cfg0 a) c)
    (hkeep : ∀ t, dat.after 4 t = dat.blockOf 4 t) (t : Fin (cfg0 a).N) (d) : dat.before 4 t d = dat.blockOf 4 t :=
  (dat.before_in_eq_fetched 4 rfl (fun _ => rfl) (fun _ _ _ => rfl) (fun t => by rw [hkeep]) t d).trans rfl

theorem before_of5 (a : (pcfg0 (F := F)).Adm) {c : Dev nD} (dat : Dat τ (Elt F) Unit ℕ (UR sig nD τ) ℕ (cfg0 a) c)
    (hkeep : ∀ t, dat.after 5 t = dat.blockOf 5 t) (t : Fin (cfg0 a).N) (d) : dat.before 5 t d = dat.blockOf 5 t :=
  (dat.before_in_eq_fetched 5 rfl (fun _ => rfl) (fun _ _ _ => rfl) (fun t => by rw [hkeep]) t d).trans rfl

/-- The block the proof data fetches is the block read off the array as the region finds it. -/
theorem blockOf_eq (hO : Ok m) (c : Dev nD) (w : Fin (cfgM m hO).W) (t : Fin (cfgM m hO).N) :
    (dats m hO 0 c).blockOf w t = iblk m hO c w t := by
  unfold Dat.blockOf iblk; rw [A_eq]

/-! ## What the body leaves -/

theorem after_in0 (hO : Ok m) (c : Dev nD) (t : Fin (cfgM m hO).N) : (dats m hO 0 c).after 0 t = iblk m hO c 0 t := by dsimp only [dats]; rfl
theorem after_in1 (hO : Ok m) (c : Dev nD) (t : Fin (cfgM m hO).N) : (dats m hO 0 c).after 1 t = iblk m hO c 1 t := by dsimp only [dats]; rfl
theorem after_in2 (hO : Ok m) (c : Dev nD) (t : Fin (cfgM m hO).N) : (dats m hO 0 c).after 2 t = iblk m hO c 2 t := by dsimp only [dats]; rfl
theorem after_in3 (hO : Ok m) (c : Dev nD) (t : Fin (cfgM m hO).N) : (dats m hO 0 c).after 3 t = iblk m hO c 3 t := by dsimp only [dats]; rfl
theorem after_in4 (hO : Ok m) (c : Dev nD) (t : Fin (cfgM m hO).N) : (dats m hO 0 c).after 4 t = iblk m hO c 4 t := by dsimp only [dats]; rfl
theorem after_in5 (hO : Ok m) (c : Dev nD) (t : Fin (cfgM m hO).N) : (dats m hO 0 c).after 5 t = iblk m hO c 5 t := by dsimp only [dats]; rfl
theorem after_out6 (hO : Ok m) (c : Dev nD) (t : Fin (cfgM m hO).N) : (dats m hO 0 c).after 6 t = outH m hO c t := by dsimp only [dats]; rfl
theorem after_out7 (hO : Ok m) (c : Dev nD) (t : Fin (cfgM m hO).N) : (dats m hO 0 c).after 7 t = outR m hO c t := by dsimp only [dats]; rfl
theorem after_out8 (hO : Ok m) (c : Dev nD) (t : Fin (cfgM m hO).N) : (dats m hO 0 c).after 8 t = outT m hO c t := by dsimp only [dats]; rfl

/-! ## What the body finds -/

theorem before_in0 (hO : Ok m) (c : Dev nD) (t : Fin (cfgM m hO).N) (d) : (dats m hO 0 c).before 0 t d = iblk m hO c 0 t :=
  (before_of0 (adm m hO) (dats m hO 0 c) (fun t => (after_in0 m hO c t).trans (blockOf_eq m hO c 0 t).symm) t d).trans (blockOf_eq m hO c 0 t)
theorem before_in1 (hO : Ok m) (c : Dev nD) (t : Fin (cfgM m hO).N) (d) : (dats m hO 0 c).before 1 t d = iblk m hO c 1 t :=
  (before_of1 (adm m hO) (dats m hO 0 c) (fun t => (after_in1 m hO c t).trans (blockOf_eq m hO c 1 t).symm) t d).trans (blockOf_eq m hO c 1 t)
theorem before_in2 (hO : Ok m) (c : Dev nD) (t : Fin (cfgM m hO).N) (d) : (dats m hO 0 c).before 2 t d = iblk m hO c 2 t :=
  (before_of2 (adm m hO) (dats m hO 0 c) (fun t => (after_in2 m hO c t).trans (blockOf_eq m hO c 2 t).symm) t d).trans (blockOf_eq m hO c 2 t)
theorem before_in3 (hO : Ok m) (c : Dev nD) (t : Fin (cfgM m hO).N) (d) : (dats m hO 0 c).before 3 t d = iblk m hO c 3 t :=
  (before_of3 (adm m hO) (dats m hO 0 c) (fun t => (after_in3 m hO c t).trans (blockOf_eq m hO c 3 t).symm) t d).trans (blockOf_eq m hO c 3 t)
theorem before_in4 (hO : Ok m) (c : Dev nD) (t : Fin (cfgM m hO).N) (d) : (dats m hO 0 c).before 4 t d = iblk m hO c 4 t :=
  (before_of4 (adm m hO) (dats m hO 0 c) (fun t => (after_in4 m hO c t).trans (blockOf_eq m hO c 4 t).symm) t d).trans (blockOf_eq m hO c 4 t)
theorem before_in5 (hO : Ok m) (c : Dev nD) (t : Fin (cfgM m hO).N) (d) : (dats m hO 0 c).before 5 t d = iblk m hO c 5 t :=
  (before_of5 (adm m hO) (dats m hO 0 c) (fun t => (after_in5 m hO c t).trans (blockOf_eq m hO c 5 t).symm) t d).trans (blockOf_eq m hO c 5 t)

/-! ## The body on any whole buffers -/

set_option maxHeartbeats 1000000 in
/-- The body on any whole staging buffers: the six inputs at contents x0 … x5 and the three outputs at anything;
    it leaves the inputs as they were and the outputs at x0 + x5 · ⟨x1, x0⟩, x4 and x2 + x5 · ⟨x3, x2⟩. -/
theorem kernel_run (c : Dev nD) (i : grid0.Coords) (arg1 : Memref sig .tc .smem S65536 .i32) (harg1 : arg1.IsWhole) (arg2 : Memref sig .tc .smem S65536 .i32) (harg2 : arg2.IsWhole) (arg3 : Memref sig .tc .smem S65536 .i32) (harg3 : arg3.IsWhole)
    (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole)
    (x0 x1 x2 x3 x4 x5 : Vec F S1x1x256 .f32) (E : Set ℕ) (K : PUnit → sProp 𝕄) :
    iprop(owns (c : Thread nD τ) arg4 fullShare x0 ∗ owns (c : Thread nD τ) arg5 fullShare x1
        ∗ owns (c : Thread nD τ) arg6 fullShare x2 ∗ owns (c : Thread nD τ) arg7 fullShare x3
        ∗ owns (c : Thread nD τ) arg8 fullShare x4 ∗ owns (c : Thread nD τ) arg9 fullShare x5
        ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare x4 ∗ owns (c : Thread nD τ) arg9 fullShare x5
            ∗ owns (c : Thread nD τ) arg10 fullShare (k0_pay3 x0 x1 x5)
            ∗ owns (c : Thread nD τ) arg11 fullShare (k0_pay1 x4)
            ∗ owns (c : Thread nD τ) arg12 fullShare (k0_pay4 x2 x3 x5)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg4.eq_unread hf0
  obtain rfl := harg5.eq_unread hf1
  obtain rfl := harg6.eq_unread hf2
  obtain rfl := harg7.eq_unread hf3
  obtain rfl := harg8.eq_unread hf4
  obtain rfl := harg9.eq_unread hf5
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro; rw [read_store_whole, load_whole, load_whole, load_whole]
  isplitl [H7]
  · iexists _; isplitr
    swap; · iexact H7
    ipureintro; rw [read_store_whole, load_whole]
  iexists _; isplitr
  swap; · iexact H8
  ipureintro; rw [read_store_whole, load_whole, load_whole, load_whole]

/-! ## The body at a point -/

/-- Each window's current staging buffer at point t, as the region passes it to the body, and that it is a whole buffer. -/
abbrev ms0 (hO : Ok m) (t : Fin (cfgM m hO).N) : Memref sig .tc .vmem S1x1x256 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x256 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x256 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x256 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x256 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1x256 .f32 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1x256 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x1x256 .f32 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S1x1x256 .f32 := spec0_8.stage ((cfgM m hO).slots t 8)
abbrev hs8 (hO : Ok m) (t : Fin (cfgM m hO).N) : (ms8 m hO t).IsWhole := hstage0_8 (((cfgM m hO).slots t 8).cast nbuf0_8)

/-- The body at point t, on what the region calls it with. -/
abbrev bodyAt (hO : Ok m) (t : Fin (cfgM m hO).N) : Prog (TpuEff nD τ sig (Elt F) Λ₀ .tc) PUnit :=
  cc0__kernel (grid0.coords t) (Memref.whole main_v1) (Memref.isWhole_whole _) (Memref.whole main_v3) (Memref.isWhole_whole _) (Memref.whole main_v5) (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)

/-- At every point the body, handed the invariant, what the core owes and the nine current buffers — the six inputs
    holding their blocks, the outputs anything —, returns them with the inputs unchanged and the outputs at the three rows
    of the point; the invariant and what is owed pass through untouched. -/
theorem sound_body (hO : Ok m) (c : Dev nD) (t : Fin (cfgM m hO).N) :
    iprop((dats m hO 0 c).Φ t.castSucc ∗ (dats m hO 0 c).owesAt () t.castSucc
      ∗ (∃ d, owns (c : Thread nD τ) (ms0 m hO t) fullShare ((dats m hO 0 c).before 0 t d))
      ∗ (∃ d, owns (c : Thread nD τ) (ms1 m hO t) fullShare ((dats m hO 0 c).before 1 t d))
      ∗ (∃ d, owns (c : Thread nD τ) (ms2 m hO t) fullShare ((dats m hO 0 c).before 2 t d))
      ∗ (∃ d, owns (c : Thread nD τ) (ms3 m hO t) fullShare ((dats m hO 0 c).before 3 t d))
      ∗ (∃ d, owns (c : Thread nD τ) (ms4 m hO t) fullShare ((dats m hO 0 c).before 4 t d))
      ∗ (∃ d, owns (c : Thread nD τ) (ms5 m hO t) fullShare ((dats m hO 0 c).before 5 t d))
      ∗ (∃ d, owns (c : Thread nD τ) (ms6 m hO t) fullShare ((dats m hO 0 c).before 6 t d))
      ∗ (∃ d, owns (c : Thread nD τ) (ms7 m hO t) fullShare ((dats m hO 0 c).before 7 t d))
      ∗ (∃ d, owns (c : Thread nD τ) (ms8 m hO t) fullShare ((dats m hO 0 c).before 8 t d)))
      ⊢ wp frame (wpE (defs₀ (F := F)) Variants.none c none) Set.univ (bodyAt m hO t) (fun _ =>
        iprop((dats m hO 0 c).Φ t.succ ∗ (dats m hO 0 c).owesAt () t.succ
          ∗ owns (c : Thread nD τ) (ms0 m hO t) fullShare ((dats m hO 0 c).after 0 t)
          ∗ owns (c : Thread nD τ) (ms1 m hO t) fullShare ((dats m hO 0 c).after 1 t)
          ∗ owns (c : Thread nD τ) (ms2 m hO t) fullShare ((dats m hO 0 c).after 2 t)
          ∗ owns (c : Thread nD τ) (ms3 m hO t) fullShare ((dats m hO 0 c).after 3 t)
          ∗ owns (c : Thread nD τ) (ms4 m hO t) fullShare ((dats m hO 0 c).after 4 t)
          ∗ owns (c : Thread nD τ) (ms5 m hO t) fullShare ((dats m hO 0 c).after 5 t)
          ∗ owns (c : Thread nD τ) (ms6 m hO t) fullShare ((dats m hO 0 c).after 6 t)
          ∗ owns (c : Thread nD τ) (ms7 m hO t) fullShare ((dats m hO 0 c).after 7 t)
          ∗ owns (c : Thread nD τ) (ms8 m hO t) fullShare ((dats m hO 0 c).after 8 t))) := by
  simp only [before_in0, before_in1, before_in2, before_in3, before_in4, before_in5]
  rw [show (dats m hO 0 c).Φ t.succ = (dats m hO 0 c).Φ t.castSucc from rfl,
    show (dats m hO 0 c).owesAt () t.succ = (dats m hO 0 c).owesAt () t.castSucc from rfl,
    after_in0, after_in1, after_in2, after_in3, after_in4, after_in5, after_out6, after_out7, after_out8]
  unfold outH outR outT
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel_run c (grid0.coords t) _ _ _ _ _ _ _ _ _ _ _ _ _ _ _ _ _ _ _ _ _ _ _ _
    (iblk m hO c 0 t) (iblk m hO c 1 t) (iblk m hO c 2 t) (iblk m hO c 3 t) (iblk m hO c 4 t) (iblk m hO c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The obligation -/

/-- The body obligation of the region, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.Kernel.Region

end
-- ==== Proof.K.Entry.lean ====
/-
  How the arrays the region is handed are dealt among its nine windows.

  Seven distinct arrays stand behind the nine windows: the entity embeddings are read through windows 0 and 2 and
  the entity maps through windows 1 and 3, so each of those two arrays is split into its left and right half, one
  half to each of its windows; the two relation tables and the three results go to their one window whole. Every
  window's array holds, when the region is entered, what the region finds there.
-/
import proofs.«411737_j76020921140302_2_alg».proof.Proof.K.Arrays

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the nine windows: seven of them. -/
theorem arr_set (hO : Ok m) :
    Finset.univ.image (Pipeline.arrRef (cfgM m hO).spec)
      = [main_v6, main_v7, main_v8, main_v9, main_v10_0, main_v10_1, main_v10_2].toFinset := by
  show Finset.univ.image (Pipeline.arrRef spec0) = _
  decide

/-- The arrays behind the windows, each whole at contents Vc, one by one. -/
theorem arrBufs_chain (hO : Ok m) (c : Dev nD) (Vc : (b : Ref sig .tc) → Buf (Elt F) ((c.tc : Thread nD τ).loc b)) :
    (Pipeline.arrBufs (cfgM m hO).spec c Vc : sProp 𝕄)
      = iprop((((c.tc : Thread nD τ).loc main_v6) ↦{fullShare} Vc main_v6)
          ∗ (((c.tc : Thread nD τ).loc main_v7) ↦{fullShare} Vc main_v7)
          ∗ (((c.tc : Thread nD τ).loc main_v8) ↦{fullShare} Vc main_v8)
          ∗ (((c.tc : Thread nD τ).loc main_v9) ↦{fullShare} Vc main_v9)
          ∗ (((c.tc : Thread nD τ).loc main_v10_0) ↦{fullShare} Vc main_v10_0)
          ∗ (((c.tc : Thread nD τ).loc main_v10_1) ↦{fullShare} Vc main_v10_1)
          ∗ (((c.tc : Thread nD τ).loc main_v10_2) ↦{fullShare} Vc main_v10_2)) := by
  unfold Pipeline.arrBufs
  exact bigSep_eq_bigSepL_of_eq [main_v6, main_v7, main_v8, main_v9, main_v10_0, main_v10_1, main_v10_2] (arr_set m hO) (by decide) _

set_option maxHeartbeats 400000 in
/-- The seven arrays whole, as the region finds them, are the nine windows' arrays at their shares: the entity
    embeddings and the entity maps each halved between their two windows, the rest handed over as they are. -/
theorem entry_split (hO : Ok m) (c : Dev nD) :
    (Pipeline.arrBufs (cfgM m hO).spec c (V m c) : sProp 𝕄) ⊢ (dats m hO 0 c).arrays (fun w => (dats m hO 0 c).arrAt w 0) := by
  obtain ⟨s0, s1, s2, s3, s4, s5, s6, s7, s8⟩ := share_vals m hO c
  have h0 : (((c.tc : Thread nD τ).loc main_v6) ↦{fullShare.left} V m c main_v6 : sProp 𝕄)
      ⊢ (((c.tc : Thread nD τ).loc (Pipeline.arrRef (cfg0 (adm m hO)).spec (0 : Fin 9))) ↦{(dats m hO 0 c).share (0 : Fin 9)} (dats m hO 0 c).arrAt (0 : Fin 9) 0) := by
    rw [s0, show (dats m hO 0 c).arrAt (0 : Fin 9) 0 = V m c (Pipeline.arrRef spec0 (0 : Fin 9)) from A_eq m hO c 0]
  have h1 : (((c.tc : Thread nD τ).loc main_v7) ↦{fullShare.left} V m c main_v7 : sProp 𝕄)
      ⊢ (((c.tc : Thread nD τ).loc (Pipeline.arrRef (cfg0 (adm m hO)).spec (1 : Fin 9))) ↦{(dats m hO 0 c).share (1 : Fin 9)} (dats m hO 0 c).arrAt (1 : Fin 9) 0) := by
    rw [s1, show (dats m hO 0 c).arrAt (1 : Fin 9) 0 = V m c (Pipeline.arrRef spec0 (1 : Fin 9)) from A_eq m hO c 1]
  have h2 : (((c.tc : Thread nD τ).loc main_v6) ↦{fullShare.right} V m c main_v6 : sProp 𝕄)
      ⊢ (((c.tc : Thread nD τ).loc (Pipeline.arrRef (cfg0 (adm m hO)).spec (2 : Fin 9))) ↦{(dats m hO 0 c).share (2 : Fin 9)} (dats m hO 0 c).arrAt (2 : Fin 9) 0) := by
    rw [s2, show (dats m hO 0 c).arrAt (2 : Fin 9) 0 = V m c (Pipeline.arrRef spec0 (2 : Fin 9)) from A_eq m hO c 2]
  have h3 : (((c.tc : Thread nD τ).loc main_v7) ↦{fullShare.right} V m c main_v7 : sProp 𝕄)
      ⊢ (((c.tc : Thread nD τ).loc (Pipeline.arrRef (cfg0 (adm m hO)).spec (3 : Fin 9))) ↦{(dats m hO 0 c).share (3 : Fin 9)} (dats m hO 0 c).arrAt (3 : Fin 9) 0) := by
    rw [s3, show (dats m hO 0 c).arrAt (3 : Fin 9) 0 = V m c (Pipeline.arrRef spec0 (3 : Fin 9)) from A_eq m hO c 3]
  have h4 : (((c.tc : Thread nD τ).loc main_v8) ↦{fullShare} V m c main_v8 : sProp 𝕄)
      ⊢ (((c.tc : Thread nD τ).loc (Pipeline.arrRef (cfg0 (adm m hO)).spec (4 : Fin 9))) ↦{(dats m hO 0 c).share (4 : Fin 9)} (dats m hO 0 c).arrAt (4 : Fin 9) 0) := by
    rw [s4, show (dats m hO 0 c).arrAt (4 : Fin 9) 0 = V m c (Pipeline.arrRef spec0 (4 : Fin 9)) from A_eq m hO c 4]
  have h5 : (((c.tc : Thread nD τ).loc main_v9) ↦{fullShare} V m c main_v9 : sProp 𝕄)
      ⊢ (((c.tc : Thread nD τ).loc (Pipeline.arrRef (cfg0 (adm m hO)).spec (5 : Fin 9))) ↦{(dats m hO 0 c).share (5 : Fin 9)} (dats m hO 0 c).arrAt (5 : Fin 9) 0) := by
    rw [s5, show (dats m hO 0 c).arrAt (5 : Fin 9) 0 = V m c (Pipeline.arrRef spec0 (5 : Fin 9)) from A_eq m hO c 5]
  have h6 : (((c.tc : Thread nD τ).loc main_v10_0) ↦{fullShare} V m c main_v10_0 : sProp 𝕄)
      ⊢ (((c.tc : Thread nD τ).loc (Pipeline.arrRef (cfg0 (adm m hO)).spec (6 : Fin 9))) ↦{(dats m hO 0 c).share (6 : Fin 9)} (dats m hO 0 c).arrAt (6 : Fin 9) 0) := by
    rw [s6, show (dats m hO 0 c).arrAt (6 : Fin 9) 0 = V m c (Pipeline.arrRef spec0 (6 : Fin 9)) from A_eq m hO c 6]
  have h7 : (((c.tc : Thread nD τ).loc main_v10_1) ↦{fullShare} V m c main_v10_1 : sProp 𝕄)
      ⊢ (((c.tc : Thread nD τ).loc (Pipeline.arrRef (cfg0 (adm m hO)).spec (7 : Fin 9))) ↦{(dats m hO 0 c).share (7 : Fin 9)} (dats m hO 0 c).arrAt (7 : Fin 9) 0) := by
    rw [s7, show (dats m hO 0 c).arrAt (7 : Fin 9) 0 = V m c (Pipeline.arrRef spec0 (7 : Fin 9)) from A_eq m hO c 7]
  have h8 : (((c.tc : Thread nD τ).loc main_v10_2) ↦{fullShare} V m c main_v10_2 : sProp 𝕄)
      ⊢ (((c.tc : Thread nD τ).loc (Pipeline.arrRef (cfg0 (adm m hO)).spec (8 : Fin 9))) ↦{(dats m hO 0 c).share (8 : Fin 9)} (dats m hO 0 c).arrAt (8 : Fin 9) 0) := by
    rw [s8, show (dats m hO 0 c).arrAt (8 : Fin 9) 0 = V m c (Pipeline.arrRef spec0 (8 : Fin 9)) from A_eq m hO c 8]
  rw [arrays_chain_at (adm m hO) c (dats m hO 0 c) _, arrBufs_chain m hO c (V m c)]
  iintro ⟨H6, H7, H8, H9, Ha, Hb, Hc⟩
  ihave H6 := (pointsTo_share (PosShare.mem_left_op_right fullShare)).1 $$ H6
  icases H6 with ⟨H6l, H6r⟩
  ihave H7 := (pointsTo_share (PosShare.mem_left_op_right fullShare)).1 $$ H7
  icases H7 with ⟨H7l, H7r⟩
  isplitl [H6l]; · iapply h0; iexact H6l
  isplitl [H7l]; · iapply h1; iexact H7l
  isplitl [H6r]; · iapply h2; iexact H6r
  isplitl [H7r]; · iapply h3; iexact H7r
  isplitl [H8]; · iapply h4; iexact H8
  isplitl [H9]; · iapply h5; iexact H9
  isplitl [Ha]; · iapply h6; iexact Ha
  isplitl [Hb]; · iapply h7; iexact Hb
  iapply h8; iexact Hc

end Cert.Kernel.Region

end
-- ==== Proof.K.Tail.lean ====
/-
  The three reshapes after the region.

  When the region is left the three result arrays hold what the write-backs made them and every other buffer what
  the region found. The program then flattens each [65536, 1, 256] result to [65536, 256] into a buffer of its own.
  The three reshapes read the three results and write three fresh buffers; they touch nothing else. So they run
  holding exactly those six buffers, leave the three results as they were, and every buffer other than the three
  they write keeps the contents it had at the region's entry.
-/
import proofs.«411737_j76020921140302_2_alg».proof.Proof.K.Arrays
import proofs.«411737_j76020921140302_2_alg».proof.Proof.K.Exit

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is left -/

/-- The first result array holds what the write-backs made it. -/
theorem Wx_v10_0 (hO : Ok m) (c : Dev nD) : Wx m hO c (Proc.devRef .tc main_v10_0) = resH m hO c := by
  unfold Wx
  rw [Function.update_of_ne (StableHlo.devRef_ne_of_ne (by decide)), Function.update_of_ne (StableHlo.devRef_ne_of_ne (by decide)),
    Function.update_self]
/-- The second result array holds what the write-backs made it. -/
theorem Wx_v10_1 (hO : Ok m) (c : Dev nD) : Wx m hO c (Proc.devRef .tc main_v10_1) = resR m hO c := by
  unfold Wx
  rw [Function.update_of_ne (StableHlo.devRef_ne_of_ne (by decide)), Function.update_self]
/-- The third result array holds what the write-backs made it. -/
theorem Wx_v10_2 (hO : Ok m) (c : Dev nD) : Wx m hO c (Proc.devRef .tc main_v10_2) = resT m hO c := by
  unfold Wx
  rw [Function.update_self]
/-- Every other buffer holds what the region found. -/
theorem Wx_of_ne (hO : Ok m) (c : Dev nD) (b : Ref sig .tc) (h0 : b ≠ main_v10_0) (h1 : b ≠ main_v10_1) (h2 : b ≠ main_v10_2) :
    Wx m hO c (Proc.devRef .tc b) = V m c b := by
  unfold Wx
  rw [Function.update_of_ne (StableHlo.devRef_ne_of_ne h2), Function.update_of_ne (StableHlo.devRef_ne_of_ne h1),
    Function.update_of_ne (StableHlo.devRef_ne_of_ne h0)]

/-! ## The buffers after the three reshapes -/

/-- A buffer none of the three reshapes writes keeps what it held when the region was left. -/
theorem Vfin_of_ne (hO : Ok m) (c : Dev nD) (b : Ref sig .tc) (h11 : b ≠ main_v11) (h12 : b ≠ main_v12) (h13 : b ≠ main_v13) :
    Vfin m hO c b = Wx m hO c (Proc.devRef .tc b) := by
  unfold Vfin
  simp only [StableHlo.after_cons, StableHlo.after_nil]
  rw [StableHlo.reshape_result_ne _ _ _ _ _ _ _ h13, StableHlo.reshape_result_ne _ _ _ _ _ _ _ h12,
    StableHlo.reshape_result_ne _ _ _ _ _ _ _ h11]

/-- The buffers the reshapes leave alone, one by one: each holds after the reshapes what the region found. -/
theorem Vfin_keep_arg0 (hO : Ok m) (c : Dev nD) : Vfin m hO c main_arg0 = V m c main_arg0 :=
  (Vfin_of_ne m hO c _ (by decide) (by decide) (by decide)).trans (Wx_of_ne m hO c _ (by decide) (by decide) (by decide))
theorem Vfin_keep_arg1 (hO : Ok m) (c : Dev nD) : Vfin m hO c main_arg1 = V m c main_arg1 :=
  (Vfin_of_ne m hO c _ (by decide) (by decide) (by decide)).trans (Wx_of_ne m hO c _ (by decide) (by decide) (by decide))
theorem Vfin_keep_arg2 (hO : Ok m) (c : Dev nD) : Vfin m hO c main_arg2 = V m c main_arg2 :=
  (Vfin_of_ne m hO c _ (by decide) (by decide) (by decide)).trans (Wx_of_ne m hO c _ (by decide) (by decide) (by decide))
theorem Vfin_keep_arg3 (hO : Ok m) (c : Dev nD) : Vfin m hO c main_arg3 = V m c main_arg3 :=
  (Vfin_of_ne m hO c _ (by decide) (by decide) (by decide)).trans (Wx_of_ne m hO c _ (by decide) (by decide) (by decide))
theorem Vfin_keep_arg4 (hO : Ok m) (c : Dev nD) : Vfin m hO c main_arg4 = V m c main_arg4 :=
  (Vfin_of_ne m hO c _ (by decide) (by decide) (by decide)).trans (Wx_of_ne m hO c _ (by decide) (by decide) (by decide))
theorem Vfin_keep_v0 (hO : Ok m) (c : Dev nD) : Vfin m hO c main_v0 = V m c main_v0 :=
  (Vfin_of_ne m hO c _ (by decide) (by decide) (by decide)).trans (Wx_of_ne m hO c _ (by decide) (by decide) (by decide))
theorem Vfin_keep_v2 (hO : Ok m) (c : Dev nD) : Vfin m hO c main_v2 = V m c main_v2 :=
  (Vfin_of_ne m hO c _ (by decide) (by decide) (by decide)).trans (Wx_of_ne m hO c _ (by decide) (by decide) (by decide))
theorem Vfin_keep_v4 (hO : Ok m) (c : Dev nD) : Vfin m hO c main_v4 = V m c main_v4 :=
  (Vfin_of_ne m hO c _ (by decide) (by decide) (by decide)).trans (Wx_of_ne m hO c _ (by decide) (by decide) (by decide))

/-- The three result arrays after the reshapes are as the write-backs made them. -/
theorem after_v10_0 (hO : Ok m) (c : Dev nD) :
    StableHlo.after hostOps1 (Wx m hO c) (Proc.devRef .tc main_v10_0) = (dats m hO 0 c).arrAt (6 : Fin 9) (cfgM m hO).N :=
  (Vfin_of_ne m hO c main_v10_0 (by decide) (by decide) (by decide)).trans (Wx_v10_0 m hO c)
theorem after_v10_1 (hO : Ok m) (c : Dev nD) :
    StableHlo.after hostOps1 (Wx m hO c) (Proc.devRef .tc main_v10_1) = (dats m hO 0 c).arrAt (7 : Fin 9) (cfgM m hO).N :=
  (Vfin_of_ne m hO c main_v10_1 (by decide) (by decide) (by decide)).trans (Wx_v10_1 m hO c)
theorem after_v10_2 (hO : Ok m) (c : Dev nD) :
    StableHlo.after hostOps1 (Wx m hO c) (Proc.devRef .tc main_v10_2) = (dats m hO 0 c).arrAt (8 : Fin 9) (cfgM m hO).N :=
  (Vfin_of_ne m hO c main_v10_2 (by decide) (by decide) (by decide)).trans (Wx_v10_2 m hO c)

/-! ## The six buffers the reshapes run within -/

/-- The three results and the three buffers the reshapes write. -/
def tailRefs6 : List (Ref sig .tc) := [main_v10_0, main_v10_1, main_v10_2, main_v11, main_v12, main_v13]
def tailSet6 : Finset (DevRef τ sig) := (tailRefs6.map (Proc.devRef (τ := τ) .tc)).toFinset

/-- The six buffers held whole at contents W, one by one. -/
theorem held_six (c : Dev nD) (W : Valuation τ sig (Elt F)) :
    (StableHlo.held (c.tc : Thread nD τ) tailSet6 W : sProp 𝕄)
      = iprop((((c.tc : Thread nD τ).loc main_v10_0) ↦{fullShare} W (Proc.devRef .tc main_v10_0))
          ∗ (((c.tc : Thread nD τ).loc main_v10_1) ↦{fullShare} W (Proc.devRef .tc main_v10_1))
          ∗ (((c.tc : Thread nD τ).loc main_v10_2) ↦{fullShare} W (Proc.devRef .tc main_v10_2))
          ∗ (((c.tc : Thread nD τ).loc main_v11) ↦{fullShare} W (Proc.devRef .tc main_v11))
          ∗ (((c.tc : Thread nD τ).loc main_v12) ↦{fullShare} W (Proc.devRef .tc main_v12))
          ∗ (((c.tc : Thread nD τ).loc main_v13) ↦{fullShare} W (Proc.devRef .tc main_v13))) := by
  unfold StableHlo.held
  exact bigSep_eq_bigSepL_of_eq (tailRefs6.map (Proc.devRef (τ := τ) .tc)) rfl
    (List.Nodup.map (Proc.devRef_injective _) (by decide)) _

/-- Each reshape touches only those six. -/
theorem hostOps1_within : ∀ op ∈ (hostOps1 : List (HloOp τ sig (Elt F))), op.bufs ⊆ tailSet6 := by
  intro op hop
  simp only [hostOps1, List.mem_cons, List.not_mem_nil, or_false] at hop
  rcases hop with rfl | rfl | rfl <;> rw [StableHlo.reshape_bufs] <;> decide

theorem hostOps1_fresh : ∀ op ∈ (hostOps1 : List (HloOp τ sig (Elt F))), op.fresh = ∅ := by
  intro op hop
  simp only [hostOps1, List.mem_cons, List.not_mem_nil, or_false] at hop
  rcases hop with rfl | rfl | rfl <;> rfl

/-! ## One buffer's contents rewritten -/

/-- A whole buffer at contents v is the same buffer at any contents equal to v. -/
theorem pt_congr {ℓ : Loc nD τ sig} {q : PosShare TreeShare} {v v' : Buf (Elt F) ℓ} (h : v = v') :
    ((ℓ ↦{q} v : sProp 𝕄)) ⊢ (ℓ ↦{q} v' : sProp 𝕄) := Entails.of_eq (by rw [h])

/-- The first result array as the proof data holds it is that buffer whole at the region's exit contents. -/
theorem pt_in6 (hO : Ok m) (c : Dev nD) :
    ((((c.tc : Thread nD τ).loc (Pipeline.arrRef (cfg0 (adm m hO)).spec (6 : Fin 9))) ↦{(dats m hO 0 c).share (6 : Fin 9)}
        (dats m hO 0 c).arrAt (6 : Fin 9) (cfgM m hO).N) : sProp 𝕄)
      = (((c.tc : Thread nD τ).loc main_v10_0) ↦{fullShare} Wx m hO c (Proc.devRef .tc main_v10_0)) := by
  rw [(share_vals m hO c).2.2.2.2.2.2.1, Wx_v10_0]; rfl
theorem pt_in7 (hO : Ok m) (c : Dev nD) :
    ((((c.tc : Thread nD τ).loc (Pipeline.arrRef (cfg0 (adm m hO)).spec (7 : Fin 9))) ↦{(dats m hO 0 c).share (7 : Fin 9)}
        (dats m hO 0 c).arrAt (7 : Fin 9) (cfgM m hO).N) : sProp 𝕄)
      = (((c.tc : Thread nD τ).loc main_v10_1) ↦{fullShare} Wx m hO c (Proc.devRef .tc main_v10_1)) := by
  rw [(share_vals m hO c).2.2.2.2.2.2.2.1, Wx_v10_1]; rfl
theorem pt_in8 (hO : Ok m) (c : Dev nD) :
    ((((c.tc : Thread nD τ).loc (Pipeline.arrRef (cfg0 (adm m hO)).spec (8 : Fin 9))) ↦{(dats m hO 0 c).share (8 : Fin 9)}
        (dats m hO 0 c).arrAt (8 : Fin 9) (cfgM m hO).N) : sProp 𝕄)
      = (((c.tc : Thread nD τ).loc main_v10_2) ↦{fullShare} Wx m hO c (Proc.devRef .tc main_v10_2)) := by
  rw [(share_vals m hO c).2.2.2.2.2.2.2.2, Wx_v10_2]; rfl
/-- The same buffers after the reshapes, which leave them alone. -/
theorem pt_out6 (hO : Ok m) (c : Dev nD) :
    ((((c.tc : Thread nD τ).loc main_v10_0) ↦{fullShare} StableHlo.after hostOps1 (Wx m hO c) (Proc.devRef .tc main_v10_0)) : sProp 𝕄)
      = (((c.tc : Thread nD τ).loc (Pipeline.arrRef (cfg0 (adm m hO)).spec (6 : Fin 9))) ↦{(dats m hO 0 c).share (6 : Fin 9)}
        (dats m hO 0 c).arrAt (6 : Fin 9) (cfgM m hO).N) := by
  rw [(share_vals m hO c).2.2.2.2.2.2.1, after_v10_0]
theorem pt_out7 (hO : Ok m) (c : Dev nD) :
    ((((c.tc : Thread nD τ).loc main_v10_1) ↦{fullShare} StableHlo.after hostOps1 (Wx m hO c) (Proc.devRef .tc main_v10_1)) : sProp 𝕄)
      = (((c.tc : Thread nD τ).loc (Pipeline.arrRef (cfg0 (adm m hO)).spec (7 : Fin 9))) ↦{(dats m hO 0 c).share (7 : Fin 9)}
        (dats m hO 0 c).arrAt (7 : Fin 9) (cfgM m hO).N) := by
  rw [(share_vals m hO c).2.2.2.2.2.2.2.1, after_v10_1]
theorem pt_out8 (hO : Ok m) (c : Dev nD) :
    ((((c.tc : Thread nD τ).loc main_v10_2) ↦{fullShare} StableHlo.after hostOps1 (Wx m hO c) (Proc.devRef .tc main_v10_2)) : sProp 𝕄)
      = (((c.tc : Thread nD τ).loc (Pipeline.arrRef (cfg0 (adm m hO)).spec (8 : Fin 9))) ↦{(dats m hO 0 c).share (8 : Fin 9)}
        (dats m hO 0 c).arrAt (8 : Fin 9) (cfgM m hO).N) := by
  rw [(share_vals m hO c).2.2.2.2.2.2.2.2, after_v10_2]

/-! ## The run of the three reshapes -/

set_option backward.isDefEq.respectTransparency.types false in
/-- From the region's exit — the boundary, the nine windows' arrays after every write-back, the bypassing buffers as
    the region found them — the three reshapes run and hand back the arrays unchanged and the bypassing buffers at
    their contents after the reshapes. -/
theorem tail_run (hO : Ok m) (c : Dev nD) (Q' : PUnit → sProp 𝕄) :
    iprop((iprop((dats m hO 0 c).arrays (fun w => (dats m hO 0 c).arrAt w (cfgM m hO).N)
              ∗ Pipeline.unscopedRestP pre0 spec0 c (Vfin m hO c)) -∗ Q' ⟨⟩)
        ∗ boundary (c.tc : Thread nD τ)
        ∗ (dats m hO 0 c).arrays (fun w => (dats m hO 0 c).arrAt w (cfgM m hO).N)
        ∗ Pipeline.unscopedRestP pre0 spec0 c (V m c))
      ⊢ wp frame (wpE (defs (F := F)) (Variants.lift Variants.none) (c.tc : Thread nD τ) none) Set.univ
          (Pipeline.chain [StableHlo.seq hostOps1]) Q' := by
  rw [arrays_chain_at (adm m hO) c (dats m hO 0 c) _, unscopedRestP0_eq c (Vfin m hO c), unscopedRestP0_eq c (V m c)]
  simp only [Pipeline.chain_cons, Pipeline.chain_nil]
  iintro ⟨Hk, Hb, ⟨A0, A1, A2, A3, A4, A5, A6, A7, A8⟩, ⟨R0, R1, R2, R3, R4, R5, R6, R7, R8, R9, R10⟩⟩
  ihave A6 := (Entails.of_eq (pt_in6 m hO c)) $$ A6
  ihave A7 := (Entails.of_eq (pt_in7 m hO c)) $$ A7
  ihave A8 := (Entails.of_eq (pt_in8 m hO c)) $$ A8
  ihave R8 := (pt_congr (Wx_of_ne m hO c main_v11 (by decide) (by decide) (by decide)).symm) $$ R8
  ihave R9 := (pt_congr (Wx_of_ne m hO c main_v12 (by decide) (by decide) (by decide)).symm) $$ R9
  ihave R10 := (pt_congr (Wx_of_ne m hO c main_v13 (by decide) (by decide) (by decide)).symm) $$ R10
  iapply (StableHlo.wp_seq (Variants.lift Variants.none) none Set.univ c tailSet6 _ hostOps1 hostOps1_within hostOps1_fresh (Wx m hO c)) $$ [Hb A6 A7 A8 R8 R9 R10]
  · rw [held_six]
    isplitl [Hb]; · iexact Hb
    isplitl [A6]; · iexact A6
    isplitl [A7]; · iexact A7
    isplitl [A8]; · iexact A8
    isplitl [R8]; · iexact R8
    isplitl [R9]; · iexact R9
    iexact R10
  iintro Hb
  icases Hb with ⟨-, H⟩
  ihave H := (Entails.of_eq (held_six (F := F) c (StableHlo.after hostOps1 (Wx m hO c)))) $$ H
  icases H with ⟨A6, A7, A8, R8, R9, R10⟩
  rw [wp_pure]
  imodintro
  ihave A6 := (Entails.of_eq (pt_out6 m hO c)) $$ A6
  ihave A7 := (Entails.of_eq (pt_out7 m hO c)) $$ A7
  ihave A8 := (Entails.of_eq (pt_out8 m hO c)) $$ A8
  ihave R0 := (pt_congr (Vfin_keep_arg0 m hO c).symm) $$ R0
  ihave R1 := (pt_congr (Vfin_keep_arg1 m hO c).symm) $$ R1
  ihave R2 := (pt_congr (Vfin_keep_arg2 m hO c).symm) $$ R2
  ihave R3 := (pt_congr (Vfin_keep_arg3 m hO c).symm) $$ R3
  ihave R4 := (pt_congr (Vfin_keep_arg4 m hO c).symm) $$ R4
  ihave R5 := (pt_congr (Vfin_keep_v0 m hO c).symm) $$ R5
  ihave R6 := (pt_congr (Vfin_keep_v2 m hO c).symm) $$ R6
  ihave R7 := (pt_congr (Vfin_keep_v4 m hO c).symm) $$ R7
  ihave R8 := (pt_congr (show StableHlo.after hostOps1 (Wx m hO c) (Proc.devRef .tc main_v11) = Vfin m hO c main_v11 from rfl)) $$ R8
  ihave R9 := (pt_congr (show StableHlo.after hostOps1 (Wx m hO c) (Proc.devRef .tc main_v12) = Vfin m hO c main_v12 from rfl)) $$ R9
  ihave R10 := (pt_congr (show StableHlo.after hostOps1 (Wx m hO c) (Proc.devRef .tc main_v13) = Vfin m hO c main_v13 from rfl)) $$ R10
  iapply Hk
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10

end Cert.Kernel.Region

end
-- ==== Proof.K.Tables.lean ====
/-
  The three index columns the region reads, and its index maps, in closed form.

  Before the region the program cuts column k (k = 0, 1, 2) out of the [65536, 3] triplets and flattens it to a
  [65536] table; table 0 holds the heads h, table 1 the relations r, table 2 the tails t:  table_k[i] = trip[i, k].
  At point i the six input windows' index maps read the word w = table[i] of their table (windows 0, 1: heads;
  2, 3: tails; 4, 5: relations) and name the block (w, 0, 0), w read unsigned. A window's block (w, 0, 0) of
  sizes (1, 1, 256) lies inside its [N, 1, 256] array exactly when w + 1 ≤ N, which a word in [0, N) signed
  satisfies: the pipeline's side condition follows from the index ranges.
-/
import proofs.«411737_j76020921140302_2_alg».proof.Proof.K.Data
import proofs.«411737_j76020921140302_2_alg».proof.Proof.Spec
import Idealize.ShloMosaic.Lib.Pipeline.Value
import Idealize.ShloMosaic.Lib.ValueIdx
import Idealize.ShloMosaic.Lib.StableHlo.Run

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The tables read at an index -/

/-- Column c of a [65536, 3] array, cut out as a [65536, 1] slice and flattened, read at i, is the array at (i, c). -/
theorem col_apply {α : Type} (x : S65536x3.Idx → α) (c : Fin 3) (off : Fin 2 → Nat) (hoff0 : off 0 = 0) (hoff1 : off 1 = c.val)
    (hs : S65536x3.Slices off S65536x1) (hc : S65536x1.ShapeCasts S65536) (i : Fin 65536) :
    shapeCast S65536 (extractStridedSlice S65536x1 off x hs) hc (ix1 i) = x (ix2 i c) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply off x hs (ix2 i (0 : Fin 1)) (ix2 i c) (fun a => match a with
      | ⟨0, _⟩ => by show i.val = off 0 + i.val; rw [hoff0]; omega
      | ⟨1, _⟩ => by show c.val = off 1 + 0; rw [hoff1]; omega)

/-- Table 0 is column 0 of the triplets, flattened. -/
theorem tbl0_eq : (tbl m 0 : S65536.Idx → BitVec 32)
    = shapeCast S65536 (extractStridedSlice S65536x1 ![0, 0] (m (((0 : Dev nD) : Thread nD τ).loc main_arg0) : S65536x3.Idx → BitVec 32) slices_S65536x3_S65536x1_0_0) shapeCasts_S65536x1_S65536 := by
  show StableHlo.after hostOps0 (fun b => m (0, b)) (Proc.devRef .tc main_v1) = _
  after_results
  rfl

/-- Table 1 is column 1 of the triplets, flattened. -/
theorem tbl1_eq : (tbl m 1 : S65536.Idx → BitVec 32)
    = shapeCast S65536 (extractStridedSlice S65536x1 ![0, 1] (m (((0 : Dev nD) : Thread nD τ).loc main_arg0) : S65536x3.Idx → BitVec 32) slices_S65536x3_S65536x1_0_1) shapeCasts_S65536x1_S65536 := by
  show StableHlo.after hostOps0 (fun b => m (0, b)) (Proc.devRef .tc main_v3) = _
  after_results
  rfl

/-- Table 2 is column 2 of the triplets, flattened. -/
theorem tbl2_eq : (tbl m 2 : S65536.Idx → BitVec 32)
    = shapeCast S65536 (extractStridedSlice S65536x1 ![0, 2] (m (((0 : Dev nD) : Thread nD τ).loc main_arg0) : S65536x3.Idx → BitVec 32) slices_S65536x3_S65536x1_0_2) shapeCasts_S65536x1_S65536 := by
  show StableHlo.after hostOps0 (fun b => m (0, b)) (Proc.devRef .tc main_v5) = _
  after_results
  rfl

/-- table_0[i] = trip[i, 0]. -/
theorem tbl0_apply (i : Fin 65536) : (tbl m 0 : S65536.Idx → BitVec 32) (ix1 i)
    = (m (((0 : Dev nD) : Thread nD τ).loc main_arg0) : S65536x3.Idx → BitVec 32) (ix2 i 0) := by
  rw [tbl0_eq]
  exact col_apply _ 0 _ rfl rfl _ _ i

/-- table_1[i] = trip[i, 1]. -/
theorem tbl1_apply (i : Fin 65536) : (tbl m 1 : S65536.Idx → BitVec 32) (ix1 i)
    = (m (((0 : Dev nD) : Thread nD τ).loc main_arg0) : S65536x3.Idx → BitVec 32) (ix2 i 1) := by
  rw [tbl1_eq]
  exact col_apply _ 1 _ rfl rfl _ _ i

/-- table_2[i] = trip[i, 2]. -/
theorem tbl2_apply (i : Fin 65536) : (tbl m 2 : S65536.Idx → BitVec 32) (ix1 i)
    = (m (((0 : Dev nD) : Thread nD τ).loc main_arg0) : S65536x3.Idx → BitVec 32) (ix2 i 2) := by
  rw [tbl2_eq]
  exact col_apply _ 2 _ rfl rfl _ _ i

/-! ## The index maps in closed form -/

/-- The unit rectangle at offset n of a [65536] table has the one index n. -/
theorem unit_first (off : Fin 1 → Nat) (j : Fin 65536) (hoff : off 0 = j.val) (inb : ∀ a, off a + S1.size a ≤ S65536.size a)
    (h1 : 0 < (Rect.unit (s := S65536) off S1.size inb).shape.numel) :
    (Rect.unit (s := S65536) off S1.size inb).emb (Shape.Idx.first h1) = ix1 j := by
  funext a
  apply Fin.ext
  match a with
  | ⟨0, _⟩ =>
    show off 0 + 1 * 0 = j.val
    omega

/-- A grid coordinate, written as a 32-bit word and read back unsigned, is itself. -/
theorem coord_word (i : grid0.Coords) : (Scalar.indexCast (BitVec.ofNat 32 (i 0).val)).toNat = ((i 0 : Fin 65536)).val := by
  show (BitVec.ofNat 32 (i 0).val).toNat = _
  rw [BitVec.toNat_ofNat]
  have h : (i 0).val < 65536 := (i 0).isLt
  exact Nat.mod_eq_of_lt (by omega)

/-- Windows 0 and 1 fetch block (h[i], 0, 0). -/
theorem transform0_eq (pf : pre0.Contents (Elt F)) (i : grid0.Coords) :
    cc0_transform_0 Facts₀.k0_off1_inb Facts₀.numel1_S1 pf i = ![((pf 0 : S65536.Idx → BitVec 32) (ix1 (i 0 : Fin 65536))).toNat, 0, 0] :=
  congrArg (fun w : BitVec 32 => (![w.toNat, 0, 0] : Fin 3 → Nat))
    (congrArg (pf 0 : S65536.Idx → BitVec 32) (unit_first _ (i 0 : Fin 65536) (coord_word i) _ _))
theorem transform1_eq (pf : pre0.Contents (Elt F)) (i : grid0.Coords) :
    cc0_transform_1 Facts₀.k0_off1_inb Facts₀.numel1_S1 pf i = ![((pf 0 : S65536.Idx → BitVec 32) (ix1 (i 0 : Fin 65536))).toNat, 0, 0] :=
  congrArg (fun w : BitVec 32 => (![w.toNat, 0, 0] : Fin 3 → Nat))
    (congrArg (pf 0 : S65536.Idx → BitVec 32) (unit_first _ (i 0 : Fin 65536) (coord_word i) _ _))
/-- Windows 2 and 3 fetch block (t[i], 0, 0). -/
theorem transform2_eq (pf : pre0.Contents (Elt F)) (i : grid0.Coords) :
    cc0_transform_2 Facts₀.k0_off1_inb Facts₀.numel1_S1 pf i = ![((pf 2 : S65536.Idx → BitVec 32) (ix1 (i 0 : Fin 65536))).toNat, 0, 0] :=
  congrArg (fun w : BitVec 32 => (![w.toNat, 0, 0] : Fin 3 → Nat))
    (congrArg (pf 2 : S65536.Idx → BitVec 32) (unit_first _ (i 0 : Fin 65536) (coord_word i) _ _))
theorem transform3_eq (pf : pre0.Contents (Elt F)) (i : grid0.Coords) :
    cc0_transform_3 Facts₀.k0_off1_inb Facts₀.numel1_S1 pf i = ![((pf 2 : S65536.Idx → BitVec 32) (ix1 (i 0 : Fin 65536))).toNat, 0, 0] :=
  congrArg (fun w : BitVec 32 => (![w.toNat, 0, 0] : Fin 3 → Nat))
    (congrArg (pf 2 : S65536.Idx → BitVec 32) (unit_first _ (i 0 : Fin 65536) (coord_word i) _ _))
/-- Windows 4 and 5 fetch block (r[i], 0, 0). -/
theorem transform4_eq (pf : pre0.Contents (Elt F)) (i : grid0.Coords) :
    cc0_transform_4 Facts₀.k0_off1_inb Facts₀.numel1_S1 pf i = ![((pf 1 : S65536.Idx → BitVec 32) (ix1 (i 0 : Fin 65536))).toNat, 0, 0] :=
  congrArg (fun w : BitVec 32 => (![w.toNat, 0, 0] : Fin 3 → Nat))
    (congrArg (pf 1 : S65536.Idx → BitVec 32) (unit_first _ (i 0 : Fin 65536) (coord_word i) _ _))
theorem transform5_eq (pf : pre0.Contents (Elt F)) (i : grid0.Coords) :
    cc0_transform_5 Facts₀.k0_off1_inb Facts₀.numel1_S1 pf i = ![((pf 1 : S65536.Idx → BitVec 32) (ix1 (i 0 : Fin 65536))).toNat, 0, 0] :=
  congrArg (fun w : BitVec 32 => (![w.toNat, 0, 0] : Fin 3 → Nat))
    (congrArg (pf 1 : S65536.Idx → BitVec 32) (unit_first _ (i 0 : Fin 65536) (coord_word i) _ _))

/-! ## The pipeline's side condition from the index ranges -/

/-- Block (w, 0, 0) of sizes (1, 1, 256) lies inside an [N, 1, 256] array when w < N. -/
theorem block_inb {T : Fin 3 → Nat} {w : BitVec 32} {N : Nat} (e : T = ![w.toNat, 0, 0]) (hw : w.toNat < N) :
    ∀ a, (T a + 1) * S1x1x256.size a ≤ (⟨3, ![N, 1, 256]⟩ : Shape).size a := by
  subst e
  intro a
  match a with
  | ⟨0, _⟩ => show (w.toNat + 1) * 1 ≤ N; omega
  | ⟨1, _⟩ => show (0 + 1) * 1 ≤ 1; omega
  | ⟨2, _⟩ => show (0 + 1) * 256 ≤ 256; omega

/-- The side condition at any table contents whose words are below the tables' row counts. -/
theorem ok0_of_lt (pf : pre0.Contents (Elt F))
    (h0 : ∀ i : grid0.Coords, ((pf 0 : S65536.Idx → BitVec 32) (ix1 (i 0 : Fin 65536))).toNat < 500001)
    (h1 : ∀ i : grid0.Coords, ((pf 1 : S65536.Idx → BitVec 32) (ix1 (i 0 : Fin 65536))).toNat < 1001)
    (h2 : ∀ i : grid0.Coords, ((pf 2 : S65536.Idx → BitVec 32) (ix1 (i 0 : Fin 65536))).toNat < 500001) : ok0 pf := by
  unfold ok0
  exact ⟨fun i => ⟨block_inb (transform0_eq pf i) (h0 i), Or.inl rfl⟩,
    fun i => ⟨block_inb (transform1_eq pf i) (h0 i), Or.inl rfl⟩,
    fun i => ⟨block_inb (transform2_eq pf i) (h2 i), Or.inl rfl⟩,
    fun i => ⟨block_inb (transform3_eq pf i) (h2 i), Or.inl rfl⟩,
    fun i => ⟨block_inb (transform4_eq pf i) (h1 i), Or.inl rfl⟩,
    fun i => ⟨block_inb (transform5_eq pf i) (h1 i), Or.inl rfl⟩⟩

/-- Triplet words in range make every fetched block a block of its table. -/
theorem ok_of_inRange (h : Cert.Spec.InRange (m (((0 : Dev nD) : Thread nD τ).loc main_arg0))) : Ok m :=
  ok0_of_lt (tbl m)
    (fun i => (congrArg BitVec.toNat (tbl0_apply m (i 0 : Fin 65536))).trans_lt
      (Cert.Spec.toNat_of_toInt (by decide) (h (i 0 : Fin 65536)).1.1 (h (i 0 : Fin 65536)).1.2).1)
    (fun i => (congrArg BitVec.toNat (tbl1_apply m (i 0 : Fin 65536))).trans_lt
      (Cert.Spec.toNat_of_toInt (by decide) (h (i 0 : Fin 65536)).2.1.1 (h (i 0 : Fin 65536)).2.1.2).1)
    (fun i => (congrArg BitVec.toNat (tbl2_apply m (i 0 : Fin 65536))).trans_lt
      (Cert.Spec.toNat_of_toInt (by decide) (h (i 0 : Fin 65536)).2.2.1 (h (i 0 : Fin 65536)).2.2.2).1)

end Cert.Kernel.Region

end
-- ==== Proof.K.Value.lean ====
/-
  What the kernel leaves in its three results, index by index, over the extended reals.

  At point i the six input windows hold row h[i] of the entity embeddings E and maps M, row t[i] of both, and row r[i]
  of the relation embeddings R and maps P (each table viewed as rows of 1×256 blocks); the body forms, lane by lane,
  E[h] + P[r] · Σ_k M[h, k] · E[h, k], the row R[r], and E[t] + P[r] · Σ_k M[t, k] · E[t, k], and block i of each
  result receives one of them. The blocks of a result tile it and every point writes its block back, so each result
  array is one function of the arguments; the reshape after the region drops the unit axis.
-/
import proofs.«411737_j76020921140302_2_alg».proof.Proof.K.Data
import proofs.«411737_j76020921140302_2_alg».proof.Proof.K.Exit
import proofs.«411737_j76020921140302_2_alg».proof.Proof.K.Tables
import proofs.«411737_j76020921140302_2_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.Kernel.Region

open Cert.Kernel Cert.Kernel.Gen
open Idealize.ShloMosaic Idealize.ShloMosaic.TcCoe
open Idealize.SL Idealize.SL.Sem
open Idealize.ShloMosaic.Pipeline (Dat Cfg Window)
open Idealize.ShloMosaic.ValueIdx

/-! ## The body's arithmetic, lane by lane -/

/-- The lane sum of a [1, 1, 256] vector from 0, at its one index. -/
theorem laneSum (v : FVec Ideal S1x1x256 .f32) (h : S1x1x256.Reduces [2] S1x1) (hφ : FKind.Formats .f32)
    (hacc : (0x00000000#32 : BitVec 32) = 0x00000000#32) (j : S1x1.Idx) :
    multiReduction (F := Ideal) .add [2] S1x1 v 0x00000000#32 h hφ hacc j = ∑ k : Fin 256, v (ix3 0 0 k) := by
  refine (Ideal.multiReduction_add_single v 0x00000000#32 h hφ hacc j).trans ?_
  refine Finset.sum_congr rfl fun k _ => congrArg v (funext fun a => Fin.ext ?_)
  match a with
  | ⟨0, _⟩ => exact Nat.lt_one_iff.mp (h.lift j k 0).isLt
  | ⟨1, _⟩ => exact Nat.lt_one_iff.mp (h.lift j k 1).isLt
  | ⟨2, _⟩ => rfl

/-- The body's first result at lane d: x0 + x10 · Σ_k x2[k] · x0[k]. -/
theorem pay3_apply (x0 x2 x10 : Vec Ideal S1x1x256 .f32) (d : Fin 256) :
    (k0_pay3 (F := Ideal) x0 x2 x10 : S1x1x256.Idx → EReal) (ix3 0 0 d)
      = (x0 (ix3 0 0 d) : EReal) + (x10 (ix3 0 0 d) : EReal) * ∑ k : Fin 256, (x2 (ix3 0 0 k) : EReal) * (x0 (ix3 0 0 k) : EReal) := by
  unfold k0_pay3 k0_pay2
  dsimp only
  rw [shapeCast_self, shapeCast_self, shapeCast_self]
  show (x0 (ix3 0 0 d) : EReal) + (x10 (ix3 0 0 d) : EReal) * (broadcastTo S1x1x256 _ _ (ix3 0 0 d)) = _
  congr 2
  refine (broadcastTo_apply _ _ (ix3 0 0 d) (ix3 0 0 0) ?_).trans ?_
  · intro a
    match a with
    | ⟨0, _⟩ => rfl
    | ⟨1, _⟩ => rfl
    | ⟨2, _⟩ => rfl
  refine (shapeCast_apply _ _ (ix3 0 0 0) (ix2 0 0) ?_).trans ?_
  · rfl
  exact laneSum _ _ _ _ _

/-- The body's third result at lane d: x4 + x10 · Σ_k x6[k] · x4[k]. -/
theorem pay4_apply (x4 x6 x10 : Vec Ideal S1x1x256 .f32) (d : Fin 256) :
    (k0_pay4 (F := Ideal) x4 x6 x10 : S1x1x256.Idx → EReal) (ix3 0 0 d)
      = (x4 (ix3 0 0 d) : EReal) + (x10 (ix3 0 0 d) : EReal) * ∑ k : Fin 256, (x6 (ix3 0 0 k) : EReal) * (x4 (ix3 0 0 k) : EReal) := by
  unfold k0_pay4 k0_pay2
  dsimp only
  rw [shapeCast_self, shapeCast_self, shapeCast_self]
  show (x4 (ix3 0 0 d) : EReal) + (x10 (ix3 0 0 d) : EReal) * (broadcastTo S1x1x256 _ _ (ix3 0 0 d)) = _
  congr 2
  refine (broadcastTo_apply _ _ (ix3 0 0 d) (ix3 0 0 0) ?_).trans ?_
  · intro a
    match a with
    | ⟨0, _⟩ => rfl
    | ⟨1, _⟩ => rfl
    | ⟨2, _⟩ => rfl
  refine (shapeCast_apply _ _ (ix3 0 0 0) (ix2 0 0) ?_).trans ?_
  · rfl
  exact laneSum _ _ _ _ _

/-- The body's second result is the block it loaded (generic in the float instance). -/
theorem pay1_eq {F : FTy → Type} [FloatOps F] (x8 : Vec F S1x1x256 .f32) : k0_pay1 (F := F) x8 = x8 := by
  unfold k0_pay1
  dsimp only
  rw [shapeCast_self]

variable {F : FTy → Type} [FloatOps F]

/-! ## The grid and the input windows' blocks -/

/-- The grid's one coordinate at point t is t. -/
theorem coords_val (t : Fin grid0.N) : (grid0.coords t (0 : Fin 1)).val = t.val := by
  have hN : grid0.N = 65536 := N_0
  have hs : grid0.stride (0 : Fin 1) = 1 := by decide
  have ht := t.isLt
  show t.val / grid0.stride (0 : Fin 1) % 65536 = t.val
  rw [hs]
  omega

/-! An input window's block at a point whose index map names row r, read off an array, at lane k: the array at
    (r, 0, k). One statement per window, at any admissible contents of the index columns. -/

theorem blk0_read (a : (pcfg0 (F := F)).Adm) (t : Fin (cfg0 a).N) (A : S500001x1x256.Idx → Elt F .f32) (r : Fin 500001)
    (hr : cc0_transform_0 Facts₀.k0_off1_inb Facts₀.numel1_S1 a.1 (grid0.coords t) = ![r.val, 0, 0]) (k : Fin 256) :
    ((((cfg0 a).win 0).blk t).view.read (Elt F) A : S1x1x256.Idx → Elt F .f32) (ix3 0 0 k) = A (ix3 r 0 k) := by
  show A ((((cfg0 a).win 0).blk t).view.emb (ix3 0 0 k)) = A _
  congr 1
  funext b
  apply Fin.ext
  match b with
  | ⟨0, _⟩ =>
    show cc0_transform_0 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_0 Facts₀.k0_off1_inb Facts₀.numel1_S1 a.1 (grid0.coords t) (1 : Fin 3) * 1 + 1 * 0 = 0
    rw [hr]; rfl
  | ⟨2, _⟩ =>
    show cc0_transform_0 Facts₀.k0_off1_inb Facts₀.numel1_S1 a.1 (grid0.coords t) (2 : Fin 3) * 256 + 1 * k.val = k.val
    rw [hr]; show 0 * 256 + 1 * k.val = k.val; omega

theorem blk1_read (a : (pcfg0 (F := F)).Adm) (t : Fin (cfg0 a).N) (A : S500001x1x256.Idx → Elt F .f32) (r : Fin 500001)
    (hr : cc0_transform_1 Facts₀.k0_off1_inb Facts₀.numel1_S1 a.1 (grid0.coords t) = ![r.val, 0, 0]) (k : Fin 256) :
    ((((cfg0 a).win 1).blk t).view.read (Elt F) A : S1x1x256.Idx → Elt F .f32) (ix3 0 0 k) = A (ix3 r 0 k) := by
  show A ((((cfg0 a).win 1).blk t).view.emb (ix3 0 0 k)) = A _
  congr 1
  funext b
  apply Fin.ext
  match b with
  | ⟨0, _⟩ =>
    show cc0_transform_1 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_1 Facts₀.k0_off1_inb Facts₀.numel1_S1 a.1 (grid0.coords t) (1 : Fin 3) * 1 + 1 * 0 = 0
    rw [hr]; rfl
  | ⟨2, _⟩ =>
    show cc0_transform_1 Facts₀.k0_off1_inb Facts₀.numel1_S1 a.1 (grid0.coords t) (2 : Fin 3) * 256 + 1 * k.val = k.val
    rw [hr]; show 0 * 256 + 1 * k.val = k.val; omega

theorem blk2_read (a : (pcfg0 (F := F)).Adm) (t : Fin (cfg0 a).N) (A : S500001x1x256.Idx → Elt F .f32) (r : Fin 500001)
    (hr : cc0_transform_2 Facts₀.k0_off1_inb Facts₀.numel1_S1 a.1 (grid0.coords t) = ![r.val, 0, 0]) (k : Fin 256) :
    ((((cfg0 a).win 2).blk t).view.read (Elt F) A : S1x1x256.Idx → Elt F .f32) (ix3 0 0 k) = A (ix3 r 0 k) := by
  show A ((((cfg0 a).win 2).blk t).view.emb (ix3 0 0 k)) = A _
  congr 1
  funext b
  apply Fin.ext
  match b with
  | ⟨0, _⟩ =>
    show cc0_transform_2 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_2 Facts₀.k0_off1_inb Facts₀.numel1_S1 a.1 (grid0.coords t) (1 : Fin 3) * 1 + 1 * 0 = 0
    rw [hr]; rfl
  | ⟨2, _⟩ =>
    show cc0_transform_2 Facts₀.k0_off1_inb Facts₀.numel1_S1 a.1 (grid0.coords t) (2 : Fin 3) * 256 + 1 * k.val = k.val
    rw [hr]; show 0 * 256 + 1 * k.val = k.val; omega

theorem blk3_read (a : (pcfg0 (F := F)).Adm) (t : Fin (cfg0 a).N) (A : S500001x1x256.Idx → Elt F .f32) (r : Fin 500001)
    (hr : cc0_transform_3 Facts₀.k0_off1_inb Facts₀.numel1_S1 a.1 (grid0.coords t) = ![r.val, 0, 0]) (k : Fin 256) :
    ((((cfg0 a).win 3).blk t).view.read (Elt F) A : S1x1x256.Idx → Elt F .f32) (ix3 0 0 k) = A (ix3 r 0 k) := by
  show A ((((cfg0 a).win 3).blk t).view.emb (ix3 0 0 k)) = A _
  congr 1
  funext b
  apply Fin.ext
  match b with
  | ⟨0, _⟩ =>
    show cc0_transform_3 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_3 Facts₀.k0_off1_inb Facts₀.numel1_S1 a.1 (grid0.coords t) (1 : Fin 3) * 1 + 1 * 0 = 0
    rw [hr]; rfl
  | ⟨2, _⟩ =>
    show cc0_transform_3 Facts₀.k0_off1_inb Facts₀.numel1_S1 a.1 (grid0.coords t) (2 : Fin 3) * 256 + 1 * k.val = k.val
    rw [hr]; show 0 * 256 + 1 * k.val = k.val; omega

theorem blk4_read (a : (pcfg0 (F := F)).Adm) (t : Fin (cfg0 a).N) (A : S1001x1x256.Idx → Elt F .f32) (r : Fin 1001)
    (hr : cc0_transform_4 Facts₀.k0_off1_inb Facts₀.numel1_S1 a.1 (grid0.coords t) = ![r.val, 0, 0]) (k : Fin 256) :
    ((((cfg0 a).win 4).blk t).view.read (Elt F) A : S1x1x256.Idx → Elt F .f32) (ix3 0 0 k) = A (ix3 r 0 k) := by
  show A ((((cfg0 a).win 4).blk t).view.emb (ix3 0 0 k)) = A _
  congr 1
  funext b
  apply Fin.ext
  match b with
  | ⟨0, _⟩ =>
    show cc0_transform_4 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_4 Facts₀.k0_off1_inb Facts₀.numel1_S1 a.1 (grid0.coords t) (1 : Fin 3) * 1 + 1 * 0 = 0
    rw [hr]; rfl
  | ⟨2, _⟩ =>
    show cc0_transform_4 Facts₀.k0_off1_inb Facts₀.numel1_S1 a.1 (grid0.coords t) (2 : Fin 3) * 256 + 1 * k.val = k.val
    rw [hr]; show 0 * 256 + 1 * k.val = k.val; omega

theorem blk5_read (a : (pcfg0 (F := F)).Adm) (t : Fin (cfg0 a).N) (A : S1001x1x256.Idx → Elt F .f32) (r : Fin 1001)
    (hr : cc0_transform_5 Facts₀.k0_off1_inb Facts₀.numel1_S1 a.1 (grid0.coords t) = ![r.val, 0, 0]) (k : Fin 256) :
    ((((cfg0 a).win 5).blk t).view.read (Elt F) A : S1x1x256.Idx → Elt F .f32) (ix3 0 0 k) = A (ix3 r 0 k) := by
  show A ((((cfg0 a).win 5).blk t).view.emb (ix3 0 0 k)) = A _
  congr 1
  funext b
  apply Fin.ext
  match b with
  | ⟨0, _⟩ =>
    show cc0_transform_5 Facts₀.k0_off1_inb Facts₀.numel1_S1 a.1 (grid0.coords t) (0 : Fin 3) * 1 + 1 * 0 = r.val
    rw [hr]; show r.val * 1 + 1 * 0 = r.val; omega
  | ⟨1, _⟩ =>
    show cc0_transform_5 Facts₀.k0_off1_inb Facts₀.numel1_S1 a.1 (grid0.coords t) (1 : Fin 3) * 1 + 1 * 0 = 0
    rw [hr]; rfl
  | ⟨2, _⟩ =>
    show cc0_transform_5 Facts₀.k0_off1_inb Facts₀.numel1_S1 a.1 (grid0.coords t) (2 : Fin 3) * 256 + 1 * k.val = k.val
    rw [hr]; show 0 * 256 + 1 * k.val = k.val; omega

variable (m : (ℓ : Loc nD τ sig) → Buf (Elt F) ℓ)

/-! ## The four tables as the region finds them -/

/-- The entity embeddings as the region finds it: the argument with a unit axis inserted. -/
theorem V6_eq (c : Dev nD) : (V m c main_v6 : S500001x1x256.Idx → Elt F .f32)
    = shapeCast S500001x1x256 (m ((c : Thread nD τ).loc main_arg1) : S500001x256.Idx → Elt F .f32) shapeCasts_S500001x256_S500001x1x256 := by
  show StableHlo.after hostOps0 (fun b => m (c, b)) (Proc.devRef .tc main_v6) = _
  after_results
  rfl

theorem V6_apply (c : Dev nD) (r : Fin 500001) (k : Fin 256) : (V m c main_v6 : S500001x1x256.Idx → Elt F .f32) (ix3 r 0 k)
    = (m ((c : Thread nD τ).loc main_arg1) : S500001x256.Idx → Elt F .f32) (ix2 r k) := by
  refine (congrFun (V6_eq m c) (ix3 r 0 k)).trans ?_
  refine shapeCast_apply _ _ (ix3 r 0 k) (ix2 r k) ?_
  rw [Shape.rowMajor_val_three, Shape.rowMajor_val_two]
  show r.val * 256 + k.val = (r.val * 1 + 0) * 256 + k.val
  omega

/-- The entity maps as the region finds it: the argument with a unit axis inserted. -/
theorem V7_eq (c : Dev nD) : (V m c main_v7 : S500001x1x256.Idx → Elt F .f32)
    = shapeCast S500001x1x256 (m ((c : Thread nD τ).loc main_arg2) : S500001x256.Idx → Elt F .f32) shapeCasts_S500001x256_S500001x1x256 := by
  show StableHlo.after hostOps0 (fun b => m (c, b)) (Proc.devRef .tc main_v7) = _
  after_results
  rfl

theorem V7_apply (c : Dev nD) (r : Fin 500001) (k : Fin 256) : (V m c main_v7 : S500001x1x256.Idx → Elt F .f32) (ix3 r 0 k)
    = (m ((c : Thread nD τ).loc main_arg2) : S500001x256.Idx → Elt F .f32) (ix2 r k) := by
  refine (congrFun (V7_eq m c) (ix3 r 0 k)).trans ?_
  refine shapeCast_apply _ _ (ix3 r 0 k) (ix2 r k) ?_
  rw [Shape.rowMajor_val_three, Shape.rowMajor_val_two]
  show r.val * 256 + k.val = (r.val * 1 + 0) * 256 + k.val
  omega

/-- The relation embeddings as the region finds it: the argument with a unit axis inserted. -/
theorem V8_eq (c : Dev nD) : (V m c main_v8 : S1001x1x256.Idx → Elt F .f32)
    = shapeCast S1001x1x256 (m ((c : Thread nD τ).loc main_arg3) : S1001x256.Idx → Elt F .f32) shapeCasts_S1001x256_S1001x1x256 := by
  show StableHlo.after hostOps0 (fun b => m (c, b)) (Proc.devRef .tc main_v8) = _
  after_results
  rfl

theorem V8_apply (c : Dev nD) (r : Fin 1001) (k : Fin 256) : (V m c main_v8 : S1001x1x256.Idx → Elt F .f32) (ix3 r 0 k)
    = (m ((c : Thread nD τ).loc main_arg3) : S1001x256.Idx → Elt F .f32) (ix2 r k) := by
  refine (congrFun (V8_eq m c) (ix3 r 0 k)).trans ?_
  refine shapeCast_apply _ _ (ix3 r 0 k) (ix2 r k) ?_
  rw [Shape.rowMajor_val_three, Shape.rowMajor_val_two]
  show r.val * 256 + k.val = (r.val * 1 + 0) * 256 + k.val
  omega

/-- The relation maps as the region finds it: the argument with a unit axis inserted. -/
theorem V9_eq (c : Dev nD) : (V m c main_v9 : S1001x1x256.Idx → Elt F .f32)
    = shapeCast S1001x1x256 (m ((c : Thread nD τ).loc main_arg4) : S1001x256.Idx → Elt F .f32) shapeCasts_S1001x256_S1001x1x256 := by
  show StableHlo.after hostOps0 (fun b => m (c, b)) (Proc.devRef .tc main_v9) = _
  after_results
  rfl

theorem V9_apply (c : Dev nD) (r : Fin 1001) (k : Fin 256) : (V m c main_v9 : S1001x1x256.Idx → Elt F .f32) (ix3 r 0 k)
    = (m ((c : Thread nD τ).loc main_arg4) : S1001x256.Idx → Elt F .f32) (ix2 r k) := by
  refine (congrFun (V9_eq m c) (ix3 r 0 k)).trans ?_
  refine shapeCast_apply _ _ (ix3 r 0 k) (ix2 r k) ?_
  rw [Shape.rowMajor_val_three, Shape.rowMajor_val_two]
  show r.val * 256 + k.val = (r.val * 1 + 0) * 256 + k.val
  omega

/-! ## The input blocks as rows of the argument tables -/

/-- Window 0's block at point t, lane k: the entity embeddings at row h[t]. -/
theorem iblk0_apply (hO : Ok m) (c : Dev nD) (t : Fin (cfgM m hO).N) (r : Fin 500001)
    (hr : ((tbl m 0 : S65536.Idx → BitVec 32) (ix1 (grid0.coords t 0 : Fin 65536))).toNat = r.val) (k : Fin 256) :
    (iblk m hO c 0 t : S1x1x256.Idx → Elt F .f32) (ix3 0 0 k)
      = (m ((c : Thread nD τ).loc main_arg1) : S500001x256.Idx → Elt F .f32) (ix2 r k) := by
  unfold iblk
  refine (blk0_read (adm m hO) t (V m c main_v6) r ?_ k).trans (V6_apply m c r k)
  exact (transform0_eq (tbl m) (grid0.coords t)).trans (congrArg (fun n : Nat => (![n, 0, 0] : Fin 3 → Nat)) hr)

/-- Window 1's block at point t, lane k: the entity maps at row h[t]. -/
theorem iblk1_apply (hO : Ok m) (c : Dev nD) (t : Fin (cfgM m hO).N) (r : Fin 500001)
    (hr : ((tbl m 0 : S65536.Idx → BitVec 32) (ix1 (grid0.coords t 0 : Fin 65536))).toNat = r.val) (k : Fin 256) :
    (iblk m hO c 1 t : S1x1x256.Idx → Elt F .f32) (ix3 0 0 k)
      = (m ((c : Thread nD τ).loc main_arg2) : S500001x256.Idx → Elt F .f32) (ix2 r k) := by
  unfold iblk
  refine (blk1_read (adm m hO) t (V m c main_v7) r ?_ k).trans (V7_apply m c r k)
  exact (transform1_eq (tbl m) (grid0.coords t)).trans (congrArg (fun n : Nat => (![n, 0, 0] : Fin 3 → Nat)) hr)

/-- Window 2's block at point t, lane k: the entity embeddings at row t[t]. -/
theorem iblk2_apply (hO : Ok m) (c : Dev nD) (t : Fin (cfgM m hO).N) (r : Fin 500001)
    (hr : ((tbl m 2 : S65536.Idx → BitVec 32) (ix1 (grid0.coords t 0 : Fin 65536))).toNat = r.val) (k : Fin 256) :
    (iblk m hO c 2 t : S1x1x256.Idx → Elt F .f32) (ix3 0 0 k)
      = (m ((c : Thread nD τ).loc main_arg1) : S500001x256.Idx → Elt F .f32) (ix2 r k) := by
  unfold iblk
  refine (blk2_read (adm m hO) t (V m c main_v6) r ?_ k).trans (V6_apply m c r k)
  exact (transform2_eq (tbl m) (grid0.coords t)).trans (congrArg (fun n : Nat => (![n, 0, 0] : Fin 3 → Nat)) hr)

/-- Window 3's block at point t, lane k: the entity maps at row t[t]. -/
theorem iblk3_apply (hO : Ok m) (c : Dev nD) (t : Fin (cfgM m hO).N) (r : Fin 500001)
    (hr : ((tbl m 2 : S65536.Idx → BitVec 32) (ix1 (grid0.coords t 0 : Fin 65536))).toNat = r.val) (k : Fin 256) :
    (iblk m hO c 3 t : S1x1x256.Idx → Elt F .f32) (ix3 0 0 k)
      = (m ((c : Thread nD τ).loc main_arg2) : S500001x256.Idx → Elt F .f32) (ix2 r k) := by
  unfold iblk
  refine (blk3_read (adm m hO) t (V m c main_v7) r ?_ k).trans (V7_apply m c r k)
  exact (transform3_eq (tbl m) (grid0.coords t)).trans (congrArg (fun n : Nat => (![n, 0, 0] : Fin 3 → Nat)) hr)

/-- Window 4's block at point t, lane k: the relation embeddings at row r[t]. -/
theorem iblk4_apply (hO : Ok m) (c : Dev nD) (t : Fin (cfgM m hO).N) (r : Fin 1001)
    (hr : ((tbl m 1 : S65536.Idx → BitVec 32) (ix1 (grid0.coords t 0 : Fin 65536))).toNat = r.val) (k : Fin 256) :
    (iblk m hO c 4 t : S1x1x256.Idx → Elt F .f32) (ix3 0 0 k)
      = (m ((c : Thread nD τ).loc main_arg3) : S1001x256.Idx → Elt F .f32) (ix2 r k) := by
  unfold iblk
  refine (blk4_read (adm m hO) t (V m c main_v8) r ?_ k).trans (V8_apply m c r k)
  exact (transform4_eq (tbl m) (grid0.coords t)).trans (congrArg (fun n : Nat => (![n, 0, 0] : Fin 3 → Nat)) hr)

/-- Window 5's block at point t, lane k: the relation maps at row r[t]. -/
theorem iblk5_apply (hO : Ok m) (c : Dev nD) (t : Fin (cfgM m hO).N) (r : Fin 1001)
    (hr : ((tbl m 1 : S65536.Idx → BitVec 32) (ix1 (grid0.coords t 0 : Fin 65536))).toNat = r.val) (k : Fin 256) :
    (iblk m hO c 5 t : S1x1x256.Idx → Elt F .f32) (ix3 0 0 k)
      = (m ((c : Thread nD τ).loc main_arg4) : S1001x256.Idx → Elt F .f32) (ix2 r k) := by
  unfold iblk
  refine (blk5_read (adm m hO) t (V m c main_v9) r ?_ k).trans (V9_apply m c r k)
  exact (transform5_eq (tbl m) (grid0.coords t)).trans (congrArg (fun n : Nat => (![n, 0, 0] : Fin 3 → Nat)) hr)

/-! ## The rows the windows fetch are the rows the specification names -/

/-- Under the side condition the head word at point i is below its tables' row count. -/
theorem head_lt (hO : Ok m) (i : grid0.Coords) :
    ((tbl m 0 : S65536.Idx → BitVec 32) (ix1 (i 0 : Fin 65536))).toNat < 500001 := by
  have hO' : ok0 (tbl m) := hO
  unfold ok0 at hO'
  obtain ⟨h, -⟩ := hO'.1 i
  have h0 : (cc0_transform_0 Facts₀.k0_off1_inb Facts₀.numel1_S1 (tbl m) i (0 : Fin 3) + 1) * 1 ≤ 500001 := h 0
  rw [transform0_eq] at h0
  have h1 : (((tbl m 0 : S65536.Idx → BitVec 32) (ix1 (i 0 : Fin 65536))).toNat + 1) * 1 ≤ 500001 := h0
  omega

/-- Under the side condition the tail word at point i is below its tables' row count. -/
theorem tail_lt (hO : Ok m) (i : grid0.Coords) :
    ((tbl m 2 : S65536.Idx → BitVec 32) (ix1 (i 0 : Fin 65536))).toNat < 500001 := by
  have hO' : ok0 (tbl m) := hO
  unfold ok0 at hO'
  obtain ⟨h, -⟩ := hO'.2.2.1 i
  have h0 : (cc0_transform_2 Facts₀.k0_off1_inb Facts₀.numel1_S1 (tbl m) i (0 : Fin 3) + 1) * 1 ≤ 500001 := h 0
  rw [transform2_eq] at h0
  have h1 : (((tbl m 2 : S65536.Idx → BitVec 32) (ix1 (i 0 : Fin 65536))).toNat + 1) * 1 ≤ 500001 := h0
  omega

/-- Under the side condition the relation word at point i is below its tables' row count. -/
theorem rel_lt (hO : Ok m) (i : grid0.Coords) :
    ((tbl m 1 : S65536.Idx → BitVec 32) (ix1 (i 0 : Fin 65536))).toNat < 1001 := by
  have hO' : ok0 (tbl m) := hO
  unfold ok0 at hO'
  obtain ⟨h, -⟩ := hO'.2.2.2.2.1 i
  have h0 : (cc0_transform_4 Facts₀.k0_off1_inb Facts₀.numel1_S1 (tbl m) i (0 : Fin 3) + 1) * 1 ≤ 1001 := h 0
  rw [transform4_eq] at h0
  have h1 : (((tbl m 1 : S65536.Idx → BitVec 32) (ix1 (i 0 : Fin 65536))).toNat + 1) * 1 ≤ 1001 := h0
  omega

/-- The head word at point i, read unsigned, is the entity row the specification names. -/
theorem head_row (hO : Ok m) (i : grid0.Coords) :
    ((tbl m 0 : S65536.Idx → BitVec 32) (ix1 (i 0 : Fin 65536))).toNat
      = (Cert.Spec.entRow ((m (((0 : Dev nD) : Thread nD τ).loc main_arg0) : S65536x3.Idx → BitVec 32) (ix2 (i 0 : Fin 65536) 0))).val := by
  have e := congrArg BitVec.toNat (tbl0_apply m (i 0 : Fin 65536))
  exact e.trans (Cert.Spec.entRow_val (lt_of_eq_of_lt e.symm (head_lt m hO i))).symm

/-- The tail word at point i, read unsigned, is the entity row the specification names. -/
theorem tail_row (hO : Ok m) (i : grid0.Coords) :
    ((tbl m 2 : S65536.Idx → BitVec 32) (ix1 (i 0 : Fin 65536))).toNat
      = (Cert.Spec.entRow ((m (((0 : Dev nD) : Thread nD τ).loc main_arg0) : S65536x3.Idx → BitVec 32) (ix2 (i 0 : Fin 65536) 2))).val := by
  have e := congrArg BitVec.toNat (tbl2_apply m (i 0 : Fin 65536))
  exact e.trans (Cert.Spec.entRow_val (lt_of_eq_of_lt e.symm (tail_lt m hO i))).symm

/-- The relation word at point i, read unsigned, is the relation row the specification names. -/
theorem rel_row (hO : Ok m) (i : grid0.Coords) :
    ((tbl m 1 : S65536.Idx → BitVec 32) (ix1 (i 0 : Fin 65536))).toNat
      = (Cert.Spec.relRow ((m (((0 : Dev nD) : Thread nD τ).loc main_arg0) : S65536x3.Idx → BitVec 32) (ix2 (i 0 : Fin 65536) 1))).val := by
  have e := congrArg BitVec.toNat (tbl1_apply m (i 0 : Fin 65536))
  exact e.trans (Cert.Spec.relRow_val (lt_of_eq_of_lt e.symm (rel_lt m hO i))).symm

/-! ## What a point leaves in the three output blocks -/

section Point
variable (mI : (ℓ : Loc nD τ sig) → Buf (Elt Ideal) ℓ)

/-- The five arguments as the run finds them. -/
abbrev aT (c : Dev nD) : (⟨2, ![65536, 3]⟩ : Shape).Idx → BitVec 32 := mI ((c : Thread nD τ).loc main_arg0)
abbrev aE (c : Dev nD) : (⟨2, ![500001, 256]⟩ : Shape).Idx → EReal := mI ((c : Thread nD τ).loc main_arg1)
abbrev aM (c : Dev nD) : (⟨2, ![500001, 256]⟩ : Shape).Idx → EReal := mI ((c : Thread nD τ).loc main_arg2)
abbrev aR (c : Dev nD) : (⟨2, ![1001, 256]⟩ : Shape).Idx → EReal := mI ((c : Thread nD τ).loc main_arg3)
abbrev aP (c : Dev nD) : (⟨2, ![1001, 256]⟩ : Shape).Idx → EReal := mI ((c : Thread nD τ).loc main_arg4)

/-- The first output block at point t, lane d: the projected head of triplet t. -/
theorem outH_apply (hO : Ok mI) (c : Dev nD) (t : Fin (cfgM mI hO).N) (d : Fin 256) :
    (outH mI hO c t : S1x1x256.Idx → EReal) (ix3 0 0 d)
      = Cert.Spec.proj (aT mI c) (aE mI c) (aM mI c) (aP mI c) 0 (grid0.coords t 0 : Fin 65536) d := by
  obtain rfl : c = 0 := Subsingleton.elim _ _
  unfold outH
  refine (pay3_apply (iblk mI hO 0 0 t) (iblk mI hO 0 1 t) (iblk mI hO 0 5 t) d).trans ?_
  show _ = aE mI 0 (ix2 (Cert.Spec.entRow (aT mI 0 (ix2 (grid0.coords t 0 : Fin 65536) 0))) d)
      + aP mI 0 (ix2 (Cert.Spec.relRow (aT mI 0 (ix2 (grid0.coords t 0 : Fin 65536) 1))) d)
        * ∑ k : Fin 256, aM mI 0 (ix2 (Cert.Spec.entRow (aT mI 0 (ix2 (grid0.coords t 0 : Fin 65536) 0))) k)
            * aE mI 0 (ix2 (Cert.Spec.entRow (aT mI 0 (ix2 (grid0.coords t 0 : Fin 65536) 0))) k)
  exact congrArg₂ (· + ·) (iblk0_apply mI hO 0 t _ (head_row mI hO (grid0.coords t)) d)
    (congrArg₂ (· * ·) (iblk5_apply mI hO 0 t _ (rel_row mI hO (grid0.coords t)) d)
      (Finset.sum_congr rfl fun k _ => congrArg₂ (· * ·) (iblk1_apply mI hO 0 t _ (head_row mI hO (grid0.coords t)) k)
        (iblk0_apply mI hO 0 t _ (head_row mI hO (grid0.coords t)) k)))

/-- The second output block at point t, lane d: the relation's embedding row of triplet t. -/
theorem outR_apply (hO : Ok mI) (c : Dev nD) (t : Fin (cfgM mI hO).N) (d : Fin 256) :
    (outR mI hO c t : S1x1x256.Idx → EReal) (ix3 0 0 d)
      = Cert.Spec.rel (aT mI c) (aR mI c) (grid0.coords t 0 : Fin 65536) d := by
  obtain rfl : c = 0 := Subsingleton.elim _ _
  unfold outR
  refine (congrFun (pay1_eq (F := Ideal) (iblk mI hO 0 4 t)) (ix3 0 0 d)).trans ?_
  exact iblk4_apply mI hO 0 t _ (rel_row mI hO (grid0.coords t)) d

/-- The third output block at point t, lane d: the projected tail of triplet t. -/
theorem outT_apply (hO : Ok mI) (c : Dev nD) (t : Fin (cfgM mI hO).N) (d : Fin 256) :
    (outT mI hO c t : S1x1x256.Idx → EReal) (ix3 0 0 d)
      = Cert.Spec.proj (aT mI c) (aE mI c) (aM mI c) (aP mI c) 2 (grid0.coords t 0 : Fin 65536) d := by
  obtain rfl : c = 0 := Subsingleton.elim _ _
  unfold outT
  refine (pay4_apply (iblk mI hO 0 2 t) (iblk mI hO 0 3 t) (iblk mI hO 0 5 t) d).trans ?_
  show _ = aE mI 0 (ix2 (Cert.Spec.entRow (aT mI 0 (ix2 (grid0.coords t 0 : Fin 65536) 2))) d)
      + aP mI 0 (ix2 (Cert.Spec.relRow (aT mI 0 (ix2 (grid0.coords t 0 : Fin 65536) 1))) d)
        * ∑ k : Fin 256, aM mI 0 (ix2 (Cert.Spec.entRow (aT mI 0 (ix2 (grid0.coords t 0 : Fin 65536) 2))) k)
            * aE mI 0 (ix2 (Cert.Spec.entRow (aT mI 0 (ix2 (grid0.coords t 0 : Fin 65536) 2))) k)
  exact congrArg₂ (· + ·) (iblk2_apply mI hO 0 t _ (tail_row mI hO (grid0.coords t)) d)
    (congrArg₂ (· * ·) (iblk5_apply mI hO 0 t _ (rel_row mI hO (grid0.coords t)) d)
      (Finset.sum_congr rfl fun k _ => congrArg₂ (· * ·) (iblk3_apply mI hO 0 t _ (tail_row mI hO (grid0.coords t)) k)
        (iblk2_apply mI hO 0 t _ (tail_row mI hO (grid0.coords t)) k)))

end Point

/-! ## The output windows: block t is row t, and every point writes back -/

section OutGeom
variable {F : FTy → Type} [FloatOps F]

/-- Output window 6's index map names block (t, 0, 0) at point t. -/
theorem transform6_val (t : Fin grid0.N) : cc0_transform_6 (grid0.coords t) (0 : Fin 3) = t.val := by
  show (BitVec.ofNat 32 (grid0.coords t 0).val).toNat = t.val
  rw [BitVec.toNat_ofNat, coords_val]
  have hN : grid0.N = 65536 := N_0
  have ht := t.isLt
  exact Nat.mod_eq_of_lt (by omega)

/-- Its block at point t, read off an array, at (0, 0, d): the array at (t, 0, d). -/
theorem blk6_read (a : (pcfg0 (F := F)).Adm) (t : Fin (cfg0 a).N) (G : S65536x1x256.Idx → Elt F .f32) (j : S1x1x256.Idx) :
    ((((cfg0 a).win 6).blk t).view.read (Elt F) G : S1x1x256.Idx → Elt F .f32) j
      = G (ix3 (grid0.coords t 0 : Fin 65536) 0 (j 2 : Fin 256)) := by
  show G ((((cfg0 a).win 6).blk t).view.emb j) = G _
  congr 1
  funext b
  apply Fin.ext
  have h0 : (j 0).val < 1 := (j 0).isLt
  have h1 : (j 1).val < 1 := (j 1).isLt
  match b with
  | ⟨0, _⟩ =>
    show cc0_transform_6 (grid0.coords t) (0 : Fin 3) * 1 + 1 * (j 0).val = (grid0.coords t 0).val
    rw [transform6_val, coords_val]; omega
  | ⟨1, _⟩ =>
    show 0 * 1 + 1 * (j 1).val = 0
    omega
  | ⟨2, _⟩ =>
    show 0 * 256 + 1 * (j 2).val = (j 2).val
    omega

/-- Every point writes its block back: the next point's block is another. -/
theorem flush6 (a : (pcfg0 (F := F)).Adm) (t : Fin (cfg0 a).N) : ((cfg0 a).win 6).flush t = true := by
  unfold Window.flush
  rw [Bool.and_eq_true]
  refine ⟨rfl, ?_⟩
  rw [Bool.or_eq_true, decide_eq_true_eq, decide_eq_true_eq]
  by_cases h : t.val + 1 = (cfg0 a).grid.N
  · exact Or.inl h
  · refine Or.inr ⟨lt_of_le_of_ne t.isLt h, fun e => ?_⟩
    have e0 : cc0_transform_6 (grid0.coords ⟨t.val + 1, lt_of_le_of_ne t.isLt h⟩) (0 : Fin 3)
        = cc0_transform_6 (grid0.coords t) (0 : Fin 3) := congrFun e (0 : Fin 3)
    rw [transform6_val, transform6_val] at e0
    exact absurd e0 (Nat.succ_ne_self _)

/-- The blocks tile the result: index (i, 0, d) is in point i's block. -/
theorem cover6 (a : (pcfg0 (F := F)).Adm) (i : S65536x1x256.Idx) :
    ∃ t : Fin (cfg0 a).N, ((cfg0 a).win 6).flush t = true ∧ i ∈ (((cfg0 a).win 6).blk t).view.set := by
  have hN : grid0.N = 65536 := N_0
  have hi0 : (i 0).val < 65536 := (i 0).isLt
  have hi1 : (i 1).val < 1 := (i 1).isLt
  have hi2 : (i 2).val < 256 := (i 2).isLt
  have ht : (i 0).val < (cfg0 a).N := by show (i 0).val < grid0.N; omega
  refine ⟨⟨(i 0).val, ht⟩, flush6 a _, ?_⟩
  refine (congrArg (fun s : Finset main_v10_0.ty.shape.Idx => i ∈ s)
    (View.set_slice_whole main_v10_0 (((cfg0 a).win 6).rect ⟨(i 0).val, ht⟩))).mpr (Rect.mem_set_unit.mpr fun b => ?_)
  match b with
  | ⟨0, _⟩ =>
    show cc0_transform_6 (grid0.coords ⟨(i 0).val, ht⟩) (0 : Fin 3) * 1 ≤ (i 0).val
      ∧ (i 0).val < cc0_transform_6 (grid0.coords ⟨(i 0).val, ht⟩) (0 : Fin 3) * 1 + 1
    rw [transform6_val]
    show (i 0).val * 1 ≤ (i 0).val ∧ (i 0).val < (i 0).val * 1 + 1
    omega
  | ⟨1, _⟩ =>
    show 0 * 1 ≤ (i 1).val ∧ (i 1).val < 0 * 1 + 1
    omega
  | ⟨2, _⟩ =>
    show 0 * 256 ≤ (i 2).val ∧ (i 2).val < 0 * 256 + 256
    omega

/-- Output window 7's index map names block (t, 0, 0) at point t. -/
theorem transform7_val (t : Fin grid0.N) : cc0_transform_7 (grid0.coords t) (0 : Fin 3) = t.val := by
  show (BitVec.ofNat 32 (grid0.coords t 0).val).toNat = t.val
  rw [BitVec.toNat_ofNat, coords_val]
  have hN : grid0.N = 65536 := N_0
  have ht := t.isLt
  exact Nat.mod_eq_of_lt (by omega)

/-- Its block at point t, read off an array, at (0, 0, d): the array at (t, 0, d). -/
theorem blk7_read (a : (pcfg0 (F := F)).Adm) (t : Fin (cfg0 a).N) (G : S65536x1x256.Idx → Elt F .f32) (j : S1x1x256.Idx) :
    ((((cfg0 a).win 7).blk t).view.read (Elt F) G : S1x1x256.Idx → Elt F .f32) j
      = G (ix3 (grid0.coords t 0 : Fin 65536) 0 (j 2 : Fin 256)) := by
  show G ((((cfg0 a).win 7).blk t).view.emb j) = G _
  congr 1
  funext b
  apply Fin.ext
  have h0 : (j 0).val < 1 := (j 0).isLt
  have h1 : (j 1).val < 1 := (j 1).isLt
  match b with
  | ⟨0, _⟩ =>
    show cc0_transform_7 (grid0.coords t) (0 : Fin 3) * 1 + 1 * (j 0).val = (grid0.coords t 0).val
    rw [transform7_val, coords_val]; omega
  | ⟨1, _⟩ =>
    show 0 * 1 + 1 * (j 1).val = 0
    omega
  | ⟨2, _⟩ =>
    show 0 * 256 + 1 * (j 2).val = (j 2).val
    omega

/-- Every point writes its block back: the next point's block is another. -/
theorem flush7 (a : (pcfg0 (F := F)).Adm) (t : Fin (cfg0 a).N) : ((cfg0 a).win 7).flush t = true := by
  unfold Window.flush
  rw [Bool.and_eq_true]
  refine ⟨rfl, ?_⟩
  rw [Bool.or_eq_true, decide_eq_true_eq, decide_eq_true_eq]
  by_cases h : t.val + 1 = (cfg0 a).grid.N
  · exact Or.inl h
  · refine Or.inr ⟨lt_of_le_of_ne t.isLt h, fun e => ?_⟩
    have e0 : cc0_transform_7 (grid0.coords ⟨t.val + 1, lt_of_le_of_ne t.isLt h⟩) (0 : Fin 3)
        = cc0_transform_7 (grid0.coords t) (0 : Fin 3) := congrFun e (0 : Fin 3)
    rw [transform7_val, transform7_val] at e0
    exact absurd e0 (Nat.succ_ne_self _)

/-- The blocks tile the result: index (i, 0, d) is in point i's block. -/
theorem cover7 (a : (pcfg0 (F := F)).Adm) (i : S65536x1x256.Idx) :
    ∃ t : Fin (cfg0 a).N, ((cfg0 a).win 7).flush t = true ∧ i ∈ (((cfg0 a).win 7).blk t).view.set := by
  have hN : grid0.N = 65536 := N_0
  have hi0 : (i 0).val < 65536 := (i 0).isLt
  have hi1 : (i 1).val < 1 := (i 1).isLt
  have hi2 : (i 2).val < 256 := (i 2).isLt
  have ht : (i 0).val < (cfg0 a).N := by show (i 0).val < grid0.N; omega
  refine ⟨⟨(i 0).val, ht⟩, flush7 a _, ?_⟩
  refine (congrArg (fun s : Finset main_v10_1.ty.shape.Idx => i ∈ s)
    (View.set_slice_whole main_v10_1 (((cfg0 a).win 7).rect ⟨(i 0).val, ht⟩))).mpr (Rect.mem_set_unit.mpr fun b => ?_)
  match b with
  | ⟨0, _⟩ =>
    show cc0_transform_7 (grid0.coords ⟨(i 0).val, ht⟩) (0 : Fin 3) * 1 ≤ (i 0).val
      ∧ (i 0).val < cc0_transform_7 (grid0.coords ⟨(i 0).val, ht⟩) (0 : Fin 3) * 1 + 1
    rw [transform7_val]
    show (i 0).val * 1 ≤ (i 0).val ∧ (i 0).val < (i 0).val * 1 + 1
    omega
  | ⟨1, _⟩ =>
    show 0 * 1 ≤ (i 1).val ∧ (i 1).val < 0 * 1 + 1
    omega
  | ⟨2, _⟩ =>
    show 0 * 256 ≤ (i 2).val ∧ (i 2).val < 0 * 256 + 256
    omega

/-- Output window 8's index map names block (t, 0, 0) at point t. -/
theorem transform8_val (t : Fin grid0.N) : cc0_transform_8 (grid0.coords t) (0 : Fin 3) = t.val := by
  show (BitVec.ofNat 32 (grid0.coords t 0).val).toNat = t.val
  rw [BitVec.toNat_ofNat, coords_val]
  have hN : grid0.N = 65536 := N_0
  have ht := t.isLt
  exact Nat.mod_eq_of_lt (by omega)

/-- Its block at point t, read off an array, at (0, 0, d): the array at (t, 0, d). -/
theorem blk8_read (a : (pcfg0 (F := F)).Adm) (t : Fin (cfg0 a).N) (G : S65536x1x256.Idx → Elt F .f32) (j : S1x1x256.Idx) :
    ((((cfg0 a).win 8).blk t).view.read (Elt F) G : S1x1x256.Idx → Elt F .f32) j
      = G (ix3 (grid0.coords t 0 : Fin 65536) 0 (j 2 : Fin 256)) := by
  show G ((((cfg0 a).win 8).blk t).view.emb j) = G _
  congr 1
  funext b
  apply Fin.ext
  have h0 : (j 0).val < 1 := (j 0).isLt
  have h1 : (j 1).val < 1 := (j 1).isLt
  match b with
  | ⟨0, _⟩ =>
    show cc0_transform_8 (grid0.coords t) (0 : Fin 3) * 1 + 1 * (j 0).val = (grid0.coords t 0).val
    rw [transform8_val, coords_val]; omega
  | ⟨1, _⟩ =>
    show 0 * 1 + 1 * (j 1).val = 0
    omega
  | ⟨2, _⟩ =>
    show 0 * 256 + 1 * (j 2).val = (j 2).val
    omega

/-- Every point writes its block back: the next point's block is another. -/
theorem flush8 (a : (pcfg0 (F := F)).Adm) (t : Fin (cfg0 a).N) : ((cfg0 a).win 8).flush t = true := by
  unfold Window.flush
  rw [Bool.and_eq_true]
  refine ⟨rfl, ?_⟩
  rw [Bool.or_eq_true, decide_eq_true_eq, decide_eq_true_eq]
  by_cases h : t.val + 1 = (cfg0 a).grid.N
  · exact Or.inl h
  · refine Or.inr ⟨lt_of_le_of_ne t.isLt h, fun e => ?_⟩
    have e0 : cc0_transform_8 (grid0.coords ⟨t.val + 1, lt_of_le_of_ne t.isLt h⟩) (0 : Fin 3)
        = cc0_transform_8 (grid0.coords t) (0 : Fin 3) := congrFun e (0 : Fin 3)
    rw [transform8_val, transform8_val] at e0
    exact absurd e0 (Nat.succ_ne_self _)

/-- The blocks tile the result: index (i, 0, d) is in point i's block. -/
theorem cover8 (a : (pcfg0 (F := F)).Adm) (i : S65536x1x256.Idx) :
    ∃ t : Fin (cfg0 a).N, ((cfg0 a).win 8).flush t = true ∧ i ∈ (((cfg0 a).win 8).blk t).view.set := by
  have hN : grid0.N = 65536 := N_0
  have hi0 : (i 0).val < 65536 := (i 0).isLt
  have hi1 : (i 1).val < 1 := (i 1).isLt
  have hi2 : (i 2).val < 256 := (i 2).isLt
  have ht : (i 0).val < (cfg0 a).N := by show (i 0).val < grid0.N; omega
  refine ⟨⟨(i 0).val, ht⟩, flush8 a _, ?_⟩
  refine (congrArg (fun s : Finset main_v10_2.ty.shape.Idx => i ∈ s)
    (View.set_slice_whole main_v10_2 (((cfg0 a).win 8).rect ⟨(i 0).val, ht⟩))).mpr (Rect.mem_set_unit.mpr fun b => ?_)
  match b with
  | ⟨0, _⟩ =>
    show cc0_transform_8 (grid0.coords ⟨(i 0).val, ht⟩) (0 : Fin 3) * 1 ≤ (i 0).val
      ∧ (i 0).val < cc0_transform_8 (grid0.coords ⟨(i 0).val, ht⟩) (0 : Fin 3) * 1 + 1
    rw [transform8_val]
    show (i 0).val * 1 ≤ (i 0).val ∧ (i 0).val < (i 0).val * 1 + 1
    omega
  | ⟨1, _⟩ =>
    show 0 * 1 ≤ (i 1).val ∧ (i 1).val < 0 * 1 + 1
    omega
  | ⟨2, _⟩ =>
    show 0 * 256 ≤ (i 2).val ∧ (i 2).val < 0 * 256 + 256
    omega

end OutGeom

/-! ## The three result arrays after the region -/

section Arrays
variable (mI : (ℓ : Loc nD τ sig) → Buf (Elt Ideal) ℓ)

/-- The first result as one function of the arguments: at (i, 0, d) the projected head of triplet i. -/
def GH (c : Dev nD) : S65536x1x256.Idx → EReal := fun j => Cert.Spec.proj (aT mI c) (aE mI c) (aM mI c) (aP mI c) 0 (j 0 : Fin 65536) (j 2 : Fin 256)

theorem outH_at (hO : Ok mI) (c : Dev nD) (t : Fin (cfgM mI hO).N) (j : S1x1x256.Idx) :
    (outH mI hO c t : S1x1x256.Idx → EReal) j = GH mI c (ix3 (grid0.coords t 0 : Fin 65536) 0 (j 2 : Fin 256)) := by
  obtain ⟨j0, j1, j2, rfl⟩ : ∃ (a : Fin 1) (b : Fin 1) (d : Fin 256), j = ix3 a b d := ⟨j 0, j 1, j 2, eq_ix3 j⟩
  obtain rfl : j0 = 0 := Subsingleton.elim _ _
  obtain rfl : j1 = 0 := Subsingleton.elim _ _
  exact outH_apply mI hO c t j2

/-- What point t writes back is block t of that function. -/
theorem flushedH_eq (hO : Ok mI) (c : Dev nD) (t : Fin (cfgM mI hO).N) :
    (dats mI hO 0 c).flushed (6 : Fin 9) t = (((cfgM mI hO).win (6 : Fin 9)).blk t).view.read (Elt Ideal) (GH mI c) := by
  show ((cfgM mI hO).win (6 : Fin 9)).cut ((cfgM mI hO).grid.coords t) ((dats mI hO 0 c).after (6 : Fin 9) t) = _
  have ha : (dats mI hO 0 c).after (6 : Fin 9) t = outH mI hO c t := by dsimp only [dats]
  rw [ha]
  funext j
  exact (outH_at mI hO c t j).trans (blk6_read (adm mI hO) t (GH mI c) j).symm

/-- So the result array ends holding it. -/
theorem resH_eq (hO : Ok mI) (c : Dev nD) : resH mI hO c = GH mI c := by
  unfold resH
  exact (dats mI hO 0 c).arrAt_eq_of_cover (6 : Fin 9) (GH mI c) (fun t _ => flushedH_eq mI hO c t) (cover6 (adm mI hO))

/-- The second result as one function of the arguments: at (i, 0, d) the relation's embedding row of triplet i. -/
def GR (c : Dev nD) : S65536x1x256.Idx → EReal := fun j => Cert.Spec.rel (aT mI c) (aR mI c) (j 0 : Fin 65536) (j 2 : Fin 256)

theorem outR_at (hO : Ok mI) (c : Dev nD) (t : Fin (cfgM mI hO).N) (j : S1x1x256.Idx) :
    (outR mI hO c t : S1x1x256.Idx → EReal) j = GR mI c (ix3 (grid0.coords t 0 : Fin 65536) 0 (j 2 : Fin 256)) := by
  obtain ⟨j0, j1, j2, rfl⟩ : ∃ (a : Fin 1) (b : Fin 1) (d : Fin 256), j = ix3 a b d := ⟨j 0, j 1, j 2, eq_ix3 j⟩
  obtain rfl : j0 = 0 := Subsingleton.elim _ _
  obtain rfl : j1 = 0 := Subsingleton.elim _ _
  exact outR_apply mI hO c t j2

/-- What point t writes back is block t of that function. -/
theorem flushedR_eq (hO : Ok mI) (c : Dev nD) (t : Fin (cfgM mI hO).N) :
    (dats mI hO 0 c).flushed (7 : Fin 9) t = (((cfgM mI hO).win (7 : Fin 9)).blk t).view.read (Elt Ideal) (GR mI c) := by
  show ((cfgM mI hO).win (7 : Fin 9)).cut ((cfgM mI hO).grid.coords t) ((dats mI hO 0 c).after (7 : Fin 9) t) = _
  have ha : (dats mI hO 0 c).after (7 : Fin 9) t = outR mI hO c t := by dsimp only [dats]
  rw [ha]
  funext j
  exact (outR_at mI hO c t j).trans (blk7_read (adm mI hO) t (GR mI c) j).symm

/-- So the result array ends holding it. -/
theorem resR_eq (hO : Ok mI) (c : Dev nD) : resR mI hO c = GR mI c := by
  unfold resR
  exact (dats mI hO 0 c).arrAt_eq_of_cover (7 : Fin 9) (GR mI c) (fun t _ => flushedR_eq mI hO c t) (cover7 (adm mI hO))

/-- The third result as one function of the arguments: at (i, 0, d) the projected tail of triplet i. -/
def GT (c : Dev nD) : S65536x1x256.Idx → EReal := fun j => Cert.Spec.proj (aT mI c) (aE mI c) (aM mI c) (aP mI c) 2 (j 0 : Fin 65536) (j 2 : Fin 256)

theorem outT_at (hO : Ok mI) (c : Dev nD) (t : Fin (cfgM mI hO).N) (j : S1x1x256.Idx) :
    (outT mI hO c t : S1x1x256.Idx → EReal) j = GT mI c (ix3 (grid0.coords t 0 : Fin 65536) 0 (j 2 : Fin 256)) := by
  obtain ⟨j0, j1, j2, rfl⟩ : ∃ (a : Fin 1) (b : Fin 1) (d : Fin 256), j = ix3 a b d := ⟨j 0, j 1, j 2, eq_ix3 j⟩
  obtain rfl : j0 = 0 := Subsingleton.elim _ _
  obtain rfl : j1 = 0 := Subsingleton.elim _ _
  exact outT_apply mI hO c t j2

/-- What point t writes back is block t of that function. -/
theorem flushedT_eq (hO : Ok mI) (c : Dev nD) (t : Fin (cfgM mI hO).N) :
    (dats mI hO 0 c).flushed (8 : Fin 9) t = (((cfgM mI hO).win (8 : Fin 9)).blk t).view.read (Elt Ideal) (GT mI c) := by
  show ((cfgM mI hO).win (8 : Fin 9)).cut ((cfgM mI hO).grid.coords t) ((dats mI hO 0 c).after (8 : Fin 9) t) = _
  have ha : (dats mI hO 0 c).after (8 : Fin 9) t = outT mI hO c t := by dsimp only [dats]
  rw [ha]
  funext j
  exact (outT_at mI hO c t j).trans (blk8_read (adm mI hO) t (GT mI c) j).symm

/-- So the result array ends holding it. -/
theorem resT_eq (hO : Ok mI) (c : Dev nD) : resT mI hO c = GT mI c := by
  unfold resT
  exact (dats mI hO 0 c).arrAt_eq_of_cover (8 : Fin 9) (GT mI c) (fun t _ => flushedT_eq mI hO c t) (cover8 (adm mI hO))

end Arrays

/-! ## After the three reshapes -/

section Tail
variable {F : FTy → Type} [FloatOps F] (m : (ℓ : Loc nD τ sig) → Buf (Elt F) ℓ)

/-- After the reshapes, result 11 is the region's array with its unit axis dropped. -/
theorem Vfin_v11 (hO : Ok m) (c : Dev nD) : (Vfin m hO c main_v11 : S65536x256.Idx → Elt F .f32)
    = shapeCast S65536x256 (resH m hO c : S65536x1x256.Idx → Elt F .f32) shapeCasts_S65536x1x256_S65536x256 := by
  unfold Vfin
  after_results
  unfold Wx
  rw [Function.update_of_ne (StableHlo.devRef_ne_of_ne (show main_v10_0 ≠ main_v10_2 by decide)), Function.update_of_ne (StableHlo.devRef_ne_of_ne (show main_v10_0 ≠ main_v10_1 by decide)), Function.update_self]
  rfl

/-- After the reshapes, result 12 is the region's array with its unit axis dropped. -/
theorem Vfin_v12 (hO : Ok m) (c : Dev nD) : (Vfin m hO c main_v12 : S65536x256.Idx → Elt F .f32)
    = shapeCast S65536x256 (resR m hO c : S65536x1x256.Idx → Elt F .f32) shapeCasts_S65536x1x256_S65536x256 := by
  unfold Vfin
  after_results
  unfold Wx
  rw [Function.update_of_ne (StableHlo.devRef_ne_of_ne (show main_v10_1 ≠ main_v10_2 by decide)), Function.update_self]
  rfl

/-- After the reshapes, result 13 is the region's array with its unit axis dropped. -/
theorem Vfin_v13 (hO : Ok m) (c : Dev nD) : (Vfin m hO c main_v13 : S65536x256.Idx → Elt F .f32)
    = shapeCast S65536x256 (resT m hO c : S65536x1x256.Idx → Elt F .f32) shapeCasts_S65536x1x256_S65536x256 := by
  unfold Vfin
  after_results
  unfold Wx
  rw [Function.update_self]
  rfl

/-! The five arguments end as they started: no operation before the region, no write-back and no reshape after it
    writes an argument. -/

theorem Vfin_arg0 (hO : Ok m) (c : Dev nD) : Vfin m hO c main_arg0 = m ((c : Thread nD τ).loc main_arg0) := by
  unfold Vfin
  after_results
  unfold Wx
  rw [Function.update_of_ne (StableHlo.devRef_ne_of_ne (show main_arg0 ≠ main_v10_2 by decide)), Function.update_of_ne (StableHlo.devRef_ne_of_ne (show main_arg0 ≠ main_v10_1 by decide)), Function.update_of_ne (StableHlo.devRef_ne_of_ne (show main_arg0 ≠ main_v10_0 by decide))]
  show StableHlo.after hostOps0 (fun b => m (c, b)) (Proc.devRef .tc main_arg0) = _
  after_results

theorem Vfin_arg1 (hO : Ok m) (c : Dev nD) : Vfin m hO c main_arg1 = m ((c : Thread nD τ).loc main_arg1) := by
  unfold Vfin
  after_results
  unfold Wx
  rw [Function.update_of_ne (StableHlo.devRef_ne_of_ne (show main_arg1 ≠ main_v10_2 by decide)), Function.update_of_ne (StableHlo.devRef_ne_of_ne (show main_arg1 ≠ main_v10_1 by decide)), Function.update_of_ne (StableHlo.devRef_ne_of_ne (show main_arg1 ≠ main_v10_0 by decide))]
  show StableHlo.after hostOps0 (fun b => m (c, b)) (Proc.devRef .tc main_arg1) = _
  after_results

theorem Vfin_arg2 (hO : Ok m) (c : Dev nD) : Vfin m hO c main_arg2 = m ((c : Thread nD τ).loc main_arg2) := by
  unfold Vfin
  after_results
  unfold Wx
  rw [Function.update_of_ne (StableHlo.devRef_ne_of_ne (show main_arg2 ≠ main_v10_2 by decide)), Function.update_of_ne (StableHlo.devRef_ne_of_ne (show main_arg2 ≠ main_v10_1 by decide)), Function.update_of_ne (StableHlo.devRef_ne_of_ne (show main_arg2 ≠ main_v10_0 by decide))]
  show StableHlo.after hostOps0 (fun b => m (c, b)) (Proc.devRef .tc main_arg2) = _
  after_results

theorem Vfin_arg3 (hO : Ok m) (c : Dev nD) : Vfin m hO c main_arg3 = m ((c : Thread nD τ).loc main_arg3) := by
  unfold Vfin
  after_results
  unfold Wx
  rw [Function.update_of_ne (StableHlo.devRef_ne_of_ne (show main_arg3 ≠ main_v10_2 by decide)), Function.update_of_ne (StableHlo.devRef_ne_of_ne (show main_arg3 ≠ main_v10_1 by decide)), Function.update_of_ne (StableHlo.devRef_ne_of_ne (show main_arg3 ≠ main_v10_0 by decide))]
  show StableHlo.after hostOps0 (fun b => m (c, b)) (Proc.devRef .tc main_arg3) = _
  after_results

theorem Vfin_arg4 (hO : Ok m) (c : Dev nD) : Vfin m hO c main_arg4 = m ((c : Thread nD τ).loc main_arg4) := by
  unfold Vfin
  after_results
  unfold Wx
  rw [Function.update_of_ne (StableHlo.devRef_ne_of_ne (show main_arg4 ≠ main_v10_2 by decide)), Function.update_of_ne (StableHlo.devRef_ne_of_ne (show main_arg4 ≠ main_v10_1 by decide)), Function.update_of_ne (StableHlo.devRef_ne_of_ne (show main_arg4 ≠ main_v10_0 by decide))]
  show StableHlo.after hostOps0 (fun b => m (c, b)) (Proc.devRef .tc main_arg4) = _
  after_results

end Tail

/-! ## The kernel's three results, index by index -/

section Final
variable (mI : (ℓ : Loc nD τ sig) → Buf (Elt Ideal) ℓ)

/-- The kernel's first result is the projected head. -/
theorem final_h (hO : Ok mI) (c : Dev nD) (i : Fin 65536) (d : Fin 256) :
    (Vfin mI hO c main_v11 : S65536x256.Idx → EReal) (ix2 i d) = Cert.Spec.proj (aT mI c) (aE mI c) (aM mI c) (aP mI c) 0 i d := by
  refine (congrFun (Vfin_v11 mI hO c) (ix2 i d)).trans ?_
  refine (shapeCast_apply _ _ (ix2 i d) (ix3 i 0 d) ?_).trans (congrFun (resH_eq mI hO c) (ix3 i 0 d))
  rw [Shape.rowMajor_val_three, Shape.rowMajor_val_two]
  show (i.val * 1 + 0) * 256 + d.val = i.val * 256 + d.val
  omega

/-- The kernel's second result is the relation's embedding row. -/
theorem final_r (hO : Ok mI) (c : Dev nD) (i : Fin 65536) (d : Fin 256) :
    (Vfin mI hO c main_v12 : S65536x256.Idx → EReal) (ix2 i d) = Cert.Spec.rel (aT mI c) (aR mI c) i d := by
  refine (congrFun (Vfin_v12 mI hO c) (ix2 i d)).trans ?_
  refine (shapeCast_apply _ _ (ix2 i d) (ix3 i 0 d) ?_).trans (congrFun (resR_eq mI hO c) (ix3 i 0 d))
  rw [Shape.rowMajor_val_three, Shape.rowMajor_val_two]
  show (i.val * 1 + 0) * 256 + d.val = i.val * 256 + d.val
  omega

/-- The kernel's third result is the projected tail. -/
theorem final_t (hO : Ok mI) (c : Dev nD) (i : Fin 65536) (d : Fin 256) :
    (Vfin mI hO c main_v13 : S65536x256.Idx → EReal) (ix2 i d) = Cert.Spec.proj (aT mI c) (aE mI c) (aM mI c) (aP mI c) 2 i d := by
  refine (congrFun (Vfin_v13 mI hO c) (ix2 i d)).trans ?_
  refine (shapeCast_apply _ _ (ix2 i d) (ix3 i 0 d) ?_).trans (congrFun (resT_eq mI hO c) (ix3 i 0 d))
  rw [Shape.rowMajor_val_three, Shape.rowMajor_val_two]
  show (i.val * 1 + 0) * 256 + d.val = i.val * 256 + d.val
  omega

end Final

end Cert.Kernel.Region

end
-- ==== Proof.K.Run.lean ====
/-
  The run of the program with its three obligations discharged, and what the frame claim reads off it: the five
  argument arrays end as they started.
-/
import proofs.«411737_j76020921140302_2_alg».proof.Proof.K.Launch
import proofs.«411737_j76020921140302_2_alg».proof.Proof.K.Body
import proofs.«411737_j76020921140302_2_alg».proof.Proof.K.Entry
import proofs.«411737_j76020921140302_2_alg».proof.Proof.K.Tail
import proofs.«411737_j76020921140302_2_alg».proof.Proof.K.Value

set_option maxRecDepth 16384

noncomputable section

namespace Cert.Kernel.Region

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Every weakly fair execution of the program terminates without a fault, with the arrays, the index columns and
    the other buffers as RunPost says. -/
theorem run_main (hO : Ok m) : θ_run defs (onTc (τ := τ) (main (F := F))) (s₀ m ρ) (RunPost m hO) :=
  run_of m ρ hO (body_obligation m hO) (entry_split m hO) (tail_run m hO)

/-- The five arguments are among the buffers that bypass the region and that no reshape after it writes. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2.2 main_arg0 (by decide)).trans (Vfin_arg0 m hO c),
     ((h c).2.2 main_arg1 (by decide)).trans (Vfin_arg1 m hO c),
     ((h c).2.2 main_arg2 (by decide)).trans (Vfin_arg2 m hO c),
     ((h c).2.2 main_arg3 (by decide)).trans (Vfin_arg3 m hO c),
     ((h c).2.2 main_arg4 (by decide)).trans (Vfin_arg4 m hO c)⟩) (run_main m ρ hO)

end Cert.Kernel.Region

end
-- ==== Proof.lean ====
/-
  The certificate: a gather-and-project kernel against its gather reference.

  Each triplet row (h, r, t) selects rows of four tables; both programs return e_h + p_r · ⟨m_h, e_h⟩, the
  relation's row, and e_t + p_r · ⟨m_t, e_t⟩. The kernel fetches the six rows of a triplet through windows whose
  block index is the triplet's word; the reference gathers with indices wrapped and kept inside the table. Under the
  precondition every word names a row of its table, so the two row choices agree, and the two programs then apply
  the same arithmetic in the same arrangement: no law of the extended reals beyond 0 + x = x is used.

  The frames of the two kernel programs are the region's run with the five arguments read back; the reference's
  frame is its run with the results dropped.
-/
import proofs.«411737_j76020921140302_2_alg».proof.Defs
import proofs.«411737_j76020921140302_2_alg».proof.Proof.Gen.Kernel
import proofs.«411737_j76020921140302_2_alg».proof.Proof.Gen.KernelIdeal
import proofs.«411737_j76020921140302_2_alg».proof.Proof.Gen.ReferenceIdeal
import proofs.«411737_j76020921140302_2_alg».proof.Proof.Gen.Pre_finite_inputs
import proofs.«411737_j76020921140302_2_alg».proof.Proof.Gen.ReferenceIdeal.Run
import proofs.«411737_j76020921140302_2_alg».proof.Proof.Gen.ReferenceIdeal.Read
import proofs.«411737_j76020921140302_2_alg».proof.Proof.PreDecode
import proofs.«411737_j76020921140302_2_alg».proof.Proof.Ref.Value
import proofs.«411737_j76020921140302_2_alg».proof.Proof.KI.Run
import proofs.«411737_j76020921140302_2_alg».proof.Proof.K.Run

set_option maxRecDepth 16384

noncomputable section

namespace Cert.Proof

open Idealize.ShloMosaic Idealize.ShloMosaic.TcCoe Idealize.SL.Sem Idealize.ShloMosaic.ValueIdx

/-- Under the precondition every index names a row of its table, at the word level … -/
theorem ok_k (m : (ℓ : Loc Cert.Kernel.nD Cert.Kernel.τ Cert.Kernel.sig) → Buf (Elt Bits) ℓ) (h : Cert.Pre_Kernel m) :
    Cert.Kernel.Region.Ok m :=
  Cert.Kernel.Region.ok_of_inRange m (Cert.PreDecode.inRange_of_fn _ _ _ _ _ (h 0))

/-- … and over the extended reals. -/
theorem ok_ki (m : (ℓ : Loc Cert.KernelIdeal.nD Cert.KernelIdeal.τ Cert.KernelIdeal.sig) → Buf (Elt Ideal) ℓ)
    (h : Cert.Pre_KernelIdeal m) : Cert.KernelIdeal.Region.Ok m :=
  Cert.KernelIdeal.Region.ok_of_inRange m (Cert.PreDecode.inRange_of_fn _ _ _ _ _ (h 0))

theorem frame_k : Cert.frame_Kernel := fun m ρ h => Cert.Kernel.Region.frame m ρ (ok_k m h)
theorem frame_ki : Cert.frame_KernelIdeal := fun m ρ h => Cert.KernelIdeal.Region.frame m ρ (ok_ki m h)
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the three specified arrays: the kernel's results are read off its run, the reference's
    off its run's composed term, each identified with the specification index by index. -/
theorem algebraic : Cert.algebraic_KernelIdeal_ReferenceIdeal := by
  intro m ρ m' ρ' hpre hagree
  have hr := Cert.PreDecode.inRange_of_fn _ _ _ _ _ (hpre 0)
  have hO := ok_ki m hpre
  refine ⟨fun c => Cert.KernelIdeal.Region.Vfin m hO c Cert.KernelIdeal.main_v11,
    fun c => Cert.KernelIdeal.Region.Vfin m hO c Cert.KernelIdeal.main_v12,
    fun c => Cert.KernelIdeal.Region.Vfin m hO c Cert.KernelIdeal.main_v13, ?_, ?_⟩
  · refine (θ_run Cert.KernelIdeal.defs _ _).mono (fun r h c => ?_) (Cert.KernelIdeal.Region.run_main m ρ hO)
    exact ⟨(h c).2.2 Cert.KernelIdeal.main_v11 (by decide), (h c).2.2 Cert.KernelIdeal.main_v12 (by decide),
      (h c).2.2 Cert.KernelIdeal.main_v13 (by decide),
      ((h c).2.2 Cert.KernelIdeal.main_arg0 (by decide)).trans (Cert.KernelIdeal.Region.Vfin_arg0 m hO c),
      ((h c).2.2 Cert.KernelIdeal.main_arg1 (by decide)).trans (Cert.KernelIdeal.Region.Vfin_arg1 m hO c),
      ((h c).2.2 Cert.KernelIdeal.main_arg2 (by decide)).trans (Cert.KernelIdeal.Region.Vfin_arg2 m hO c),
      ((h c).2.2 Cert.KernelIdeal.main_arg3 (by decide)).trans (Cert.KernelIdeal.Region.Vfin_arg3 m hO c),
      ((h c).2.2 Cert.KernelIdeal.main_arg4 (by decide)).trans (Cert.KernelIdeal.Region.Vfin_arg4 m hO c)⟩
  · refine (θ_run Cert.ReferenceIdeal.defs _ _).mono (fun r h c => ⟨(h c).1.trans ?_, (h c).2.1.trans ?_,
      (h c).2.2.1.trans ?_, (h c).2.2.2⟩) (Cert.ReferenceIdeal.Value.run (F := Ideal) m' ρ')
    · obtain rfl : c = 0 := Subsingleton.elim _ _
      rw [Cert.ReferenceIdeal.Read.val_main_v53_eq, (hagree 0).1, (hagree 0).2.1, (hagree 0).2.2.1, (hagree 0).2.2.2.2]
      funext j
      obtain ⟨i, d, rfl⟩ : ∃ (i : Fin 65536) (d : Fin 256), j = ix2 i d := ⟨j 0, j 1, eq_ix2 j⟩
      exact (Cert.ReferenceIdeal.RefValue.head_eq _ _ _ _ hr i d).trans (Cert.KernelIdeal.Region.final_h m hO 0 i d).symm
    · obtain rfl : c = 0 := Subsingleton.elim _ _
      rw [Cert.ReferenceIdeal.Read.val_main_v26_eq, (hagree 0).1, (hagree 0).2.2.2.1]
      funext j
      obtain ⟨i, d, rfl⟩ : ∃ (i : Fin 65536) (d : Fin 256), j = ix2 i d := ⟨j 0, j 1, eq_ix2 j⟩
      exact (Cert.ReferenceIdeal.RefValue.rel_eq _ _ hr i d).trans (Cert.KernelIdeal.Region.final_r m hO 0 i d).symm
    · obtain rfl : c = 0 := Subsingleton.elim _ _
      rw [Cert.ReferenceIdeal.Read.val_main_v59_eq, (hagree 0).1, (hagree 0).2.1, (hagree 0).2.2.1, (hagree 0).2.2.2.2]
      funext j
      obtain ⟨i, d, rfl⟩ : ∃ (i : Fin 65536) (d : Fin 256), j = ix2 i d := ⟨j 0, j 1, eq_ix2 j⟩
      exact (Cert.ReferenceIdeal.RefValue.tail_eq _ _ _ _ hr i d).trans (Cert.KernelIdeal.Region.final_t m hO 0 i d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
